-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v210) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x32 : Shape := ⟨2, ![131072, 32]⟩
abbrev S255 : Shape := ⟨1, ![255]⟩
abbrev S256 : Shape := ⟨1, ![256]⟩
abbrev S_ : Shape := ⟨0, ![]⟩

class Facts : Prop where
  bcast_S_S131072x32 : S_.BroadcastsInDim S131072x32 (![] : Fin 0 → Fin S131072x32.rank)
  reducesTo_S131072x32_S_d0_1 : S131072x32.ReducesTo [0, 1] S_
  h_S_ : 0 < S_.numel
  bcast_S_S255 : S_.BroadcastsInDim S255 (![] : Fin 0 → Fin S255.rank)
  reducesTo_S255_S_d0 : S255.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S131072x32 .f32) (main_arg1 : FVec F S255 .f32) (main_arg2 : IVec S255 32) (main_arg3 : IVec S256 32) : IVec S_ 1 :=
  let main_v0 : FVec F S131072x32 .f32 := Host.absf main_arg0
  let main_cst : FVec F S_ .f32 := constant S_ .f32 0x7F800000#32
  let main_v1 : FVec F S131072x32 .f32 := broadcastInDim S131072x32 ![] bcast_S_S131072x32 main_cst
  let main_v2 : IVec S131072x32 1 := cmpf .olt main_v0 main_v1
  let main_c : IVec S_ 1 := constantI S_ 1 1#1
  let main_v3 : IVec S_ 1 := (fun x v => Host.reduce IntOp.andi x v reducesTo_S131072x32_S_d0_1 h_S_) main_v2 main_c
  let main_v4 : FVec F S255 .f32 := Host.absf main_arg1
  let main_cst_0 : FVec F S_ .f32 := constant S_ .f32 0x7F800000#32
  let main_v5 : FVec F S255 .f32 := broadcastInDim S255 ![] bcast_S_S255 main_cst_0
  let main_v6 : IVec S255 1 := cmpf .olt main_v4 main_v5
  let main_c_1 : IVec S_ 1 := constantI S_ 1 1#1
  let main_v7 : IVec S_ 1 := (fun x v => Host.reduce IntOp.andi x v reducesTo_S255_S_d0 h_S_) main_v6 main_c_1
  let main_v8 : IVec S_ 1 := andi main_v3 main_v7
  let main_c_2 : IVec S_ 32 := constantI S_ 32 0#32
  let main_v9 : IVec S255 32 := broadcastInDim S255 ![] bcast_S_S255 main_c_2
  let main_v10 : IVec S255 1 := cmpi .sge main_arg2 main_v9
  let main_c_3 : IVec S_ 1 := constantI S_ 1 1#1
  let main_v11 : IVec S_ 1 := (fun x v => Host.reduce IntOp.andi x v reducesTo_S255_S_d0 h_S_) main_v10 main_c_3
  let main_v12 : IVec S_ 1 := andi main_v8 main_v11
  let main_c_4 : IVec S_ 32 := constantI S_ 32 32#32
  let main_v13 : IVec S255 32 := broadcastInDim S255 ![] bcast_S_S255 main_c_4
  let main_v14 : IVec S255 1 := cmpi .slt main_arg2 main_v13
  let main_c_5 : IVec S_ 1 := constantI S_ 1 1#1
  let main_v15 : IVec S_ 1 := (fun x v => Host.reduce IntOp.andi x v reducesTo_S255_S_d0 h_S_) main_v14 main_c_5
  fn_part1 (F := F) main_v12 main_v15
-- ==== Kernel.lean ====
abbrev S131072x32 : Shape := ⟨2, ![131072, 32]⟩
abbrev S255 : Shape := ⟨1, ![255]⟩
abbrev S256 : Shape := ⟨1, ![256]⟩
abbrev S255x1 : Shape := ⟨2, ![255, 1]⟩
abbrev S1x32 : Shape := ⟨2, ![1, 32]⟩
abbrev S255x32 : Shape := ⟨2, ![255, 32]⟩
abbrev S32x255 : Shape := ⟨2, ![32, 255]⟩
abbrev S1x255 : Shape := ⟨2, ![1, 255]⟩
abbrev S256x1 : Shape := ⟨2, ![256, 1]⟩
abbrev S1x10 : Shape := ⟨2, ![1, 10]⟩
abbrev S256x10 : Shape := ⟨2, ![256, 10]⟩
abbrev S131072x10 : Shape := ⟨2, ![131072, 10]⟩
abbrev S512x32 : Shape := ⟨2, ![512, 32]⟩
abbrev S512x10 : Shape := ⟨2, ![512, 10]⟩
abbrev S512x255 : Shape := ⟨2, ![512, 255]⟩
abbrev S512x1 : Shape := ⟨2, ![512, 1]⟩
abbrev S512x1x1 : Shape := ⟨3, ![512, 1, 1]⟩
abbrev S512x1x2 : Shape := ⟨3, ![512, 1, 2]⟩
abbrev S512x2 : Shape := ⟨2, ![512, 2]⟩
abbrev S512x2x1 : Shape := ⟨3, ![512, 2, 1]⟩
abbrev S512x2x2 : Shape := ⟨3, ![512, 2, 2]⟩
abbrev S512x4 : Shape := ⟨2, ![512, 4]⟩
abbrev S512x4x1 : Shape := ⟨3, ![512, 4, 1]⟩
abbrev S512x4x2 : Shape := ⟨3, ![512, 4, 2]⟩
abbrev S512x8 : Shape := ⟨2, ![512, 8]⟩
abbrev S512x8x1 : Shape := ⟨3, ![512, 8, 1]⟩
abbrev S512x8x2 : Shape := ⟨3, ![512, 8, 2]⟩
abbrev S512x16 : Shape := ⟨2, ![512, 16]⟩
abbrev S512x16x1 : Shape := ⟨3, ![512, 16, 1]⟩
abbrev S512x16x2 : Shape := ⟨3, ![512, 16, 2]⟩
abbrev S512x32x1 : Shape := ⟨3, ![512, 32, 1]⟩
abbrev S512x32x2 : Shape := ⟨3, ![512, 32, 2]⟩
abbrev S512x64 : Shape := ⟨2, ![512, 64]⟩
abbrev S512x64x1 : Shape := ⟨3, ![512, 64, 1]⟩
abbrev S512x64x2 : Shape := ⟨3, ![512, 64, 2]⟩
abbrev S512x128 : Shape := ⟨2, ![512, 128]⟩
abbrev S512x128x1 : Shape := ⟨3, ![512, 128, 1]⟩
abbrev S512x128x2 : Shape := ⟨3, ![512, 128, 2]⟩
abbrev S512x256 : Shape := ⟨2, ![512, 256]⟩

abbrev nBuf : Space → Nat
  | .hbm => 19
  | .vmem => 7
  | .smem => 0
  | _ => 0

abbrev bufTy : (tb : Table) → Fin (tcTables nBuf tb) → BufTy
  | .hbm, ⟨0, _⟩ => ⟨S131072x32, .f32⟩
  | .hbm, ⟨1, _⟩ => ⟨S255, .f32⟩
  | .hbm, ⟨2, _⟩ => ⟨S255, .i32⟩
  | .hbm, ⟨3, _⟩ => ⟨S256, .i32⟩
  | .hbm, ⟨4, _⟩ => ⟨S255x1, .i32⟩
  | .hbm, ⟨5, _⟩ => ⟨S1x32, .i32⟩
  | .hbm, ⟨6, _⟩ => ⟨S255x32, .i32⟩
  | .hbm, ⟨7, _⟩ => ⟨S255x32, .i32⟩
  | .hbm, ⟨8, _⟩ => ⟨S255x32, .i1⟩
  | .hbm, ⟨9, _⟩ => ⟨S255x32, .f32⟩
  | .hbm, ⟨10, _⟩ => ⟨S32x255, .f32⟩
  | .hbm, ⟨11, _⟩ => ⟨S1x255, .f32⟩
  | .hbm, ⟨12, _⟩ => ⟨S256x1, .i32⟩
  | .hbm, ⟨13, _⟩ => ⟨S1x10, .i32⟩
  | .hbm, ⟨14, _⟩ => ⟨S256x10, .i32⟩
  | .hbm, ⟨15, _⟩ => ⟨S256x10, .i32⟩
  | .hbm, ⟨16, _⟩ => ⟨S256x10, .i1⟩
  | .hbm, ⟨17, _⟩ => ⟨S256x10, .f32⟩
  | .hbm, ⟨18, _⟩ => ⟨S131072x10, .f32⟩
  | .local _ .vmem, ⟨0, _⟩ => ⟨S512x32, .f32⟩
  | .local _ .vmem, ⟨1, _⟩ => ⟨S512x32, .f32⟩
  | .local _ .vmem, ⟨2, _⟩ => ⟨S32x255, .f32⟩
  | .local _ .vmem, ⟨3, _⟩ => ⟨S1x255, .f32⟩
  | .local _ .vmem, ⟨4, _⟩ => ⟨S256x10, .f32⟩
  | .local _ .vmem, ⟨5, _⟩ => ⟨S512x10, .f32⟩
  | .local _ .vmem, ⟨6, _⟩ => ⟨S512x10, .f32⟩
  | _, _ => ⟨S131072x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_call1_v0 : Ref sig .tc := ⟨.hbm, 12, rfl⟩
abbrev main_call1_v1 : Ref sig .tc := ⟨.hbm, 13, rfl⟩
abbrev main_call1_v2 : Ref sig .tc := ⟨.hbm, 14, rfl⟩
abbrev main_call1_v3 : Ref sig .tc := ⟨.hbm, 15, rfl⟩
abbrev main_call1_v4 : Ref sig .tc := ⟨.hbm, 16, rfl⟩
abbrev main_v3 : Ref sig .tc := ⟨.hbm, 17, rfl⟩
abbrev main_v4 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x255 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x255 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x10 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x10 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S255_S255x1_0 : S255.BroadcastsInDim S255x1 (![0] : Fin 1 → Fin S255x1.rank)
  bcast_S255x1_S255x32_0_1 : S255x1.BroadcastsInDim S255x32 (![0, 1] : Fin 2 → Fin S255x32.rank)
  bcast_S1x32_S255x32_0_1 : S1x32.BroadcastsInDim S255x32 (![0, 1] : Fin 2 → Fin S255x32.rank)
  transposes_S255x32_S32x255_1_0 : S255x32.Transposes [1, 0] S32x255
  shapeCasts_S255_S1x255 : S255.ShapeCasts S1x255
  bcast_S256_S256x1_0 : S256.BroadcastsInDim S256x1 (![0] : Fin 1 → Fin S256x1.rank)
  bcast_S256x1_S256x10_0_1 : S256x1.BroadcastsInDim S256x10 (![0, 1] : Fin 2 → Fin S256x10.rank)
  bcast_S1x10_S256x10_0_1 : S1x10.BroadcastsInDim S256x10 (![0, 1] : Fin 2 → Fin S256x10.rank)
  inb_S512x32_S512x32_0_0 : ∀ a, (![0, 0] : Fin 2 → Nat) a + S512x32.size a ≤ S512x32.size a
  h_S512x32 : 0 < S512x32.numel
  inb_S32x255_S32x255_0_0 : ∀ a, (![0, 0] : Fin 2 → Nat) a + S32x255.size a ≤ S32x255.size a
  h_S32x255 : 0 < S32x255.numel
  shapeCasts_S32x255_S32x255 : S32x255.ShapeCasts S32x255
  inb_S1x255_S1x255_0_0 : ∀ a, (![0, 0] : Fin 2 → Nat) a + S1x255.size a ≤ S1x255.size a
  h_S1x255 : 0 < S1x255.numel
  shapeCasts_S1x255_S1x255 : S1x255.ShapeCasts S1x255
  inb_S256x10_S256x10_0_0 : ∀ a, (![0, 0] : Fin 2 → Nat) a + S256x10.size a ≤ S256x10.size a
  h_S256x10 : 0 < S256x10.numel
  shapeCasts_S256x10_S256x10 : S256x10.ShapeCasts S256x10
  broadcasts_S1x255_S512x255 : S1x255.Broadcasts S512x255
  slices_S512x255_o0_0_S512x1 : S512x255.Slices ![0, 0] S512x1
  shapeCasts_S512x1_S512x1x1 : S512x1.ShapeCasts S512x1x1
  concatenates_S512x1x1_S512x1x1_S512x1x2_d2 : Shape.Concatenates [S512x1x1, S512x1x1] S512x1x2 2
  shapeCasts_S512x1x2_S512x2 : S512x1x2.ShapeCasts S512x2
  slices_S512x255_o0_1_S512x2 : S512x255.Slices ![0, 1] S512x2
  shapeCasts_S512x2_S512x2x1 : S512x2.ShapeCasts S512x2x1
  concatenates_S512x2x1_S512x2x1_S512x2x2_d2 : Shape.Concatenates [S512x2x1, S512x2x1] S512x2x2 2
  shapeCasts_S512x2x2_S512x4 : S512x2x2.ShapeCasts S512x4
  slices_S512x255_o0_3_S512x4 : S512x255.Slices ![0, 3] S512x4
  shapeCasts_S512x4_S512x4x1 : S512x4.ShapeCasts S512x4x1
  concatenates_S512x4x1_S512x4x1_S512x4x2_d2 : Shape.Concatenates [S512x4x1, S512x4x1] S512x4x2 2
  shapeCasts_S512x4x2_S512x8 : S512x4x2.ShapeCasts S512x8
  slices_S512x255_o0_7_S512x8 : S512x255.Slices ![0, 7] S512x8
  shapeCasts_S512x8_S512x8x1 : S512x8.ShapeCasts S512x8x1
  concatenates_S512x8x1_S512x8x1_S512x8x2_d2 : Shape.Concatenates [S512x8x1, S512x8x1] S512x8x2 2
  shapeCasts_S512x8x2_S512x16 : S512x8x2.ShapeCasts S512x16
  slices_S512x255_o0_15_S512x16 : S512x255.Slices ![0, 15] S512x16
  shapeCasts_S512x16_S512x16x1 : S512x16.ShapeCasts S512x16x1
  concatenates_S512x16x1_S512x16x1_S512x16x2_d2 : Shape.Concatenates [S512x16x1, S512x16x1] S512x16x2 2
  shapeCasts_S512x16x2_S512x32 : S512x16x2.ShapeCasts S512x32
  slices_S512x255_o0_31_S512x32 : S512x255.Slices ![0, 31] S512x32
  shapeCasts_S512x32_S512x32x1 : S512x32.ShapeCasts S512x32x1
  concatenates_S512x32x1_S512x32x1_S512x32x2_d2 : Shape.Concatenates [S512x32x1, S512x32x1] S512x32x2 2
  shapeCasts_S512x32x2_S512x64 : S512x32x2.ShapeCasts S512x64
  slices_S512x255_o0_63_S512x64 : S512x255.Slices ![0, 63] S512x64
  shapeCasts_S512x64_S512x64x1 : S512x64.ShapeCasts S512x64x1
  concatenates_S512x64x1_S512x64x1_S512x64x2_d2 : Shape.Concatenates [S512x64x1, S512x64x1] S512x64x2 2
  shapeCasts_S512x64x2_S512x128 : S512x64x2.ShapeCasts S512x128
  slices_S512x255_o0_127_S512x128 : S512x255.Slices ![0, 127] S512x128
  shapeCasts_S512x128_S512x128x1 : S512x128.ShapeCasts S512x128x1
  concatenates_S512x128x1_S512x128x1_S512x128x2_d2 : Shape.Concatenates [S512x128x1, S512x128x1] S512x128x2 2
  shapeCasts_S512x128x2_S512x256 : S512x128x2.ShapeCasts S512x256
  inb_S512x10_S512x10_0_0 : ∀ a, (![0, 0] : Fin 2 → Nat) a + S512x10.size a ≤ S512x10.size a
  h_S512x10 : 0 < S512x10.numel
  dot_S512x32_S32x255_S512x255_1_0_0_1_n_n_wf : DotDims.WF S512x32 S32x255 S512x255 [1] [0] [0] [1] [] []
  dot_S512x256_S256x10_S512x10_1_0_0_1_n_n_wf : DotDims.WF S512x256 S256x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x32.size a ≤ S131072x32.size a
  hwx0_0 : ∀ i : grid0.Coords, EltTy.bits .f32 = 32 ∨ (Rect.block (s := S131072x32) S512x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x255.size a ≤ S32x255.size a
  hwx0_1 : ∀ i : grid0.Coords, EltTy.bits .f32 = 32 ∨ (Rect.block (s := S32x255) S32x255.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x255.size a ≤ S1x255.size a
  hwx0_2 : ∀ i : grid0.Coords, EltTy.bits .f32 = 32 ∨ (Rect.block (s := S1x255) S1x255.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x10.size a ≤ S256x10.size a
  hwx0_3 : ∀ i : grid0.Coords, EltTy.bits .f32 = 32 ∨ (Rect.block (s := S256x10) S256x10.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x10.size a ≤ S131072x10.size a
  hwx0_4 : ∀ i : grid0.Coords, EltTy.bits .f32 = 32 ∨ (Rect.block (s := S131072x10) S512x10.size (cc0_transform_4 i) (hinb0_4 i)).WholeWords (EltTy.packing .f32)

variable [Facts₀]

def dot_S512x32_S32x255_S512x255_1_0_0_1_n_n : DotDims S512x32 S32x255 S512x255 where
  lhsContracting := [1]
  rhsContracting := [0]
  lhsNonContracting := [0]
  rhsNonContracting := [1]
  lhsBatch := []
  rhsBatch := []
  wf := dot_S512x32_S32x255_S512x255_1_0_0_1_n_n_wf
def dot_S512x256_S256x10_S512x10_1_0_0_1_n_n : DotDims S512x256 S256x10 S512x10 where
  lhsContracting := [1]
  rhsContracting := [0]
  lhsNonContracting := [0]
  rhsNonContracting := [1]
  lhsBatch := []
  rhsBatch := []
  wf := dot_S512x256_S256x10_S512x10_1_0_0_1_n_n_wf

abbrev win0_0 : Pipeline.Window sig grid0 :=
  Pipeline.Window.ofSpec (Memref.whole main_arg0) S512x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S32x255.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x255.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x10.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S512x10.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S131072x32 : Shape := ⟨2, ![131072, 32]⟩
abbrev S255 : Shape := ⟨1, ![255]⟩
abbrev S256 : Shape := ⟨1, ![256]⟩
abbrev S_ : Shape := ⟨0, ![]⟩
abbrev S131072x1 : Shape := ⟨2, ![131072, 1]⟩
abbrev S1 : Shape := ⟨1, ![1]⟩
abbrev S1x1 : Shape := ⟨2, ![1, 1]⟩
abbrev S131072x1x1 : Shape := ⟨3, ![131072, 1, 1]⟩
abbrev S131072x1x2 : Shape := ⟨3, ![131072, 1, 2]⟩
abbrev S131072x2 : Shape := ⟨2, ![131072, 2]⟩
abbrev S2 : Shape := ⟨1, ![2]⟩
abbrev S2x1 : Shape := ⟨2, ![2, 1]⟩
abbrev S1x2 : Shape := ⟨2, ![1, 2]⟩
abbrev S131072x2x1 : Shape := ⟨3, ![131072, 2, 1]⟩
abbrev S131072x2x2 : Shape := ⟨3, ![131072, 2, 2]⟩
abbrev S131072x4 : Shape := ⟨2, ![131072, 4]⟩
abbrev S4 : Shape := ⟨1, ![4]⟩
abbrev S4x1 : Shape := ⟨2, ![4, 1]⟩
abbrev S1x4 : Shape := ⟨2, ![1, 4]⟩
abbrev S131072x4x1 : Shape := ⟨3, ![131072, 4, 1]⟩
abbrev S131072x4x2 : Shape := ⟨3, ![131072, 4, 2]⟩
abbrev S131072x8 : Shape := ⟨2, ![131072, 8]⟩
abbrev S8 : Shape := ⟨1, ![8]⟩
abbrev S8x1 : Shape := ⟨2, ![8, 1]⟩
abbrev S1x8 : Shape := ⟨2, ![1, 8]⟩
abbrev S131072x8x1 : Shape := ⟨3, ![131072, 8, 1]⟩
abbrev S131072x8x2 : Shape := ⟨3, ![131072, 8, 2]⟩
abbrev S131072x16 : Shape := ⟨2, ![131072, 16]⟩
abbrev S16 : Shape := ⟨1, ![16]⟩
abbrev S16x1 : Shape := ⟨2, ![16, 1]⟩
abbrev S1x16 : Shape := ⟨2, ![1, 16]⟩
abbrev S131072x16x1 : Shape := ⟨3, ![131072, 16, 1]⟩
abbrev S131072x16x2 : Shape := ⟨3, ![131072, 16, 2]⟩
abbrev S32 : Shape := ⟨1, ![32]⟩
abbrev S32x1 : Shape := ⟨2, ![32, 1]⟩
abbrev S1x32 : Shape := ⟨2, ![1, 32]⟩
abbrev S131072x32x1 : Shape := ⟨3, ![131072, 32, 1]⟩
abbrev S131072x32x2 : Shape := ⟨3, ![131072, 32, 2]⟩
abbrev S131072x64 : Shape := ⟨2, ![131072, 64]⟩
abbrev S64 : Shape := ⟨1, ![64]⟩
abbrev S64x1 : Shape := ⟨2, ![64, 1]⟩
abbrev S1x64 : Shape := ⟨2, ![1, 64]⟩
abbrev S131072x64x1 : Shape := ⟨3, ![131072, 64, 1]⟩
abbrev S131072x64x2 : Shape := ⟨3, ![131072, 64, 2]⟩
abbrev S131072x128 : Shape := ⟨2, ![131072, 128]⟩
abbrev S128 : Shape := ⟨1, ![128]⟩
abbrev S128x1 : Shape := ⟨2, ![128, 1]⟩
abbrev S1x128 : Shape := ⟨2, ![1, 128]⟩
abbrev S131072x128x1 : Shape := ⟨3, ![131072, 128, 1]⟩
abbrev S131072x128x2 : Shape := ⟨3, ![131072, 128, 2]⟩
abbrev S131072x256 : Shape := ⟨2, ![131072, 256]⟩
abbrev S256x1 : Shape := ⟨2, ![256, 1]⟩
abbrev S1x10 : Shape := ⟨2, ![1, 10]⟩
abbrev S256x10 : Shape := ⟨2, ![256, 10]⟩
abbrev S131072x10 : Shape := ⟨2, ![131072, 10]⟩

abbrev nBuf : Space → Nat
  | .hbm => 261
  | .vmem => 0
  | .smem => 0
  | _ => 0

abbrev hbmTy0_0 (i : Nat) : BufTy := match i % 128 with
  | 0 => ⟨S131072x32, .f32⟩
  | 1 => ⟨S255, .f32⟩
  | 2 => ⟨S255, .i32⟩
  | 3 => ⟨S256, .i32⟩
  | 4 => ⟨S_, .f32⟩
  | 5 => ⟨S131072x1, .f32⟩
  | 6 => ⟨S1, .i32⟩
  | 7 => ⟨S1, .f32⟩
  | 8 => ⟨S_, .i32⟩
  | 9 => ⟨S1, .i32⟩
  | 10 => ⟨S1, .i1⟩
  | 11 => ⟨S_, .i32⟩
  | 12 => ⟨S1, .i32⟩
  | 13 => ⟨S1, .i32⟩
  | 14 => ⟨S1, .i32⟩
  | 15 => ⟨S1x1, .i32⟩
  | 16 => ⟨S131072x1, .f32⟩
  | 17 => ⟨S1x1, .f32⟩
  | 18 => ⟨S131072x1, .f32⟩
  | 19 => ⟨S131072x1, .f32⟩
  | 20 => ⟨S131072x1, .f32⟩
  | 21 => ⟨S131072x1, .f32⟩
  | 22 => ⟨S_, .f32⟩
  | 23 => ⟨S131072x1, .f32⟩
  | 24 => ⟨S131072x1, .f32⟩
  | 25 => ⟨S_, .f32⟩
  | 26 => ⟨S131072x1, .f32⟩
  | 27 => ⟨S131072x1, .f32⟩
  | 28 => ⟨S_, .f32⟩
  | 29 => ⟨S131072x1, .f32⟩
  | 30 => ⟨S131072x1, .f32⟩
  | 31 => ⟨S131072x1, .f32⟩
  | 32 => ⟨S131072x1, .f32⟩
  | 33 => ⟨S131072x1x1, .f32⟩
  | 34 => ⟨S131072x1x1, .f32⟩
  | 35 => ⟨S131072x1x2, .f32⟩
  | 36 => ⟨S131072x2, .f32⟩
  | 37 => ⟨S2, .i32⟩
  | 38 => ⟨S2, .f32⟩
  | 39 => ⟨S_, .i32⟩
  | 40 => ⟨S2, .i32⟩
  | 41 => ⟨S2, .i1⟩
  | 42 => ⟨S_, .i32⟩
  | 43 => ⟨S2, .i32⟩
  | 44 => ⟨S2, .i32⟩
  | 45 => ⟨S2, .i32⟩
  | 46 => ⟨S2x1, .i32⟩
  | 47 => ⟨S131072x2, .f32⟩
  | 48 => ⟨S1x2, .f32⟩
  | 49 => ⟨S131072x2, .f32⟩
  | 50 => ⟨S131072x2, .f32⟩
  | 51 => ⟨S131072x2, .f32⟩
  | 52 => ⟨S131072x2, .f32⟩
  | 53 => ⟨S_, .f32⟩
  | 54 => ⟨S131072x2, .f32⟩
  | 55 => ⟨S131072x2, .f32⟩
  | 56 => ⟨S_, .f32⟩
  | 57 => ⟨S131072x2, .f32⟩
  | 58 => ⟨S131072x2, .f32⟩
  | 59 => ⟨S_, .f32⟩
  | 60 => ⟨S131072x2, .f32⟩
  | 61 => ⟨S131072x2, .f32⟩
  | 62 => ⟨S131072x2, .f32⟩
  | 63 => ⟨S131072x2, .f32⟩
  | 64 => ⟨S131072x2x1, .f32⟩
  | 65 => ⟨S131072x2x1, .f32⟩
  | 66 => ⟨S131072x2x2, .f32⟩
  | 67 => ⟨S131072x4, .f32⟩
  | 68 => ⟨S4, .i32⟩
  | 69 => ⟨S4, .f32⟩
  | 70 => ⟨S_, .i32⟩
  | 71 => ⟨S4, .i32⟩
  | 72 => ⟨S4, .i1⟩
  | 73 => ⟨S_, .i32⟩
  | 74 => ⟨S4, .i32⟩
  | 75 => ⟨S4, .i32⟩
  | 76 => ⟨S4, .i32⟩
  | 77 => ⟨S4x1, .i32⟩
  | 78 => ⟨S131072x4, .f32⟩
  | 79 => ⟨S1x4, .f32⟩
  | 80 => ⟨S131072x4, .f32⟩
  | 81 => ⟨S131072x4, .f32⟩
  | 82 => ⟨S131072x4, .f32⟩
  | 83 => ⟨S131072x4, .f32⟩
  | 84 => ⟨S_, .f32⟩
  | 85 => ⟨S131072x4, .f32⟩
  | 86 => ⟨S131072x4, .f32⟩
  | 87 => ⟨S_, .f32⟩
  | 88 => ⟨S131072x4, .f32⟩
  | 89 => ⟨S131072x4, .f32⟩
  | 90 => ⟨S_, .f32⟩
  | 91 => ⟨S131072x4, .f32⟩
  | 92 => ⟨S131072x4, .f32⟩
  | 93 => ⟨S131072x4, .f32⟩
  | 94 => ⟨S131072x4, .f32⟩
  | 95 => ⟨S131072x4x1, .f32⟩
  | 96 => ⟨S131072x4x1, .f32⟩
  | 97 => ⟨S131072x4x2, .f32⟩
  | 98 => ⟨S131072x8, .f32⟩
  | 99 => ⟨S8, .i32⟩
  | 100 => ⟨S8, .f32⟩
  | 101 => ⟨S_, .i32⟩
  | 102 => ⟨S8, .i32⟩
  | 103 => ⟨S8, .i1⟩
  | 104 => ⟨S_, .i32⟩
  | 105 => ⟨S8, .i32⟩
  | 106 => ⟨S8, .i32⟩
  | 107 => ⟨S8, .i32⟩
  | 108 => ⟨S8x1, .i32⟩
  | 109 => ⟨S131072x8, .f32⟩
  | 110 => ⟨S1x8, .f32⟩
  | 111 => ⟨S131072x8, .f32⟩
  | 112 => ⟨S131072x8, .f32⟩
  | 113 => ⟨S131072x8, .f32⟩
  | 114 => ⟨S131072x8, .f32⟩
  | 115 => ⟨S_, .f32⟩
  | 116 => ⟨S131072x8, .f32⟩
  | 117 => ⟨S131072x8, .f32⟩
  | 118 => ⟨S_, .f32⟩
  | 119 => ⟨S131072x8, .f32⟩
  | 120 => ⟨S131072x8, .f32⟩
  | 121 => ⟨S_, .f32⟩
  | 122 => ⟨S131072x8, .f32⟩
  | 123 => ⟨S131072x8, .f32⟩
  | 124 => ⟨S131072x8, .f32⟩
  | 125 => ⟨S131072x8, .f32⟩
  | 126 => ⟨S131072x8x1, .f32⟩
  | 127 => ⟨S131072x8x1, .f32⟩
  | _ => ⟨S131072x32, .f32⟩

abbrev hbmTy0_1 (i : Nat) : BufTy := match i % 128 with
  | 0 => ⟨S131072x8x2, .f32⟩
  | 1 => ⟨S131072x16, .f32⟩
  | 2 => ⟨S16, .i32⟩
  | 3 => ⟨S16, .f32⟩
  | 4 => ⟨S_, .i32⟩
  | 5 => ⟨S16, .i32⟩
  | 6 => ⟨S16, .i1⟩
  | 7 => ⟨S_, .i32⟩
  | 8 => ⟨S16, .i32⟩
  | 9 => ⟨S16, .i32⟩
  | 10 => ⟨S16, .i32⟩
  | 11 => ⟨S16x1, .i32⟩
  | 12 => ⟨S131072x16, .f32⟩
  | 13 => ⟨S1x16, .f32⟩
  | 14 => ⟨S131072x16, .f32⟩
  | 15 => ⟨S131072x16, .f32⟩
  | 16 => ⟨S131072x16, .f32⟩
  | 17 => ⟨S131072x16, .f32⟩
  | 18 => ⟨S_, .f32⟩
  | 19 => ⟨S131072x16, .f32⟩
  | 20 => ⟨S131072x16, .f32⟩
  | 21 => ⟨S_, .f32⟩
  | 22 => ⟨S131072x16, .f32⟩
  | 23 => ⟨S131072x16, .f32⟩
  | 24 => ⟨S_, .f32⟩
  | 25 => ⟨S131072x16, .f32⟩
  | 26 => ⟨S131072x16, .f32⟩
  | 27 => ⟨S131072x16, .f32⟩
  | 28 => ⟨S131072x16, .f32⟩
  | 29 => ⟨S131072x16x1, .f32⟩
  | 30 => ⟨S131072x16x1, .f32⟩
  | 31 => ⟨S131072x16x2, .f32⟩
  | 32 => ⟨S131072x32, .f32⟩
  | 33 => ⟨S32, .i32⟩
  | 34 => ⟨S32, .f32⟩
  | 35 => ⟨S_, .i32⟩
  | 36 => ⟨S32, .i32⟩
  | 37 => ⟨S32, .i1⟩
  | 38 => ⟨S_, .i32⟩
  | 39 => ⟨S32, .i32⟩
  | 40 => ⟨S32, .i32⟩
  | 41 => ⟨S32, .i32⟩
  | 42 => ⟨S32x1, .i32⟩
  | 43 => ⟨S131072x32, .f32⟩
  | 44 => ⟨S1x32, .f32⟩
  | 45 => ⟨S131072x32, .f32⟩
  | 46 => ⟨S131072x32, .f32⟩
  | 47 => ⟨S131072x32, .f32⟩
  | 48 => ⟨S131072x32, .f32⟩
  | 49 => ⟨S_, .f32⟩
  | 50 => ⟨S131072x32, .f32⟩
  | 51 => ⟨S131072x32, .f32⟩
  | 52 => ⟨S_, .f32⟩
  | 53 => ⟨S131072x32, .f32⟩
  | 54 => ⟨S131072x32, .f32⟩
  | 55 => ⟨S_, .f32⟩
  | 56 => ⟨S131072x32, .f32⟩
  | 57 => ⟨S131072x32, .f32⟩
  | 58 => ⟨S131072x32, .f32⟩
  | 59 => ⟨S131072x32, .f32⟩
  | 60 => ⟨S131072x32x1, .f32⟩
  | 61 => ⟨S131072x32x1, .f32⟩
  | 62 => ⟨S131072x32x2, .f32⟩
  | 63 => ⟨S131072x64, .f32⟩
  | 64 => ⟨S64, .i32⟩
  | 65 => ⟨S64, .f32⟩
  | 66 => ⟨S_, .i32⟩
  | 67 => ⟨S64, .i32⟩
  | 68 => ⟨S64, .i1⟩
  | 69 => ⟨S_, .i32⟩
  | 70 => ⟨S64, .i32⟩
  | 71 => ⟨S64, .i32⟩
  | 72 => ⟨S64, .i32⟩
  | 73 => ⟨S64x1, .i32⟩
  | 74 => ⟨S131072x64, .f32⟩
  | 75 => ⟨S1x64, .f32⟩
  | 76 => ⟨S131072x64, .f32⟩
  | 77 => ⟨S131072x64, .f32⟩
  | 78 => ⟨S131072x64, .f32⟩
  | 79 => ⟨S131072x64, .f32⟩
  | 80 => ⟨S_, .f32⟩
  | 81 => ⟨S131072x64, .f32⟩
  | 82 => ⟨S131072x64, .f32⟩
  | 83 => ⟨S_, .f32⟩
  | 84 => ⟨S131072x64, .f32⟩
  | 85 => ⟨S131072x64, .f32⟩
  | 86 => ⟨S_, .f32⟩
  | 87 => ⟨S131072x64, .f32⟩
  | 88 => ⟨S131072x64, .f32⟩
  | 89 => ⟨S131072x64, .f32⟩
  | 90 => ⟨S131072x64, .f32⟩
  | 91 => ⟨S131072x64x1, .f32⟩
  | 92 => ⟨S131072x64x1, .f32⟩
  | 93 => ⟨S131072x64x2, .f32⟩
  | 94 => ⟨S131072x128, .f32⟩
  | 95 => ⟨S128, .i32⟩
  | 96 => ⟨S128, .f32⟩
  | 97 => ⟨S_, .i32⟩
  | 98 => ⟨S128, .i32⟩
  | 99 => ⟨S128, .i1⟩
  | 100 => ⟨S_, .i32⟩
  | 101 => ⟨S128, .i32⟩
  | 102 => ⟨S128, .i32⟩
  | 103 => ⟨S128, .i32⟩
  | 104 => ⟨S128x1, .i32⟩
  | 105 => ⟨S131072x128, .f32⟩
  | 106 => ⟨S1x128, .f32⟩
  | 107 => ⟨S131072x128, .f32⟩
  | 108 => ⟨S131072x128, .f32⟩
  | 109 => ⟨S131072x128, .f32⟩
  | 110 => ⟨S131072x128, .f32⟩
  | 111 => ⟨S_, .f32⟩
  | 112 => ⟨S131072x128, .f32⟩
  | 113 => ⟨S131072x128, .f32⟩
  | 114 => ⟨S_, .f32⟩
  | 115 => ⟨S131072x128, .f32⟩
  | 116 => ⟨S131072x128, .f32⟩
  | 117 => ⟨S_, .f32⟩
  | 118 => ⟨S131072x128, .f32⟩
  | 119 => ⟨S131072x128, .f32⟩
  | 120 => ⟨S131072x128, .f32⟩
  | 121 => ⟨S131072x128, .f32⟩
  | 122 => ⟨S131072x128x1, .f32⟩
  | 123 => ⟨S131072x128x1, .f32⟩
  | 124 => ⟨S131072x128x2, .f32⟩
  | 125 => ⟨S131072x256, .f32⟩
  | 126 => ⟨S256x1, .i32⟩
  | 127 => ⟨S1x10, .i32⟩
  | _ => ⟨S131072x32, .f32⟩

abbrev hbmTy0_2 (i : Nat) : BufTy := match i % 128 with
  | 0 => ⟨S256x10, .i32⟩
  | 1 => ⟨S256x10, .i32⟩
  | 2 => ⟨S256x10, .i1⟩
  | 3 => ⟨S256x10, .f32⟩
  | 4 => ⟨S131072x10, .f32⟩
  | _ => ⟨S131072x32, .f32⟩

abbrev hbmTy (i : Nat) : BufTy := match i / 128 with
  | 0 => hbmTy0_0 i
  | 1 => hbmTy0_1 i
  | 2 => hbmTy0_2 i
  | _ => ⟨S131072x32, .f32⟩

abbrev bufTy : (tb : Table) → Fin (tcTables nBuf tb) → BufTy
  | .hbm, ⟨i, _⟩ => hbmTy i
  | _, _ => ⟨S131072x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_4 : Ref sig .tc := ⟨.hbm, 39, rfl⟩
abbrev main_v29 : Ref sig .tc := ⟨.hbm, 40, rfl⟩
abbrev main_v30 : Ref sig .tc := ⟨.hbm, 41, rfl⟩
abbrev main_c_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_6 : Ref sig .tc := ⟨.hbm, 53, rfl⟩
abbrev main_v41 : Ref sig .tc := ⟨.hbm, 54, rfl⟩
abbrev main_v42 : Ref sig .tc := ⟨.hbm, 55, rfl⟩
abbrev main_cst_7 : Ref sig .tc := ⟨.hbm, 56, rfl⟩
abbrev main_v43 : Ref sig .tc := ⟨.hbm, 57, rfl⟩
abbrev main_v44 : Ref sig .tc := ⟨.hbm, 58, rfl⟩
abbrev main_cst_8 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_c_9 : Ref sig .tc := ⟨.hbm, 70, rfl⟩
abbrev main_v55 : Ref sig .tc := ⟨.hbm, 71, rfl⟩
abbrev main_v56 : Ref sig .tc := ⟨.hbm, 72, rfl⟩
abbrev main_c_10 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_cst_11 : Ref sig .tc := ⟨.hbm, 84, rfl⟩
abbrev main_v67 : Ref sig .tc := ⟨.hbm, 85, rfl⟩
abbrev main_v68 : Ref sig .tc := ⟨.hbm, 86, rfl⟩
abbrev main_cst_12 : Ref sig .tc := ⟨.hbm, 87, rfl⟩
abbrev main_v69 : Ref sig .tc := ⟨.hbm, 88, rfl⟩
abbrev main_v70 : Ref sig .tc := ⟨.hbm, 89, rfl⟩
abbrev main_cst_13 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_c_14 : Ref sig .tc := ⟨.hbm, 101, rfl⟩
abbrev main_v81 : Ref sig .tc := ⟨.hbm, 102, rfl⟩
abbrev main_v82 : Ref sig .tc := ⟨.hbm, 103, rfl⟩
abbrev main_c_15 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_cst_16 : Ref sig .tc := ⟨.hbm, 115, rfl⟩
abbrev main_v93 : Ref sig .tc := ⟨.hbm, 116, rfl⟩
abbrev main_v94 : Ref sig .tc := ⟨.hbm, 117, rfl⟩
abbrev main_cst_17 : Ref sig .tc := ⟨.hbm, 118, rfl⟩
abbrev main_v95 : Ref sig .tc := ⟨.hbm, 119, rfl⟩
abbrev main_v96 : Ref sig .tc := ⟨.hbm, 120, rfl⟩
abbrev main_cst_18 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_c_19 : Ref sig .tc := ⟨.hbm, 132, rfl⟩
abbrev main_v107 : Ref sig .tc := ⟨.hbm, 133, rfl⟩
abbrev main_v108 : Ref sig .tc := ⟨.hbm, 134, rfl⟩
abbrev main_c_20 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_cst_21 : Ref sig .tc := ⟨.hbm, 146, rfl⟩
abbrev main_v119 : Ref sig .tc := ⟨.hbm, 147, rfl⟩
abbrev main_v120 : Ref sig .tc := ⟨.hbm, 148, rfl⟩
abbrev main_cst_22 : Ref sig .tc := ⟨.hbm, 149, rfl⟩
abbrev main_v121 : Ref sig .tc := ⟨.hbm, 150, rfl⟩
abbrev main_v122 : Ref sig .tc := ⟨.hbm, 151, rfl⟩
abbrev main_cst_23 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_c_24 : Ref sig .tc := ⟨.hbm, 163, rfl⟩
abbrev main_v133 : Ref sig .tc := ⟨.hbm, 164, rfl⟩
abbrev main_v134 : Ref sig .tc := ⟨.hbm, 165, rfl⟩
abbrev main_c_25 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_cst_26 : Ref sig .tc := ⟨.hbm, 177, rfl⟩
abbrev main_v145 : Ref sig .tc := ⟨.hbm, 178, rfl⟩
abbrev main_v146 : Ref sig .tc := ⟨.hbm, 179, rfl⟩
abbrev main_cst_27 : Ref sig .tc := ⟨.hbm, 180, rfl⟩
abbrev main_v147 : Ref sig .tc := ⟨.hbm, 181, rfl⟩
abbrev main_v148 : Ref sig .tc := ⟨.hbm, 182, rfl⟩
abbrev main_cst_28 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_c_29 : Ref sig .tc := ⟨.hbm, 194, rfl⟩
abbrev main_v159 : Ref sig .tc := ⟨.hbm, 195, rfl⟩
abbrev main_v160 : Ref sig .tc := ⟨.hbm, 196, rfl⟩
abbrev main_c_30 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_v168 : Ref sig .tc := ⟨.hbm, 205, rfl⟩
abbrev main_v169 : Ref sig .tc := ⟨.hbm, 206, rfl⟩
abbrev main_v170 : Ref sig .tc := ⟨.hbm, 207, rfl⟩
abbrev main_cst_31 : Ref sig .tc := ⟨.hbm, 208, rfl⟩
abbrev main_v171 : Ref sig .tc := ⟨.hbm, 209, rfl⟩
abbrev main_v172 : Ref sig .tc := ⟨.hbm, 210, rfl⟩
abbrev main_cst_32 : Ref sig .tc := ⟨.hbm, 211, rfl⟩
abbrev main_v173 : Ref sig .tc := ⟨.hbm, 212, rfl⟩
abbrev main_v174 : Ref sig .tc := ⟨.hbm, 213, rfl⟩
abbrev main_cst_33 : Ref sig .tc := ⟨.hbm, 214, rfl⟩
abbrev main_v175 : Ref sig .tc := ⟨.hbm, 215, rfl⟩
abbrev main_v176 : Ref sig .tc := ⟨.hbm, 216, rfl⟩
abbrev main_v177 : Ref sig .tc := ⟨.hbm, 217, rfl⟩
abbrev main_v178 : Ref sig .tc := ⟨.hbm, 218, rfl⟩
abbrev main_v179 : Ref sig .tc := ⟨.hbm, 219, rfl⟩
abbrev main_v180 : Ref sig .tc := ⟨.hbm, 220, rfl⟩
abbrev main_v181 : Ref sig .tc := ⟨.hbm, 221, rfl⟩
abbrev main_v182 : Ref sig .tc := ⟨.hbm, 222, rfl⟩
abbrev main_v183 : Ref sig .tc := ⟨.hbm, 223, rfl⟩
abbrev main_v184 : Ref sig .tc := ⟨.hbm, 224, rfl⟩
abbrev main_c_34 : Ref sig .tc := ⟨.hbm, 225, rfl⟩
abbrev main_v185 : Ref sig .tc := ⟨.hbm, 226, rfl⟩
abbrev main_v186 : Ref sig .tc := ⟨.hbm, 227, rfl⟩
abbrev main_c_35 : Ref sig .tc := ⟨.hbm, 228, rfl⟩
abbrev main_v187 : Ref sig .tc := ⟨.hbm, 229, rfl⟩
abbrev main_v188 : Ref sig .tc := ⟨.hbm, 230, rfl⟩
abbrev main_v189 : Ref sig .tc := ⟨.hbm, 231, rfl⟩
abbrev main_v190 : Ref sig .tc := ⟨.hbm, 232, rfl⟩
abbrev main_v191 : Ref sig .tc := ⟨.hbm, 233, rfl⟩
abbrev main_v192 : Ref sig .tc := ⟨.hbm, 234, rfl⟩
abbrev main_v193 : Ref sig .tc := ⟨.hbm, 235, rfl⟩
abbrev main_v194 : Ref sig .tc := ⟨.hbm, 236, rfl⟩
abbrev main_v195 : Ref sig .tc := ⟨.hbm, 237, rfl⟩
abbrev main_v196 : Ref sig .tc := ⟨.hbm, 238, rfl⟩
abbrev main_cst_36 : Ref sig .tc := ⟨.hbm, 239, rfl⟩
abbrev main_v197 : Ref sig .tc := ⟨.hbm, 240, rfl⟩
abbrev main_v198 : Ref sig .tc := ⟨.hbm, 241, rfl⟩
abbrev main_cst_37 : Ref sig .tc := ⟨.hbm, 242, rfl⟩
abbrev main_v199 : Ref sig .tc := ⟨.hbm, 243, rfl⟩
abbrev main_v200 : Ref sig .tc := ⟨.hbm, 244, rfl⟩
abbrev main_cst_38 : Ref sig .tc := ⟨.hbm, 245, rfl⟩
abbrev main_v201 : Ref sig .tc := ⟨.hbm, 246, rfl⟩
abbrev main_v202 : Ref sig .tc := ⟨.hbm, 247, rfl⟩
abbrev main_v203 : Ref sig .tc := ⟨.hbm, 248, rfl⟩
abbrev main_v204 : Ref sig .tc := ⟨.hbm, 249, rfl⟩
abbrev main_v205 : Ref sig .tc := ⟨.hbm, 250, rfl⟩
abbrev main_v206 : Ref sig .tc := ⟨.hbm, 251, rfl⟩
abbrev main_v207 : Ref sig .tc := ⟨.hbm, 252, rfl⟩
abbrev main_v208 : Ref sig .tc := ⟨.hbm, 253, rfl⟩
abbrev main_call0_v0 : Ref sig .tc := ⟨.hbm, 254, rfl⟩
abbrev main_call0_v1 : Ref sig .tc := ⟨.hbm, 255, rfl⟩
abbrev main_call0_v2 : Ref sig .tc := ⟨.hbm, 256, rfl⟩
abbrev main_call0_v3 : Ref sig .tc := ⟨.hbm, 257, rfl⟩
abbrev main_call0_v4 : Ref sig .tc := ⟨.hbm, 258, rfl⟩
abbrev main_v209 : Ref sig .tc := ⟨.hbm, 259, rfl⟩
abbrev main_v210 : Ref sig .tc := ⟨.hbm, 260, rfl⟩

abbrev nD : Nat := 1
abbrev τ : Topo := Topo.v7x

variable {F : FTy → Type} [FloatOps F]

class Facts₀ : Prop where
  bcast_S_S131072x1 : S_.BroadcastsInDim S131072x1 (![] : Fin 0 → Fin S131072x1.rank)
  slices_S255_S1_0 : S255.Slices ![0] S1
  bcast_S_S1 : S_.BroadcastsInDim S1 (![] : Fin 0 → Fin S1.rank)
  bcast_S1_S1x1_0 : S1.BroadcastsInDim S1x1 (![0] : Fin 1 → Fin S1x1.rank)
  bcast_S1_S1x1_1 : S1.BroadcastsInDim S1x1 (![1] : Fin 1 → Fin S1x1.rank)
  bcast_S1x1_S131072x1_0_1 : S1x1.BroadcastsInDim S131072x1 (![0, 1] : Fin 2 → Fin S131072x1.rank)
  bcast_S131072x1_S131072x1x1_0_1 : S131072x1.BroadcastsInDim S131072x1x1 (![0, 1] : Fin 2 → Fin S131072x1x1.rank)
  concatenates_S131072x1x1_S131072x1x1_S131072x1x2_d2 : Shape.Concatenates [S131072x1x1, S131072x1x1] S131072x1x2 2
  shapeCasts_S131072x1x2_S131072x2 : S131072x1x2.ShapeCasts S131072x2
  slices_S255_S2_1 : S255.Slices ![1] S2
  bcast_S_S2 : S_.BroadcastsInDim S2 (![] : Fin 0 → Fin S2.rank)
  bcast_S2_S2x1_0 : S2.BroadcastsInDim S2x1 (![0] : Fin 1 → Fin S2x1.rank)
  bcast_S2_S1x2_1 : S2.BroadcastsInDim S1x2 (![1] : Fin 1 → Fin S1x2.rank)
  bcast_S1x2_S131072x2_0_1 : S1x2.BroadcastsInDim S131072x2 (![0, 1] : Fin 2 → Fin S131072x2.rank)
  bcast_S_S131072x2 : S_.BroadcastsInDim S131072x2 (![] : Fin 0 → Fin S131072x2.rank)
  bcast_S131072x2_S131072x2x1_0_1 : S131072x2.BroadcastsInDim S131072x2x1 (![0, 1] : Fin 2 → Fin S131072x2x1.rank)
  concatenates_S131072x2x1_S131072x2x1_S131072x2x2_d2 : Shape.Concatenates [S131072x2x1, S131072x2x1] S131072x2x2 2
  shapeCasts_S131072x2x2_S131072x4 : S131072x2x2.ShapeCasts S131072x4
  slices_S255_S4_3 : S255.Slices ![3] S4
  bcast_S_S4 : S_.BroadcastsInDim S4 (![] : Fin 0 → Fin S4.rank)
  bcast_S4_S4x1_0 : S4.BroadcastsInDim S4x1 (![0] : Fin 1 → Fin S4x1.rank)
  bcast_S4_S1x4_1 : S4.BroadcastsInDim S1x4 (![1] : Fin 1 → Fin S1x4.rank)
  bcast_S1x4_S131072x4_0_1 : S1x4.BroadcastsInDim S131072x4 (![0, 1] : Fin 2 → Fin S131072x4.rank)
  bcast_S_S131072x4 : S_.BroadcastsInDim S131072x4 (![] : Fin 0 → Fin S131072x4.rank)
  bcast_S131072x4_S131072x4x1_0_1 : S131072x4.BroadcastsInDim S131072x4x1 (![0, 1] : Fin 2 → Fin S131072x4x1.rank)
  concatenates_S131072x4x1_S131072x4x1_S131072x4x2_d2 : Shape.Concatenates [S131072x4x1, S131072x4x1] S131072x4x2 2
  shapeCasts_S131072x4x2_S131072x8 : S131072x4x2.ShapeCasts S131072x8
  slices_S255_S8_7 : S255.Slices ![7] S8
  bcast_S_S8 : S_.BroadcastsInDim S8 (![] : Fin 0 → Fin S8.rank)
  bcast_S8_S8x1_0 : S8.BroadcastsInDim S8x1 (![0] : Fin 1 → Fin S8x1.rank)
  bcast_S8_S1x8_1 : S8.BroadcastsInDim S1x8 (![1] : Fin 1 → Fin S1x8.rank)
  bcast_S1x8_S131072x8_0_1 : S1x8.BroadcastsInDim S131072x8 (![0, 1] : Fin 2 → Fin S131072x8.rank)
  bcast_S_S131072x8 : S_.BroadcastsInDim S131072x8 (![] : Fin 0 → Fin S131072x8.rank)
  bcast_S131072x8_S131072x8x1_0_1 : S131072x8.BroadcastsInDim S131072x8x1 (![0, 1] : Fin 2 → Fin S131072x8x1.rank)
  concatenates_S131072x8x1_S131072x8x1_S131072x8x2_d2 : Shape.Concatenates [S131072x8x1, S131072x8x1] S131072x8x2 2
  shapeCasts_S131072x8x2_S131072x16 : S131072x8x2.ShapeCasts S131072x16
  slices_S255_S16_15 : S255.Slices ![15] S16
  bcast_S_S16 : S_.BroadcastsInDim S16 (![] : Fin 0 → Fin S16.rank)
  bcast_S16_S16x1_0 : S16.BroadcastsInDim S16x1 (![0] : Fin 1 → Fin S16x1.rank)
  bcast_S16_S1x16_1 : S16.BroadcastsInDim S1x16 (![1] : Fin 1 → Fin S1x16.rank)
  bcast_S1x16_S131072x16_0_1 : S1x16.BroadcastsInDim S131072x16 (![0, 1] : Fin 2 → Fin S131072x16.rank)
  bcast_S_S131072x16 : S_.BroadcastsInDim S131072x16 (![] : Fin 0 → Fin S131072x16.rank)
  bcast_S131072x16_S131072x16x1_0_1 : S131072x16.BroadcastsInDim S131072x16x1 (![0, 1] : Fin 2 → Fin S131072x16x1.rank)
  concatenates_S131072x16x1_S131072x16x1_S131072x16x2_d2 : Shape.Concatenates [S131072x16x1, S131072x16x1] S131072x16x2 2
  shapeCasts_S131072x16x2_S131072x32 : S131072x16x2.ShapeCasts S131072x32
  slices_S255_S32_31 : S255.Slices ![31] S32
  bcast_S_S32 : S_.BroadcastsInDim S32 (![] : Fin 0 → Fin S32.rank)
  bcast_S32_S32x1_0 : S32.BroadcastsInDim S32x1 (![0] : Fin 1 → Fin S32x1.rank)
  bcast_S32_S1x32_1 : S32.BroadcastsInDim S1x32 (![1] : Fin 1 → Fin S1x32.rank)
  bcast_S1x32_S131072x32_0_1 : S1x32.BroadcastsInDim S131072x32 (![0, 1] : Fin 2 → Fin S131072x32.rank)
  bcast_S_S131072x32 : S_.BroadcastsInDim S131072x32 (![] : Fin 0 → Fin S131072x32.rank)
  bcast_S131072x32_S131072x32x1_0_1 : S131072x32.BroadcastsInDim S131072x32x1 (![0, 1] : Fin 2 → Fin S131072x32x1.rank)
  concatenates_S131072x32x1_S131072x32x1_S131072x32x2_d2 : Shape.Concatenates [S131072x32x1, S131072x32x1] S131072x32x2 2
  shapeCasts_S131072x32x2_S131072x64 : S131072x32x2.ShapeCasts S131072x64
  slices_S255_S64_63 : S255.Slices ![63] S64
  bcast_S_S64 : S_.BroadcastsInDim S64 (![] : Fin 0 → Fin S64.rank)
  bcast_S64_S64x1_0 : S64.BroadcastsInDim S64x1 (![0] : Fin 1 → Fin S64x1.rank)
  bcast_S64_S1x64_1 : S64.BroadcastsInDim S1x64 (![1] : Fin 1 → Fin S1x64.rank)
  bcast_S1x64_S131072x64_0_1 : S1x64.BroadcastsInDim S131072x64 (![0, 1] : Fin 2 → Fin S131072x64.rank)
  bcast_S_S131072x64 : S_.BroadcastsInDim S131072x64 (![] : Fin 0 → Fin S131072x64.rank)
  bcast_S131072x64_S131072x64x1_0_1 : S131072x64.BroadcastsInDim S131072x64x1 (![0, 1] : Fin 2 → Fin S131072x64x1.rank)
  concatenates_S131072x64x1_S131072x64x1_S131072x64x2_d2 : Shape.Concatenates [S131072x64x1, S131072x64x1] S131072x64x2 2
  shapeCasts_S131072x64x2_S131072x128 : S131072x64x2.ShapeCasts S131072x128
  slices_S255_S128_127 : S255.Slices ![127] S128
  bcast_S_S128 : S_.BroadcastsInDim S128 (![] : Fin 0 → Fin S128.rank)
  bcast_S128_S128x1_0 : S128.BroadcastsInDim S128x1 (![0] : Fin 1 → Fin S128x1.rank)
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  bcast_S_S131072x128 : S_.BroadcastsInDim S131072x128 (![] : Fin 0 → Fin S131072x128.rank)
  bcast_S131072x128_S131072x128x1_0_1 : S131072x128.BroadcastsInDim S131072x128x1 (![0, 1] : Fin 2 → Fin S131072x128x1.rank)
  concatenates_S131072x128x1_S131072x128x1_S131072x128x2_d2 : Shape.Concatenates [S131072x128x1, S131072x128x1] S131072x128x2 2
  shapeCasts_S131072x128x2_S131072x256 : S131072x128x2.ShapeCasts S131072x256
  bcast_S256_S256x1_0 : S256.BroadcastsInDim S256x1 (![0] : Fin 1 → Fin S256x1.rank)
  bcast_S256x1_S256x10_0_1 : S256x1.BroadcastsInDim S256x10 (![0, 1] : Fin 2 → Fin S256x10.rank)
  bcast_S1x10_S256x10_0_1 : S1x10.BroadcastsInDim S256x10 (![0, 1] : Fin 2 → Fin S256x10.rank)
  gather_S131072x32_S1x1_S131072x1_0_1_n_n_1_1_1310721_wf : GatherDims.WF S131072x32 S1x1 S131072x1 [0] [1] [] [1] [] 1 ![131072, 1]
  gather_S131072x32_S2x1_S131072x2_0_1_n_n_1_1_1310721_wf : GatherDims.WF S131072x32 S2x1 S131072x2 [0] [1] [] [1] [] 1 ![131072, 1]
  gather_S131072x32_S4x1_S131072x4_0_1_n_n_1_1_1310721_wf : GatherDims.WF S131072x32 S4x1 S131072x4 [0] [1] [] [1] [] 1 ![131072, 1]
  gather_S131072x32_S8x1_S131072x8_0_1_n_n_1_1_1310721_wf : GatherDims.WF S131072x32 S8x1 S131072x8 [0] [1] [] [1] [] 1 ![131072, 1]
  gather_S131072x32_S16x1_S131072x16_0_1_n_n_1_1_1310721_wf : GatherDims.WF S131072x32 S16x1 S131072x16 [0] [1] [] [1] [] 1 ![131072, 1]
  gather_S131072x32_S32x1_S131072x32_0_1_n_n_1_1_1310721_wf : GatherDims.WF S131072x32 S32x1 S131072x32 [0] [1] [] [1] [] 1 ![131072, 1]
  gather_S131072x32_S64x1_S131072x64_0_1_n_n_1_1_1310721_wf : GatherDims.WF S131072x32 S64x1 S131072x64 [0] [1] [] [1] [] 1 ![131072, 1]
  gather_S131072x32_S128x1_S131072x128_0_1_n_n_1_1_1310721_wf : GatherDims.WF S131072x32 S128x1 S131072x128 [0] [1] [] [1] [] 1 ![131072, 1]
  dot_S131072x256_S256x10_S131072x10_1_0_0_1_n_n_wf : DotDims.WF S131072x256 S256x10 S131072x10 [1] [0] [0] [1] [] []

variable [Facts₀]

def gather_S131072x32_S1x1_S131072x1_0_1_n_n_1_1_1310721 : GatherDims S131072x32 S1x1 S131072x1 where
  offsetDims := [0]
  collapsedSliceDims := [1]
  operandBatchingDims := []
  startIndicesBatchingDims := []
  startIndexMap := [1]
  indexVectorDim := 1
  sliceSizes := ![131072, 1]
  wf := gather_S131072x32_S1x1_S131072x1_0_1_n_n_1_1_1310721_wf
def gather_S131072x32_S2x1_S131072x2_0_1_n_n_1_1_1310721 : GatherDims S131072x32 S2x1 S131072x2 where
  offsetDims := [0]
  collapsedSliceDims := [1]
  operandBatchingDims := []
  startIndicesBatchingDims := []
  startIndexMap := [1]
  indexVectorDim := 1
  sliceSizes := ![131072, 1]
  wf := gather_S131072x32_S2x1_S131072x2_0_1_n_n_1_1_1310721_wf
def gather_S131072x32_S4x1_S131072x4_0_1_n_n_1_1_1310721 : GatherDims S131072x32 S4x1 S131072x4 where
  offsetDims := [0]
  collapsedSliceDims := [1]
  operandBatchingDims := []
  startIndicesBatchingDims := []
  startIndexMap := [1]
  indexVectorDim := 1
  sliceSizes := ![131072, 1]
  wf := gather_S131072x32_S4x1_S131072x4_0_1_n_n_1_1_1310721_wf
def gather_S131072x32_S8x1_S131072x8_0_1_n_n_1_1_1310721 : GatherDims S131072x32 S8x1 S131072x8 where
  offsetDims := [0]
  collapsedSliceDims := [1]
  operandBatchingDims := []
  startIndicesBatchingDims := []
  startIndexMap := [1]
  indexVectorDim := 1
  sliceSizes := ![131072, 1]
  wf := gather_S131072x32_S8x1_S131072x8_0_1_n_n_1_1_1310721_wf
def gather_S131072x32_S16x1_S131072x16_0_1_n_n_1_1_1310721 : GatherDims S131072x32 S16x1 S131072x16 where
  offsetDims := [0]
  collapsedSliceDims := [1]
  operandBatchingDims := []
  startIndicesBatchingDims := []
  startIndexMap := [1]
  indexVectorDim := 1
  sliceSizes := ![131072, 1]
  wf := gather_S131072x32_S16x1_S131072x16_0_1_n_n_1_1_1310721_wf
def gather_S131072x32_S32x1_S131072x32_0_1_n_n_1_1_1310721 : GatherDims S131072x32 S32x1 S131072x32 where
  offsetDims := [0]
  collapsedSliceDims := [1]
  operandBatchingDims := []
  startIndicesBatchingDims := []
  startIndexMap := [1]
  indexVectorDim := 1
  sliceSizes := ![131072, 1]
  wf := gather_S131072x32_S32x1_S131072x32_0_1_n_n_1_1_1310721_wf
def gather_S131072x32_S64x1_S131072x64_0_1_n_n_1_1_1310721 : GatherDims S131072x32 S64x1 S131072x64 where
  offsetDims := [0]
  collapsedSliceDims := [1]
  operandBatchingDims := []
  startIndicesBatchingDims := []
  startIndexMap := [1]
  indexVectorDim := 1
  sliceSizes := ![131072, 1]
  wf := gather_S131072x32_S64x1_S131072x64_0_1_n_n_1_1_1310721_wf
def gather_S131072x32_S128x1_S131072x128_0_1_n_n_1_1_1310721 : GatherDims S131072x32 S128x1 S131072x128 where
  offsetDims := [0]
  collapsedSliceDims := [1]
  operandBatchingDims := []
  startIndicesBatchingDims := []
  startIndexMap := [1]
  indexVectorDim := 1
  sliceSizes := ![131072, 1]
  wf := gather_S131072x32_S128x1_S131072x128_0_1_n_n_1_1_1310721_wf
def dot_S131072x256_S256x10_S131072x10_1_0_0_1_n_n : DotDims S131072x256 S256x10 S131072x10 where
  lhsContracting := [1]
  rhsContracting := [0]
  lhsNonContracting := [0]
  rhsNonContracting := [1]
  lhsBatch := []
  rhsBatch := []
  wf := dot_S131072x256_S256x10_S131072x10_1_0_0_1_n_n_wf

class Facts : Prop extends Facts₀ where

variable [Facts]
-- ==== Proof.PreDecode.lean ====
import proofs.«410582_j36696200577414_2_alg».proof.Pre_finite_inputs
import proofs.«410582_j36696200577414_2_alg».proof.Proof.Gen.Pre_finite_inputs
import Idealize.ShloMosaic.Lib.ReduceAll
import Idealize.ShloMosaic.Lib.ValueIdx

/-!
  The precondition, read back. It is the conjunction of four "for all entries" tests; the last two say that every
  feature index, read as a signed 32-bit word, is at least 0 and below 32. A 32-bit word whose signed reading lies
  in [0, 32) has the same unsigned reading, so every feature index is a natural number below 32.
-/

namespace Cert.PreDecode

open Idealize.ShloMosaic Idealize.ShloMosaic.ValueIdx

/-- The scalar shape has one index. -/
instance : Subsingleton Cert.Pre_finite_inputs.S_.Idx := ⟨fun a b => funext fun d => d.elim0⟩

/-- A 32-bit word whose signed reading is in [0, 32) reads unsigned below 32. -/
theorem toNat_lt_of_toInt {w : BitVec 32} (h0 : 0 ≤ w.toInt) (h1 : w.toInt < 32) : w.toNat < 32 := by
  have hw := w.isLt
  rw [BitVec.toInt_eq_toNat_cond] at h0 h1
  split at h0 <;> omega

/-- Under the precondition every feature index is below 32. -/
theorem feats_lt {F : FTy → Type} [FloatOps F] [Cert.Pre_finite_inputs.Facts]
    (x0 : FVec F Cert.Pre_finite_inputs.S131072x32 .f32) (x1 : FVec F Cert.Pre_finite_inputs.S255 .f32)
    (x2 : IVec Cert.Pre_finite_inputs.S255 32) (x3 : IVec Cert.Pre_finite_inputs.S256 32)
    (h : Cert.Pre_finite_inputs.fn (F := F) x0 x1 x2 x3 = fun _ => 1#1) :
    ∀ i : Fin 255, (x2 (ix1 i)).toNat < 32 := by
  intro i
  have h0 := congrFun h ix0
  dsimp only [Cert.Pre_finite_inputs.fn, Cert.Pre_finite_inputs.fn_part1] at h0
  obtain ⟨h12, h15⟩ := IntOp.andi_eq_one.1 h0
  obtain ⟨h8, h11⟩ := IntOp.andi_eq_one.1 h12
  have g11 := Host.reduce_andi_all _ _ _ _ _ h11 (ix1 i)
  have g15 := Host.reduce_andi_all _ _ _ _ _ h15 (ix1 i)
  have a : (0#32 : BitVec 32).toInt ≤ (x2 (ix1 i)).toInt := IntOp.cmpi_sge.1 g11
  have b : (x2 (ix1 i)).toInt < (32#32 : BitVec 32).toInt := IntOp.cmpi_slt.1 g15
  have a0 : (0#32 : BitVec 32).toInt = 0 := by decide
  have b0 : (32#32 : BitVec 32).toInt = 32 := by decide
  rw [a0] at a
  rw [b0] at b
  exact toNat_lt_of_toInt a b

end Cert.PreDecode
-- ==== Proof.Spec.lean ====
/-
  The soft decision tree as one function of the argument arrays.

  The tree is complete, of depth 8: 255 internal nodes in level (heap) order, level d holding nodes 2^d - 1 … 2^(d+1) - 2,
  and 256 leaves. Internal node i tests feature feats[i] of the sample against the threshold thr[i]: its gate is
  σ(x[feats[i]] - thr[i]), σ the logistic function, the weight of the step to the RIGHT child; the step to the left
  child weighs 1 - gate. The k-th node of level d + 1 is a child of the (k / 2)-th node of level d, the right child when
  k is odd, so the weight of the path from the root to it is the parent's path weight times that step's weight
  (`pathWeight`). The result for class c is the sum of the leaves' path weights over the leaves whose class is c.
-/
import Idealize.ShloMosaic.Lib.ValueIdx
import Idealize.ShloMosaic.PureOps.Ideal.Laws

noncomputable section

open scoped BigOperators

namespace Cert.Spec

open Idealize.ShloMosaic Idealize.ShloMosaic.ValueIdx

/-- The word 0x3F800000 is the number one. -/
theorem one_f32 : Ideal.ofBits .f32 0x3F800000#32 = 1 := by
  simp [Ideal.ofBits, Ideal.ieee, -EReal.coe_mul]; norm_num

/-- The weight of the path from the root to the k-th node of level d, from the gates `g` of the internal nodes in
    level order: the root's is one; a node's is its parent's times the gate of the parent (node 2^d - 1 + k / 2) when it
    is the right child (k odd), times one less that gate when it is the left child. -/
def pathWeight (g : Nat → EReal) : Nat → Nat → EReal
  | 0, _ => 1
  | d + 1, k => pathWeight g d (k / 2) * (if k % 2 = 0 then 1 - g (2 ^ d - 1 + k / 2) else g (2 ^ d - 1 + k / 2))

theorem pathWeight_succ (g : Nat → EReal) (d k : Nat) :
    pathWeight g (d + 1) k
      = pathWeight g d (k / 2) * (if k % 2 = 0 then 1 - g (2 ^ d - 1 + k / 2) else g (2 ^ d - 1 + k / 2)) := rfl

/-- Path weights depend only on the gates of the internal nodes above the level. -/
theorem pathWeight_congr {g g' : Nat → EReal} (h : ∀ i, i < 255 → g i = g' i) :
    ∀ d k, d ≤ 8 → k < 2 ^ d → pathWeight g d k = pathWeight g' d k
  | 0, _, _, _ => rfl
  | d + 1, k, hd, hk => by
    have hk2 : k / 2 < 2 ^ d := by rw [pow_succ] at hk; omega
    have hp : 2 ^ d ≤ 2 ^ 7 := Nat.pow_le_pow_right (by decide) (by omega)
    have hi : 2 ^ d - 1 + k / 2 < 255 := by
      have : 0 < 2 ^ d := Nat.pos_of_ne_zero (by positivity)
      norm_num at hp; omega
    rw [pathWeight_succ, pathWeight_succ, pathWeight_congr h d (k / 2) (by omega) hk2, h _ hi]

/-- The gate of internal node i on a sample with features `xr`: the logistic function of the tested feature less the
    node's threshold. (Zero past the last node; the tested feature is read modulo 32, which changes nothing where the
    feature indices are in range.) -/
def gate (xr : Fin 32 → EReal) (thr : (⟨1, ![255]⟩ : Shape).Idx → EReal) (feats : IVec ⟨1, ![255]⟩ 32) (i : Nat) : EReal :=
  if h : i < 255 then
    Ideal.logistic (xr ⟨(feats (ix1 ⟨i, h⟩)).toNat % 32, Nat.mod_lt _ (by decide)⟩ - thr (ix1 ⟨i, h⟩))
  else 0

/-- Whether leaf l has class c, as a number. -/
def classIs (lc : IVec ⟨1, ![256]⟩ 32) (l : Fin 256) (c : Fin 10) : EReal :=
  if lc (ix1 l) = BitVec.ofNat 32 c.val then 1 else 0

/-- THE RESULT: for sample b and class c, the total path weight of the leaves of class c. -/
def G (x : (⟨2, ![131072, 32]⟩ : Shape).Idx → EReal) (thr : (⟨1, ![255]⟩ : Shape).Idx → EReal)
    (feats : IVec ⟨1, ![255]⟩ 32) (lc : IVec ⟨1, ![256]⟩ 32) : (⟨2, ![131072, 10]⟩ : Shape).Idx → EReal :=
  fun j => ∑ l : Fin 256, pathWeight (gate (fun f => x (ix2 (j 0) f)) thr feats) 8 l.val * classIs lc l (j 1)

/-- Row b of a matrix as a sequence, zero past its end. -/
def row {B n : Nat} (v : (⟨2, ![B, n]⟩ : Shape).Idx → EReal) (b : Fin B) (i : Nat) : EReal :=
  if h : i < n then v (ix2 b ⟨i, h⟩) else 0

theorem row_of_lt {B n : Nat} (v : (⟨2, ![B, n]⟩ : Shape).Idx → EReal) (b : Fin B) {i : Nat} (h : i < n) :
    row v b i = v (ix2 b ⟨i, h⟩) := dif_pos h

end Cert.Spec

end
-- ==== Proof.LibInterleave.lean ====
/-
  Two arrays over [B, n, 1] joined along their trailing unit axis and flattened to [B, 2n]. Row-major order puts the
  joined axis innermost, so entry (b, k) of the result is the first array's entry (b, k / 2) when k is even and the
  second's entry (b, k / 2) when k is odd: the two arrays interleaved column by column.
  With it, the two ways a [B, n] array is given the trailing unit axis: a shape cast and a broadcast along axes [0, 1].
-/
import Idealize.ShloMosaic.Lib.Pipeline.Value
import Idealize.ShloMosaic.Lib.ValueIdx

noncomputable section

namespace Cert.LibInterleave

open Idealize.ShloMosaic Idealize.ShloMosaic.ValueIdx

variable {α : Type}

/-- A [B, n] array cast to [B, n, 1], read at (b, j, 0): the entry (b, j). -/
theorem addUnit_cast_apply {B n : Nat} (p : (⟨2, ![B, n]⟩ : Shape).Idx → α)
    (h : (⟨2, ![B, n]⟩ : Shape).ShapeCasts ⟨3, ![B, n, 1]⟩) (b : Fin B) (j : Fin n) :
    shapeCast ⟨3, ![B, n, 1]⟩ p h (ix3 b j 0) = p (ix2 b j) := by
  refine shapeCast_apply p h (ix3 b j 0) (ix2 b j) ?_
  rw [Shape.rowMajor_val_three, Shape.rowMajor_val_two]
  show b.val * n + j.val = (b.val * n + j.val) * 1 + 0
  omega

/-- A [B, n] array broadcast to [B, n, 1] along axes [0, 1], read at (b, j, 0): the entry (b, j). -/
theorem addUnit_bcast_apply {B n : Nat} (p : (⟨2, ![B, n]⟩ : Shape).Idx → α)
    (h : (⟨2, ![B, n]⟩ : Shape).BroadcastsInDim ⟨3, ![B, n, 1]⟩ (![0, 1] : Fin 2 → Fin 3)) (b : Fin B) (j : Fin n) :
    broadcastInDim ⟨3, ![B, n, 1]⟩ (![0, 1] : Fin 2 → Fin 3) h p (ix3 b j 0) = p (ix2 b j) := by
  refine broadcastInDim_apply _ h p (ix3 b j 0) (ix2 b j) (fun a => ?_)
  match a with
  | ⟨0, _⟩ =>
    show b.val = if B = 1 then 0 else b.val
    split
    · have := b.isLt; omega
    · rfl
  | ⟨1, _⟩ =>
    show j.val = if n = 1 then 0 else j.val
    split
    · have := j.isLt; omega
    · rfl

/-- THE INTERLEAVE READ AT (b, k): the even columns come from the first array, the odd ones from the second. -/
theorem interleave_apply {B n n2 : Nat} (hn : n2 = 2 * n)
    (u v : (⟨3, ![B, n, 1]⟩ : Shape).Idx → α)
    (hc : Shape.Concatenates [(⟨3, ![B, n, 1]⟩ : Shape), ⟨3, ![B, n, 1]⟩] ⟨3, ![B, n, 2]⟩ (2 : Fin 3))
    (h2 : (⟨3, ![B, n, 2]⟩ : Shape).ShapeCasts ⟨2, ![B, n2]⟩) (b : Fin B) (k : Fin n2) :
    shapeCast ⟨2, ![B, n2]⟩
        (concatenate ⟨3, ![B, n, 2]⟩ (2 : Fin 3) [⟨⟨3, ![B, n, 1]⟩, u⟩, ⟨⟨3, ![B, n, 1]⟩, v⟩] hc) h2 (ix2 b k)
      = if k.val % 2 = 0 then u (ix3 b ⟨k.val / 2, by have := k.isLt; omega⟩ 0)
        else v (ix3 b ⟨k.val / 2, by have := k.isLt; omega⟩ 0) := by
  subst hn
  have hk := k.isLt
  have hq : k.val / 2 < n := by omega
  have hr : k.val % 2 < 2 := Nat.mod_lt _ (by decide)
  -- the flattened index (b, k) is the index (b, k / 2, k % 2) of the joined array
  rw [shapeCast_apply _ h2 (ix2 b k) (ix3 b ⟨k.val / 2, hq⟩ ⟨k.val % 2, hr⟩) (by
    rw [Shape.rowMajor_val_three, Shape.rowMajor_val_two]
    show (b.val * n + k.val / 2) * 2 + k.val % 2 = b.val * (2 * n) + k.val
    have e : (b.val * n + k.val / 2) * 2 = b.val * (2 * n) + 2 * (k.val / 2) := by ring
    rw [e]
    omega)]
  split
  · next he =>
    refine concatenate_pair_apply_left (t := ⟨3, ![B, n, 2]⟩) (2 : Fin 3) u v hc _ rfl (ix3 b ⟨k.val / 2, hq⟩ 0) (fun a => ?_)
    match a with
    | ⟨0, _⟩ => rfl
    | ⟨1, _⟩ => rfl
    | ⟨2, _⟩ => exact he.symm
  · next ho =>
    refine concatenate_pair_apply_right (t := ⟨3, ![B, n, 2]⟩) (2 : Fin 3) u v hc _ rfl rfl (ix3 b ⟨k.val / 2, hq⟩ 0) (fun a ha => ?_) ?_
    · match a with
      | ⟨0, _⟩ => rfl
      | ⟨1, _⟩ => rfl
      | ⟨2, _⟩ => exact absurd rfl ha
    · show 0 + 1 = k.val % 2
      omega

end Cert.LibInterleave

end
-- ==== Proof.Levels.lean ====
/-
  One level of the tree's doubling, as each program computes it, read row by row.

  Both programs go from the path weights `p` of a level's n nodes to those of the 2n nodes below it in the same way: the
  left children's weights `p · (1 − a)` and the right children's `p · a`, `a` the level's gates, are each given a trailing unit
  axis, joined along it and flattened, which interleaves them: child k has parent k / 2 and is a right child when k is odd.
  The kernel takes the level's gates as a slice of the array of all 255 gates, at the level's offset 2^d − 1, and adds the
  unit axis by a shape cast; the reference computes the level's gates as an array of their own and adds the unit axis by a
  broadcast. Read along a row, both give the next level of `Spec.pathWeight`.
-/
import proofs.«410582_j36696200577414_2_alg».proof.Proof.Spec
import proofs.«410582_j36696200577414_2_alg».proof.Proof.LibInterleave

noncomputable section

namespace Cert.Levels

open Idealize.ShloMosaic Idealize.ShloMosaic.ValueIdx Cert.Spec Cert.LibInterleave

/-- The next level's path weights as the kernel computes them from this level's `p` and the array `a` of all gates. -/
def levelK {B n n2 N : Nat} (off : Nat) (p : FVec Ideal ⟨2, ![B, n]⟩ .f32) (a : FVec Ideal ⟨2, ![B, N]⟩ .f32)
    (hs : (⟨2, ![B, N]⟩ : Shape).Slices ![0, off] ⟨2, ![B, n]⟩)
    (h1 : (⟨2, ![B, n]⟩ : Shape).ShapeCasts ⟨3, ![B, n, 1]⟩)
    (hc : Shape.Concatenates [(⟨3, ![B, n, 1]⟩ : Shape), ⟨3, ![B, n, 1]⟩] ⟨3, ![B, n, 2]⟩ (2 : Fin 3))
    (h2 : (⟨3, ![B, n, 2]⟩ : Shape).ShapeCasts ⟨2, ![B, n2]⟩) : FVec Ideal ⟨2, ![B, n2]⟩ .f32 :=
  shapeCast ⟨2, ![B, n2]⟩ (concatenate ⟨3, ![B, n, 2]⟩ (2 : Fin 3)
    [⟨⟨3, ![B, n, 1]⟩, shapeCast ⟨3, ![B, n, 1]⟩
        (mulf p (subf (broadcast ⟨2, ![B, n]⟩ (Scalar.ofBits .f32 0x3F800000#32))
          (extractStridedSlice ⟨2, ![B, n]⟩ ![0, off] a hs))) h1⟩,
     ⟨⟨3, ![B, n, 1]⟩, shapeCast ⟨3, ![B, n, 1]⟩
        (mulf p (extractStridedSlice ⟨2, ![B, n]⟩ ![0, off] a hs)) h1⟩] hc) h2

/-- The slice of the gates at a level's offset, read at (b, j): gate off + j of row b. -/
theorem slice_apply {B n N : Nat} (off : Nat) (a : FVec Ideal ⟨2, ![B, N]⟩ .f32)
    (hs : (⟨2, ![B, N]⟩ : Shape).Slices ![0, off] ⟨2, ![B, n]⟩) (hN : off + n ≤ N) (b : Fin B) (j : Fin n) :
    extractStridedSlice ⟨2, ![B, n]⟩ ![0, off] a hs (ix2 b j) = a (ix2 b ⟨off + j.val, by have := j.isLt; omega⟩) := by
  refine extractStridedSlice_apply ![0, off] a hs (ix2 b j) _ (fun c => ?_)
  match c with
  | ⟨0, _⟩ => show b.val = 0 + b.val; omega
  | ⟨1, _⟩ => rfl

/-- THE KERNEL'S LEVEL, row by row: if row b of `p` holds the path weights of level d and row b of `a` the gates `g`, row b
    of the result holds the path weights of level d + 1. -/
theorem levelK_row {B n n2 N : Nat} (off : Nat) (p : FVec Ideal ⟨2, ![B, n]⟩ .f32) (a : FVec Ideal ⟨2, ![B, N]⟩ .f32)
    (hs : (⟨2, ![B, N]⟩ : Shape).Slices ![0, off] ⟨2, ![B, n]⟩)
    (h1 : (⟨2, ![B, n]⟩ : Shape).ShapeCasts ⟨3, ![B, n, 1]⟩)
    (hc : Shape.Concatenates [(⟨3, ![B, n, 1]⟩ : Shape), ⟨3, ![B, n, 1]⟩] ⟨3, ![B, n, 2]⟩ (2 : Fin 3))
    (h2 : (⟨3, ![B, n, 2]⟩ : Shape).ShapeCasts ⟨2, ![B, n2]⟩)
    (g : Nat → EReal) (d : Nat) (hn : n2 = 2 * n) (hoff : off = 2 ^ d - 1) (hN : off + n ≤ N) (b : Fin B)
    (hp : ∀ j, j < n → row p b j = pathWeight g d j) (ha : ∀ i, i < N → row a b i = g i) :
    ∀ k, k < n2 → row (levelK off p a hs h1 hc h2) b k = pathWeight g (d + 1) k := by
  intro k hk
  have hq : k / 2 < n := by omega
  have hi : off + k / 2 < N := by omega
  rw [row_of_lt _ _ hk, pathWeight_succ, ← hp _ hq, ← hoff, ← ha _ hi, row_of_lt _ _ hq, row_of_lt _ _ hi]
  unfold levelK
  rw [interleave_apply hn _ _ hc h2 b ⟨k, hk⟩, addUnit_cast_apply _ h1 b ⟨k / 2, hq⟩,
    addUnit_cast_apply _ h1 b ⟨k / 2, hq⟩]
  simp only [mulf_apply, subf_apply, broadcast_apply, slice_apply off a hs hN b ⟨k / 2, hq⟩]
  show (if k % 2 = 0 then p (ix2 b ⟨k / 2, hq⟩) * (Ideal.ofBits .f32 0x3F800000#32 - a (ix2 b ⟨off + k / 2, hi⟩))
      else p (ix2 b ⟨k / 2, hq⟩) * a (ix2 b ⟨off + k / 2, hi⟩)) = _
  rw [one_f32]
  split <;> rfl

/-- The next level's path weights as the reference computes them from this level's `p`, the level's own gates `a` and an
    array `one` of ones. -/
def levelR {B n n2 : Nat} (p a one : FVec Ideal ⟨2, ![B, n]⟩ .f32)
    (hb : (⟨2, ![B, n]⟩ : Shape).BroadcastsInDim ⟨3, ![B, n, 1]⟩ (![0, 1] : Fin 2 → Fin 3))
    (hc : Shape.Concatenates [(⟨3, ![B, n, 1]⟩ : Shape), ⟨3, ![B, n, 1]⟩] ⟨3, ![B, n, 2]⟩ (2 : Fin 3))
    (h2 : (⟨3, ![B, n, 2]⟩ : Shape).ShapeCasts ⟨2, ![B, n2]⟩) : FVec Ideal ⟨2, ![B, n2]⟩ .f32 :=
  shapeCast ⟨2, ![B, n2]⟩ (concatenate ⟨3, ![B, n, 2]⟩ (2 : Fin 3)
    [⟨⟨3, ![B, n, 1]⟩, broadcastInDim ⟨3, ![B, n, 1]⟩ (![0, 1] : Fin 2 → Fin 3) hb (mulf p (subf one a))⟩,
     ⟨⟨3, ![B, n, 1]⟩, broadcastInDim ⟨3, ![B, n, 1]⟩ (![0, 1] : Fin 2 → Fin 3) hb (mulf p a)⟩] hc) h2

/-- THE REFERENCE'S LEVEL, row by row: if row b of `p` holds the path weights of level d and row b of `a` the gates of
    level d's nodes (node j of the level is node 2^d − 1 + j), row b of the result holds the path weights of level d + 1. -/
theorem levelR_row {B n n2 : Nat} (p a one : FVec Ideal ⟨2, ![B, n]⟩ .f32)
    (hb : (⟨2, ![B, n]⟩ : Shape).BroadcastsInDim ⟨3, ![B, n, 1]⟩ (![0, 1] : Fin 2 → Fin 3))
    (hc : Shape.Concatenates [(⟨3, ![B, n, 1]⟩ : Shape), ⟨3, ![B, n, 1]⟩] ⟨3, ![B, n, 2]⟩ (2 : Fin 3))
    (h2 : (⟨3, ![B, n, 2]⟩ : Shape).ShapeCasts ⟨2, ![B, n2]⟩)
    (g : Nat → EReal) (d : Nat) (hn : n2 = 2 * n) (hone : ∀ i, one i = 1) (b : Fin B)
    (hp : ∀ j, j < n → row p b j = pathWeight g d j) (ha : ∀ j, j < n → row a b j = g (2 ^ d - 1 + j)) :
    ∀ k, k < n2 → row (levelR p a one hb hc h2) b k = pathWeight g (d + 1) k := by
  intro k hk
  have hq : k / 2 < n := by omega
  rw [row_of_lt _ _ hk, pathWeight_succ, ← hp _ hq, ← ha _ hq, row_of_lt _ _ hq, row_of_lt _ _ hq]
  unfold levelR
  rw [interleave_apply hn _ _ hc h2 b ⟨k, hk⟩, addUnit_bcast_apply _ hb b ⟨k / 2, hq⟩,
    addUnit_bcast_apply _ hb b ⟨k / 2, hq⟩]
  simp only [mulf_apply, subf_apply, hone]
  split <;> rfl

end Cert.Levels

end
-- ==== Proof.LibMatmulPlain.lean ====
/-
  A plain matrix product read at an index. For dimension numbers that contract axis 1 of an [M, K] left operand with
  axis 0 of a [K, N] right operand (no batch axes), a `tpu.matmul` into the zero accumulator, over the extended reals,
  has at (p, q) the sum over k of left (p, k) times right (k, q).
-/
import Idealize.ShloMosaic.Lib.ValueIdx
import Idealize.ShloMosaic.PureOps.Ideal.Laws

noncomputable section

namespace Cert.LibMatmulPlain

open Idealize.ShloMosaic Idealize.ShloMosaic.ValueIdx

variable {M K N : Nat}

/-- The dimension numbers of a plain product, as a record over its well-formedness evidence. -/
abbrev plainDims (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ := ⟨[1], [0], [0], [1], [], [], wf⟩

variable (wf : DotDims.WF (⟨2, ![M, K]⟩ : Shape) ⟨2, ![K, N]⟩ ⟨2, ![M, N]⟩ [1] [0] [0] [1] [] [])

theorem lhs_axis0 (j : (⟨2, ![M, N]⟩ : Shape).Idx) (q : (plainDims wf).contr.Idx) :
    ((plainDims wf).lhsIdx j q 0).val = (j 0).val := by
  unfold DotDims.lhsIdx
  rw [dif_neg (show ¬(0 : Fin (⟨2, ![M, K]⟩ : Shape).rank) ∈ (plainDims wf).lhsBatch from List.not_mem_nil),
    dif_pos (show (0 : Fin (⟨2, ![M, K]⟩ : Shape).rank) ∈ (plainDims wf).lhsNonContracting from List.mem_singleton.mpr rfl)]
  rfl
theorem lhs_axis1 (j : (⟨2, ![M, N]⟩ : Shape).Idx) (q : (plainDims wf).contr.Idx) :
    ((plainDims wf).lhsIdx j q 1).val = (q ⟨0, Nat.one_pos⟩).val :=
  (plainDims wf).lhsIdx_val_of_single rfl j q
theorem rhs_axis0 (j : (⟨2, ![M, N]⟩ : Shape).Idx) (q : (plainDims wf).contr.Idx) :
    ((plainDims wf).rhsIdx j q 0).val = (q ⟨0, Nat.one_pos⟩).val :=
  (plainDims wf).rhsIdx_val_of_single rfl j q
theorem rhs_axis1 (j : (⟨2, ![M, N]⟩ : Shape).Idx) (q : (plainDims wf).contr.Idx) :
    ((plainDims wf).rhsIdx j q 1).val = (j 1).val := by
  unfold DotDims.rhsIdx
  rw [dif_neg (show ¬(1 : Fin (⟨2, ![K, N]⟩ : Shape).rank) ∈ (plainDims wf).rhsBatch from List.not_mem_nil),
    dif_pos (show (1 : Fin (⟨2, ![K, N]⟩ : Shape).rank) ∈ (plainDims wf).rhsNonContracting from List.mem_singleton.mpr rfl)]
  rfl

/-- THE PRODUCT AT (p, q), into the zero accumulator: the sum over the contracted coordinate. -/
theorem matmul_zero_plain_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (plainDims wf) prec lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 (plainDims wf) K rfl rfl).symm]
  refine Finset.sum_congr rfl fun k _ => ?_
  have hk := contrEquiv1_symm_val (plainDims wf) K rfl rfl k
  have el : (plainDims wf).lhsIdx (ix2 p q) ((contrEquiv1 (plainDims wf) K rfl rfl).symm k) = ix2 p k := funext fun a => Fin.ext (by
    match a with
    | ⟨0, _⟩ => exact lhs_axis0 wf _ _
    | ⟨1, _⟩ => exact (lhs_axis1 wf _ _).trans hk)
  have er : (plainDims wf).rhsIdx (ix2 p q) ((contrEquiv1 (plainDims wf) K rfl rfl).symm k) = ix2 k q := funext fun a => Fin.ext (by
    match a with
    | ⟨0, _⟩ => exact (rhs_axis0 wf _ _).trans hk
    | ⟨1, _⟩ => exact rhs_axis1 wf _ _)
  rw [el, er]

end Cert.LibMatmulPlain

end
-- ==== Proof.KernelPay.lean ====
/-
  What the kernel body stores, read at an index.

  The body computes, for its block of 512 samples, the array `A` of all 255 gates (the logistic function of the product of
  the sample block with the feature selector, less the thresholds), then the path weights level by level from a column of
  ones — eight doubling levels, each the interleave of `p · (1 − a)` and `p · a` over the level's slice of `A` — and last
  the product of the 256 leaves' weights with the leaf-class selector. Row r of the stored block at class c is therefore
  the sum over the leaves l of the weight of the path to l, along the gates of row r, times the selector's entry (l, c).
-/
import proofs.«410582_j36696200577414_2_alg».proof.Proof.Gen.KernelIdeal.Frame
import proofs.«410582_j36696200577414_2_alg».proof.Proof.Levels
import proofs.«410582_j36696200577414_2_alg».proof.Proof.LibMatmulPlain
import Idealize.ShloMosaic.Lib.ValueLayout

set_option maxRecDepth 16384

noncomputable section

open scoped BigOperators

namespace Cert.KernelIdeal.TreeValue

open Cert.KernelIdeal Cert.KernelIdeal.Gen Idealize.ShloMosaic Idealize.ShloMosaic.ValueIdx Cert.Spec Cert.Levels

theorem hz : (![0, 0] : Fin 2 → Nat) = fun _ => 0 := funext fun a => by fin_cases a <;> rfl

/-- The block's gates: entry (r, i) is the gate of internal node i on the block's sample r. -/
abbrev gates (x0 : Vec Ideal S512x32 .f32) (x1 : Vec Ideal S32x255 .f32) (x2 : Vec Ideal S1x255 .f32) :
    FVec Ideal S512x255 .f32 := k0_pay3 x0 x1 x2

/-- A gate of the block: the logistic function of the sample's row times the selector's column, less the threshold. -/
theorem gates_apply (x0 : Vec Ideal S512x32 .f32) (x1 : Vec Ideal S32x255 .f32) (x2 : Vec Ideal S1x255 .f32)
    (r : Fin 512) (i : Fin 255) :
    gates x0 x1 x2 (ix2 r i)
      = Ideal.logistic ((∑ f : Fin 32, (x0 : S512x32.Idx → EReal) (ix2 r f) * (x1 : S32x255.Idx → EReal) (ix2 f i))
          - (x2 : S1x255.Idx → EReal) (ix2 0 i)) := by
  show Ideal.logistic (FloatOps.matmul (F := Ideal) (Cert.LibMatmulPlain.plainDims Gen.dot_S512x32_S32x255_S512x255_1_0_0_1_n_n_wf) none
      (x0 : FVec Ideal S512x32 .f32) (shapeCast S32x255 x1 Gen.shapeCasts_S32x255_S32x255 : FVec Ideal S32x255 .f32)
      (constant S512x255 .f32 0x00000000#32) (ix2 r i)
      - (broadcastTo S512x255 (shapeCast S1x255 x2 Gen.shapeCasts_S1x255_S1x255 : FVec Ideal S1x255 .f32)
          Gen.broadcasts_S1x255_S512x255 : FVec Ideal S512x255 .f32) (ix2 r i)) = _
  rw [Cert.LibMatmulPlain.matmul_zero_plain_apply, shapeCast_self, shapeCast_self,
    broadcastTo_1b_ab_apply]

/-- The column of ones the doubling starts from. -/
abbrev ones : FVec Ideal S512x1 .f32 := broadcast S512x1 (Scalar.ofBits .f32 0x3F800000#32)

section
variable (A : FVec Ideal S512x255 .f32)

/-- The path weights of levels 1 to 8 over the gates `A`, as the body computes them. -/
abbrev L1 : FVec Ideal S512x2 .f32 := levelK 0 ones A Gen.slices_S512x255_o0_0_S512x1 Gen.shapeCasts_S512x1_S512x1x1
  Gen.concatenates_S512x1x1_S512x1x1_S512x1x2_d2 Gen.shapeCasts_S512x1x2_S512x2
abbrev L2 : FVec Ideal S512x4 .f32 := levelK 1 (L1 A) A Gen.slices_S512x255_o0_1_S512x2 Gen.shapeCasts_S512x2_S512x2x1
  Gen.concatenates_S512x2x1_S512x2x1_S512x2x2_d2 Gen.shapeCasts_S512x2x2_S512x4
abbrev L3 : FVec Ideal S512x8 .f32 := levelK 3 (L2 A) A Gen.slices_S512x255_o0_3_S512x4 Gen.shapeCasts_S512x4_S512x4x1
  Gen.concatenates_S512x4x1_S512x4x1_S512x4x2_d2 Gen.shapeCasts_S512x4x2_S512x8
abbrev L4 : FVec Ideal S512x16 .f32 := levelK 7 (L3 A) A Gen.slices_S512x255_o0_7_S512x8 Gen.shapeCasts_S512x8_S512x8x1
  Gen.concatenates_S512x8x1_S512x8x1_S512x8x2_d2 Gen.shapeCasts_S512x8x2_S512x16
abbrev L5 : FVec Ideal S512x32 .f32 := levelK 15 (L4 A) A Gen.slices_S512x255_o0_15_S512x16 Gen.shapeCasts_S512x16_S512x16x1
  Gen.concatenates_S512x16x1_S512x16x1_S512x16x2_d2 Gen.shapeCasts_S512x16x2_S512x32
abbrev L6 : FVec Ideal S512x64 .f32 := levelK 31 (L5 A) A Gen.slices_S512x255_o0_31_S512x32 Gen.shapeCasts_S512x32_S512x32x1
  Gen.concatenates_S512x32x1_S512x32x1_S512x32x2_d2 Gen.shapeCasts_S512x32x2_S512x64
abbrev L7 : FVec Ideal S512x128 .f32 := levelK 63 (L6 A) A Gen.slices_S512x255_o0_63_S512x64 Gen.shapeCasts_S512x64_S512x64x1
  Gen.concatenates_S512x64x1_S512x64x1_S512x64x2_d2 Gen.shapeCasts_S512x64x2_S512x128
abbrev L8 : FVec Ideal S512x256 .f32 := levelK 127 (L7 A) A Gen.slices_S512x255_o0_127_S512x128 Gen.shapeCasts_S512x128_S512x128x1
  Gen.concatenates_S512x128x1_S512x128x1_S512x128x2_d2 Gen.shapeCasts_S512x128x2_S512x256

/-- Row r of the eighth level holds the weights of the paths to the 256 leaves, along the gates of row r. -/
theorem L8_row (r : Fin 512) : ∀ k, k < 256 → row (L8 A) r k = pathWeight (row A r) 8 k := by
  have hA : ∀ i, i < 255 → row A r i = row A r i := fun _ _ => rfl
  have h0 : ∀ j, j < 1 → row ones r j = pathWeight (row A r) 0 j := fun j hj => by
    rw [row_of_lt _ _ hj]; exact one_f32
  have h1 := levelK_row 0 ones A Gen.slices_S512x255_o0_0_S512x1 Gen.shapeCasts_S512x1_S512x1x1
    Gen.concatenates_S512x1x1_S512x1x1_S512x1x2_d2 Gen.shapeCasts_S512x1x2_S512x2 (row A r) 0 rfl rfl (by decide) r h0 hA
  have h2 := levelK_row 1 (L1 A) A Gen.slices_S512x255_o0_1_S512x2 Gen.shapeCasts_S512x2_S512x2x1
    Gen.concatenates_S512x2x1_S512x2x1_S512x2x2_d2 Gen.shapeCasts_S512x2x2_S512x4 (row A r) 1 rfl rfl (by decide) r h1 hA
  have h3 := levelK_row 3 (L2 A) A Gen.slices_S512x255_o0_3_S512x4 Gen.shapeCasts_S512x4_S512x4x1
    Gen.concatenates_S512x4x1_S512x4x1_S512x4x2_d2 Gen.shapeCasts_S512x4x2_S512x8 (row A r) 2 rfl rfl (by decide) r h2 hA
  have h4 := levelK_row 7 (L3 A) A Gen.slices_S512x255_o0_7_S512x8 Gen.shapeCasts_S512x8_S512x8x1
    Gen.concatenates_S512x8x1_S512x8x1_S512x8x2_d2 Gen.shapeCasts_S512x8x2_S512x16 (row A r) 3 rfl rfl (by decide) r h3 hA
  have h5 := levelK_row 15 (L4 A) A Gen.slices_S512x255_o0_15_S512x16 Gen.shapeCasts_S512x16_S512x16x1
    Gen.concatenates_S512x16x1_S512x16x1_S512x16x2_d2 Gen.shapeCasts_S512x16x2_S512x32 (row A r) 4 rfl rfl (by decide) r h4 hA
  have h6 := levelK_row 31 (L5 A) A Gen.slices_S512x255_o0_31_S512x32 Gen.shapeCasts_S512x32_S512x32x1
    Gen.concatenates_S512x32x1_S512x32x1_S512x32x2_d2 Gen.shapeCasts_S512x32x2_S512x64 (row A r) 5 rfl rfl (by decide) r h5 hA
  have h7 := levelK_row 63 (L6 A) A Gen.slices_S512x255_o0_63_S512x64 Gen.shapeCasts_S512x64_S512x64x1
    Gen.concatenates_S512x64x1_S512x64x1_S512x64x2_d2 Gen.shapeCasts_S512x64x2_S512x128 (row A r) 6 rfl rfl (by decide) r h6 hA
  exact levelK_row 127 (L7 A) A Gen.slices_S512x255_o0_127_S512x128 Gen.shapeCasts_S512x128_S512x128x1
    Gen.concatenates_S512x128x1_S512x128x1_S512x128x2_d2 Gen.shapeCasts_S512x128x2_S512x256 (row A r) 7 rfl rfl (by decide) r h7 hA

end

/-- The body's stored value is the product of the eighth level over the block's gates with the leaf-class selector. -/
theorem pay_eq (x0 : Vec Ideal S512x32 .f32) (x1 : Vec Ideal S32x255 .f32) (x2 : Vec Ideal S1x255 .f32)
    (x3 : Vec Ideal S256x10 .f32) :
    k0_pay1 (k0_pay2 x3) (k0_pay3 x0 x1 x2) (k0_pay6 x0 x1 x2) (k0_pay7 x0 x1 x2)
      = FloatOps.matmul (F := Ideal) (Cert.LibMatmulPlain.plainDims Gen.dot_S512x256_S256x10_S512x10_1_0_0_1_n_n_wf) none
          (L8 (gates x0 x1 x2)) (k0_pay2 x3) (constant S512x10 .f32 0x00000000#32) := rfl

/-- THE STORED BLOCK AT (r, c): the total over the leaves of the path weight along row r's gates times the selector. -/
theorem out_apply (x0 : Vec Ideal S512x32 .f32) (x1 : Vec Ideal S32x255 .f32) (x2 : Vec Ideal S1x255 .f32)
    (x3 : Vec Ideal S256x10 .f32) (r : Fin 512) (c : Fin 10) :
    (out0_4 x0 x1 x2 x3 : S512x10.Idx → EReal) (ix2 r c)
      = ∑ l : Fin 256, pathWeight (row (gates x0 x1 x2) r) 8 l.val * (x3 : S256x10.Idx → EReal) (ix2 l c) := by
  unfold out0_4
  rw [View.canon_unit_zero hz]
  simp only [View.ld_unit_zero (S := S512x32) hz, View.ld_unit_zero (S := S32x255) hz, View.ld_unit_zero (S := S1x255) hz,
    View.ld_unit_zero (S := S256x10) hz]
  rw [pay_eq, Cert.LibMatmulPlain.matmul_zero_plain_apply]
  refine Finset.sum_congr rfl fun l _ => ?_
  rw [← L8_row (gates x0 x1 x2) r l.val l.isLt, row_of_lt _ _ l.isLt]
  show _ * (shapeCast S256x10 x3 Gen.shapeCasts_S256x10_S256x10 : FVec Ideal S256x10 .f32) (ix2 l c) = _
  rw [shapeCast_self]

end Cert.KernelIdeal.TreeValue

end
-- ==== Proof.KernelHost.lean ====
import proofs.«410582_j36696200577414_2_alg».proof.Proof.Gen.KernelIdeal.Frame
import Idealize.ShloMosaic.Lib.ValueIdx
import Idealize.ShloMosaic.Lib.ValueLayout
import Idealize.ShloMosaic.Lib.StableHlo.Predicate

/-!
  What the kernel's region finds in the three arrays that host operations write before it:

  * the transposed one-hot table of the feature indices, 32 × 255: entry (f, i) is 1 when node i tests
    feature f, else 0;
  * the thresholds as one row, 1 × 255: entry (0, i) is threshold i;
  * the one-hot table of the leaf classes, 256 × 10: entry (l, k) is 1 when leaf l has class k, else 0.

  A one-hot table is the comparison of the index vector laid along the rows with the column positions
  0, 1, …, C − 1 laid along the columns, each bit then read as the number 0 or 1.
-/

set_option maxRecDepth 16384

noncomputable section

namespace Cert.KernelIdeal.HostValue

open Cert.KernelIdeal Cert.KernelIdeal.Gen Idealize.ShloMosaic Idealize.ShloMosaic.ValueIdx
open Idealize.ShloMosaic.TcCoe Idealize.ShloMosaic.Tactic

/-- A bit read as an unsigned number: 1 for the set bit, 0 for the clear bit. -/
theorem bit_toReal (b : BitVec 1) : (((b.toNat : ℝ) : EReal)) = if b = 1#1 then (1 : EReal) else 0 := by
  revert b
  intro b
  have h : b = 0#1 ∨ b = 1#1 := by revert b; decide
  rcases h with rfl | rfl
  · simp
  · simp

/-- The rank-1 index at a coordinate, in its two spellings. -/
theorem ofFin_eq_ix1 {n : Nat} (p : Fin n) : Shape.Idx.ofFin p = ix1 p := by
  funext a
  match a with
  | ⟨0, _⟩ => exact Fin.ext rfl

/-- One-hot of an index vector against C classes, read at (p, q): 1 when entry p of the vector is the word q, else 0. -/
theorem onehot_apply {n C : Nat}
    (h₁ : (⟨1, ![n]⟩ : Shape).BroadcastsInDim ⟨2, ![n, 1]⟩ ![0])
    (h₂ : (⟨2, ![n, 1]⟩ : Shape).BroadcastsInDim ⟨2, ![n, C]⟩ ![0, 1])
    (h₃ : (⟨2, ![1, C]⟩ : Shape).BroadcastsInDim ⟨2, ![n, C]⟩ ![0, 1])
    (idx : IVec ⟨1, ![n]⟩ 32) (p : Fin n) (q : Fin C) :
    (uitofp (F := Ideal) .f32
        (cmpi .eq (broadcastInDim ⟨2, ![n, C]⟩ ![0, 1] h₂ (broadcastInDim ⟨2, ![n, 1]⟩ ![0] h₁ idx))
          (broadcastInDim ⟨2, ![n, C]⟩ ![0, 1] h₃ (iotaInDim ⟨2, ![1, C]⟩ 32 1))) :
        (⟨2, ![n, C]⟩ : Shape).Idx → EReal) (ix2 p q)
      = if idx (ix1 p) = BitVec.ofNat 32 q.val then (1 : EReal) else 0 := by
  show ((((IntOp.cmpi .eq
      (broadcastInDim ⟨2, ![n, C]⟩ ![0, 1] h₂ (broadcastInDim ⟨2, ![n, 1]⟩ ![0] h₁ idx) (StableHlo.Predicate.ij p q))
      (broadcastInDim ⟨2, ![n, C]⟩ ![0, 1] h₃ (iotaInDim ⟨2, ![1, C]⟩ 32 1) (StableHlo.Predicate.ij p q))).toNat : ℝ) : EReal)) = _
  rw [StableHlo.Predicate.bcast_rows, StableHlo.Predicate.bcast_of_row, bit_toReal]
  simp only [StableHlo.Predicate.cmpi_eq_iff, ofFin_eq_ix1]
  rfl

variable (m : (ℓ : Loc nD τ sig) → Buf (Elt Ideal) ℓ)

/-- The transposed one-hot table of the feature indices: entry (f, i) is 1 when node i tests feature f, else 0. -/
theorem V_featoh (c : Dev nD) (f : Fin 32) (i : Fin 255) :
    (V m c main_v1 : S32x255.Idx → EReal) (ix2 f i)
      = if (m ((c : Thread nD τ).loc main_arg2) : IVec S255 32) (ix1 i) = BitVec.ofNat 32 f.val then (1 : EReal) else 0 := by
  have e : (V m c main_v1 : S32x255.Idx → EReal)
      = transpose S32x255 [1, 0]
          (uitofp (F := Ideal) .f32
            (cmpi .eq (broadcastInDim S255x32 ![0, 1] bcast_S255x1_S255x32_0_1
                (broadcastInDim S255x1 ![0] bcast_S255_S255x1_0 (m ((c : Thread nD τ).loc main_arg2) : IVec S255 32)))
              (broadcastInDim S255x32 ![0, 1] bcast_S1x32_S255x32_0_1 (iotaInDim S1x32 32 1))) : S255x32.Idx → EReal)
          transposes_S255x32_S32x255_1_0 := by
    dsimp only [Gen.V]
    simp only [Gen.hostOps0, Gen.hostOps0_1, Gen.hostOps0_2, List.flatten_cons, List.flatten_nil, List.append_nil,
      List.cons_append, List.nil_append]
    after_results
    rfl
  rw [e, transpose_ix2_apply]
  exact onehot_apply _ _ _ _ i f

/-- The thresholds as one row: entry (0, i) is threshold i. -/
theorem V_thr (c : Dev nD) (i : Fin 255) :
    (V m c main_v2 : S1x255.Idx → EReal) (ix2 0 i)
      = (m ((c : Thread nD τ).loc main_arg1) : S255.Idx → EReal) (ix1 i) := by
  have e : (V m c main_v2 : S1x255.Idx → EReal)
      = shapeCast S1x255 (m ((c : Thread nD τ).loc main_arg1) : S255.Idx → EReal) shapeCasts_S255_S1x255 := by
    dsimp only [Gen.V]
    simp only [Gen.hostOps0, Gen.hostOps0_1, Gen.hostOps0_2, List.flatten_cons, List.flatten_nil, List.append_nil,
      List.cons_append, List.nil_append]
    after_results
    rfl
  rw [e]
  exact shapeCast_a_1a_apply _ _ 0 i

/-- The one-hot table of the leaf classes: entry (l, k) is 1 when leaf l has class k, else 0. -/
theorem V_leafoh (c : Dev nD) (l : Fin 256) (k : Fin 10) :
    (V m c main_v3 : S256x10.Idx → EReal) (ix2 l k)
      = if (m ((c : Thread nD τ).loc main_arg3) : IVec S256 32) (ix1 l) = BitVec.ofNat 32 k.val then (1 : EReal) else 0 := by
  have e : (V m c main_v3 : S256x10.Idx → EReal)
      = (uitofp (F := Ideal) .f32
            (cmpi .eq (broadcastInDim S256x10 ![0, 1] bcast_S256x1_S256x10_0_1
                (broadcastInDim S256x1 ![0] bcast_S256_S256x1_0 (m ((c : Thread nD τ).loc main_arg3) : IVec S256 32)))
              (broadcastInDim S256x10 ![0, 1] bcast_S1x10_S256x10_0_1 (iotaInDim S1x10 32 1))) : S256x10.Idx → EReal) := by
    dsimp only [Gen.V]
    simp only [Gen.hostOps0, Gen.hostOps0_1, Gen.hostOps0_2, List.flatten_cons, List.flatten_nil, List.append_nil,
      List.cons_append, List.nil_append]
    after_results
    rfl
  rw [e]
  exact onehot_apply _ _ _ _ l k

end Cert.KernelIdeal.HostValue

end
-- ==== Proof.KernelValue.lean ====
import proofs.«410582_j36696200577414_2_alg».proof.Proof.Gen.KernelIdeal.Value
import proofs.«410582_j36696200577414_2_alg».proof.Proof.KernelPay
import proofs.«410582_j36696200577414_2_alg».proof.Proof.KernelHost
import proofs.«410582_j36696200577414_2_alg».proof.Proof.Spec
import Idealize.ShloMosaic.Lib.Pipeline.Value
import Idealize.ShloMosaic.Lib.ValueIdx

/-!
  From the stored blocks to the whole result array.

  The grid has 256 points; point t works on samples 512·t … 512·t + 511, all 32 features of them, and sees the
  feature selector, the threshold row and the leaf-class selector whole. Row r of its stored block is the tree's
  result for sample 512·t + r:

  * a gate of the block is the logistic function of (the sample's features · a selector column) less a threshold; the
    selector column of node i is 1 at the feature the node tests and 0 elsewhere, so the product is that one feature
    (the feature index being below 32); this is the specification's gate;
  * the path weights depend on the gates only, and the leaf-class selector's entry (l, k) is "leaf l has class k" as a
    number; so the stored sum over the leaves is the specification's.

  The 256 blocks of 512 rows tile the 131072 rows, so the array ends holding the specification's result everywhere.
-/

set_option maxRecDepth 16384

noncomputable section

open scoped BigOperators

namespace Cert.KernelIdeal.TreeValue

open Cert.KernelIdeal Cert.KernelIdeal.Gen Cert.KernelIdeal.Value Cert.KernelIdeal.HostValue
open Idealize.ShloMosaic Idealize.ShloMosaic.TcCoe Idealize.SL.Sem Idealize.ShloMosaic.ValueIdx Cert.Spec
open Idealize.ShloMosaic.Pipeline (Dat)

/-! ## A one-hot column picks one entry -/

/-- A sum against a one-hot column picks one entry. -/
theorem sum_onehot (xr : Fin 32 → EReal) (w : BitVec 32) (hw : w.toNat < 32) :
    ∑ f : Fin 32, xr f * (if w = BitVec.ofNat 32 f.val then (1 : EReal) else 0)
      = xr ⟨w.toNat % 32, Nat.mod_lt _ (by decide)⟩ := by
  have key : ∀ f : Fin 32, (w = BitVec.ofNat 32 f.val) ↔ f = ⟨w.toNat % 32, Nat.mod_lt _ (by decide)⟩ := by
    intro f
    have hf := f.isLt
    constructor
    · intro h
      apply Fin.ext
      show f.val = w.toNat % 32
      rw [h, BitVec.toNat_ofNat]
      omega
    · intro h
      subst h
      apply BitVec.eq_of_toNat_eq
      rw [BitVec.toNat_ofNat]
      show w.toNat = (w.toNat % 32) % 2 ^ 32
      omega
  simp only [key, mul_ite, mul_one, mul_zero]
  rw [Finset.sum_ite_eq']
  simp

/-! ## One point of one block, over any arrays that read as the arguments do -/

/-- The gates of block row r are the specification's gates of the sample the row holds: the sample's features against a
    one-hot selector column give the tested feature, and the threshold row gives the threshold. -/
theorem gate_of_reads (x0 : Vec Ideal S512x32 .f32) (x1 : Vec Ideal S32x255 .f32) (x2 : Vec Ideal S1x255 .f32)
    (xr : Fin 32 → EReal) (thr : (⟨1, ![255]⟩ : Shape).Idx → EReal) (feats : IVec ⟨1, ![255]⟩ 32) (r : Fin 512)
    (h0 : ∀ f : Fin 32, (x0 : S512x32.Idx → EReal) (ix2 r f) = xr f)
    (h1 : ∀ (f : Fin 32) (i : Fin 255), (x1 : S32x255.Idx → EReal) (ix2 f i)
      = if feats (ix1 i) = BitVec.ofNat 32 f.val then (1 : EReal) else 0)
    (h2 : ∀ i : Fin 255, (x2 : S1x255.Idx → EReal) (ix2 0 i) = thr (ix1 i))
    (hf : ∀ i : Fin 255, (feats (ix1 i)).toNat < 32) :
    ∀ i, i < 255 → row (gates x0 x1 x2) r i = gate xr thr feats i := by
  intro i hi
  rw [row_of_lt _ _ hi, gates_apply]
  unfold Cert.Spec.gate
  rw [dif_pos hi, h2]
  simp only [h0, h1]
  rw [sum_onehot xr _ (hf ⟨i, hi⟩)]

/-- Block row r at class k is the specification's result for the sample the row holds. -/
theorem point_of_reads (x0 : Vec Ideal S512x32 .f32) (x1 : Vec Ideal S32x255 .f32) (x2 : Vec Ideal S1x255 .f32)
    (x3 : Vec Ideal S256x10 .f32)
    (x : (⟨2, ![131072, 32]⟩ : Shape).Idx → EReal) (thr : (⟨1, ![255]⟩ : Shape).Idx → EReal)
    (feats : IVec ⟨1, ![255]⟩ 32) (lc : IVec ⟨1, ![256]⟩ 32) (r : Fin 512) (k : Fin 10) (b : Fin 131072)
    (h0 : ∀ f : Fin 32, (x0 : S512x32.Idx → EReal) (ix2 r f) = x (ix2 b f))
    (h1 : ∀ (f : Fin 32) (i : Fin 255), (x1 : S32x255.Idx → EReal) (ix2 f i)
      = if feats (ix1 i) = BitVec.ofNat 32 f.val then (1 : EReal) else 0)
    (h2 : ∀ i : Fin 255, (x2 : S1x255.Idx → EReal) (ix2 0 i) = thr (ix1 i))
    (h3 : ∀ l : Fin 256, (x3 : S256x10.Idx → EReal) (ix2 l k)
      = if lc (ix1 l) = BitVec.ofNat 32 k.val then (1 : EReal) else 0)
    (hf : ∀ i : Fin 255, (feats (ix1 i)).toNat < 32) :
    (out0_4 x0 x1 x2 x3 : S512x10.Idx → EReal) (ix2 r k) = G x thr feats lc (ix2 b k) := by
  show _ = ∑ l : Fin 256, pathWeight (gate (fun f => x (ix2 b f)) thr feats) 8 l.val * classIs lc l k
  rw [out_apply]
  refine Finset.sum_congr rfl fun l _ => ?_
  rw [h3 l, pathWeight_congr (gate_of_reads x0 x1 x2 (fun f => x (ix2 b f)) thr feats r h0 h1 h2 hf) 8 l.val
    (Nat.le_refl 8) l.isLt]
  rfl

/-! ## The blocks the grid's points see -/

variable (m : (ℓ : Loc nD τ sig) → Buf (Elt Ideal) ℓ) (ρ : Dev nD → PrngReg)

/-- The grid has 256 points. -/
theorem points : cfg0.N = 256 := N_0

/-- Where each window's block sits at point t, decided over the grid: the sample block and the result block are the
    t-th block of rows; the two selectors and the threshold row are whole. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row r of point t's sample block is sample 512·t + r of the argument. -/
theorem read_samples (c : Dev nD) (t : Fin cfg0.N) (r : Fin 512) (f : Fin 32) (b : Fin 131072)
    (hb : b.val = 512 * t.val + r.val) :
    (iblk m c 0 t : Vec Ideal S512x32 .f32) (ix2 r f)
      = (m ((c : Thread nD τ).loc main_arg0) : S131072x32.Idx → EReal) (ix2 b f) := by
  obtain ⟨e0, e1, -⟩ := block_index t
  unfold iblk
  rw [View.read_apply]
  show V m c main_arg0 _ = _
  rw [V_main_arg0]
  congr 1
  funext a
  apply Fin.ext
  match a with
  | ⟨0, _⟩ => show win0_0.index t 0 * 512 + 1 * r.val = b.val; rw [e0, hb]; omega
  | ⟨1, _⟩ => show win0_0.index t 1 * 32 + 1 * f.val = f.val; rw [e1]; omega

/-- Every point sees the whole feature selector. -/
theorem read_selector (c : Dev nD) (t : Fin cfg0.N) (f : Fin 32) (i : Fin 255) :
    (iblk m c 1 t : Vec Ideal S32x255 .f32) (ix2 f i) = (V m c main_v1 : S32x255.Idx → EReal) (ix2 f i) := by
  obtain ⟨-, -, e0, e1, -⟩ := block_index t
  unfold iblk
  rw [View.read_apply]
  show V m c main_v1 _ = _
  congr 1
  funext a
  apply Fin.ext
  match a with
  | ⟨0, _⟩ => show win0_1.index t 0 * 32 + 1 * f.val = f.val; rw [e0]; omega
  | ⟨1, _⟩ => show win0_1.index t 1 * 255 + 1 * i.val = i.val; rw [e1]; omega

/-- Every point sees the whole threshold row. -/
theorem read_thresholds (c : Dev nD) (t : Fin cfg0.N) (i : Fin 255) :
    (iblk m c 2 t : Vec Ideal S1x255 .f32) (ix2 0 i) = (V m c main_v2 : S1x255.Idx → EReal) (ix2 0 i) := by
  obtain ⟨-, -, -, -, e0, e1, -⟩ := block_index t
  unfold iblk
  rw [View.read_apply]
  show V m c main_v2 _ = _
  congr 1
  funext a
  apply Fin.ext
  match a with
  | ⟨0, _⟩ => show win0_2.index t 0 * 1 + 1 * 0 = 0; rw [e0]
  | ⟨1, _⟩ => show win0_2.index t 1 * 255 + 1 * i.val = i.val; rw [e1]; omega

/-- Every point sees the whole leaf-class selector. -/
theorem read_classes (c : Dev nD) (t : Fin cfg0.N) (l : Fin 256) (k : Fin 10) :
    (iblk m c 3 t : Vec Ideal S256x10 .f32) (ix2 l k) = (V m c main_v3 : S256x10.Idx → EReal) (ix2 l k) := by
  obtain ⟨-, -, -, -, -, -, e0, e1, -⟩ := block_index t
  unfold iblk
  rw [View.read_apply]
  show V m c main_v3 _ = _
  congr 1
  funext a
  apply Fin.ext
  match a with
  | ⟨0, _⟩ => show win0_3.index t 0 * 256 + 1 * l.val = l.val; rw [e0]; omega
  | ⟨1, _⟩ => show win0_3.index t 1 * 10 + 1 * k.val = k.val; rw [e1]; omega

/-! ## What a point writes back, and the array after the run -/

/-- WHAT POINT t WRITES BACK is block t of the specification's result of the argument arrays. -/
theorem flushed_eq (c : Dev nD)
    (hf : ∀ i : Fin 255, ((m ((c : Thread nD τ).loc main_arg2) : IVec S255 32) (ix1 i)).toNat < 32) (t : Fin cfg0.N) :
    (dats m 0 c).flushed 4 t = ((cfg0.win 4).blk t).view.read (Elt Ideal)
      (Cert.Spec.G (m ((c : Thread nD τ).loc main_arg0)) (m ((c : Thread nD τ).loc main_arg1))
        (m ((c : Thread nD τ).loc main_arg2)) (m ((c : Thread nD τ).loc main_arg3))) := by
  rw [Value.flushed4]
  obtain ⟨-, -, -, -, -, -, -, -, e0, e1⟩ := block_index t
  have ht : t.val < 256 := lt_of_lt_of_eq t.isLt points
  funext j
  have hj0 : (j 0).val < 512 := (j 0).isLt
  have hemb : ((cfg0.win 4).blk t).view.emb j
      = (ix2 (⟨512 * t.val + (j 0).val, by omega⟩ : Fin 131072) (j 1) : S131072x10.Idx) := by
    funext a
    apply Fin.ext
    match a with
    | ⟨0, _⟩ => show win0_4.index t 0 * 512 + 1 * (j 0).val = 512 * t.val + (j 0).val; rw [e0]; omega
    | ⟨1, _⟩ => show win0_4.index t 1 * 10 + 1 * (j 1).val = (j 1).val; rw [e1]; omega
  rw [View.read_apply, hemb]
  show (out0_4 (iblk m c 0 t) (iblk m c 1 t) (iblk m c 2 t) (iblk m c 3 t) : S512x10.Idx → EReal) j = _
  refine Eq.trans (congrArg _ (eq_ix2 (n0 := 512) (n1 := 10) j)) ?_
  refine point_of_reads _ _ _ _ _ _ _ _ (j 0) (j 1) ⟨512 * t.val + (j 0).val, by omega⟩ ?_ ?_ ?_ ?_ hf
  · intro f; exact read_samples m c t (j 0) f _ rfl
  · intro f i; exact (read_selector m c t f i).trans (V_featoh m c f i)
  · intro i; exact (read_thresholds m c t i).trans (V_thr m c i)
  · intro l; exact (read_classes m c t l (j 1)).trans (V_leafoh m c l (j 1))

/-- An index of the result array is in point t's block iff each coordinate is in the block's range on its axis. -/
theorem mem_block (t : Fin cfg0.N) (i : S131072x10.Idx) :
    i ∈ ((cfg0.win 4).blk t).view.set ↔ ∀ a : Fin 2, win0_4.index t a * S512x10.size a ≤ (i a).val
      ∧ (i a).val < win0_4.index t a * S512x10.size a + S512x10.size a := by
  show i ∈ ((View.whole main_v4).slice (win0_4.rect t)).set ↔ _
  rw [View.set_slice_whole, Rect.mem_set_unit]
  exact Iff.rfl

/-- Every index of the result array is in some point's block: row b in point b / 512's. -/
theorem cover (i : S131072x10.Idx) :
    ∃ t : Fin cfg0.N, (cfg0.win 4).flush t = true ∧ i ∈ ((cfg0.win 4).blk t).view.set := by
  have hi0 : (i 0).val < 131072 := (i 0).isLt
  have hi1 : (i 1).val < 10 := (i 1).isLt
  have hlt : (i 0).val / 512 < cfg0.N := by rw [points]; omega
  refine ⟨⟨(i 0).val / 512, hlt⟩, flush0_4 _, ?_⟩
  obtain ⟨-, -, -, -, -, -, -, -, e0, e1⟩ := block_index ⟨(i 0).val / 512, hlt⟩
  have e0' : win0_4.index ⟨(i 0).val / 512, hlt⟩ (0 : Fin 2) = (i 0).val / 512 := e0
  rw [mem_block]
  intro a
  match a with
  | ⟨0, _⟩ =>
    show win0_4.index ⟨(i 0).val / 512, hlt⟩ 0 * 512 ≤ (i 0).val
      ∧ (i 0).val < win0_4.index ⟨(i 0).val / 512, hlt⟩ 0 * 512 + 512
    rw [e0']; omega
  | ⟨1, _⟩ =>
    show win0_4.index ⟨(i 0).val / 512, hlt⟩ 1 * 10 ≤ (i 1).val
      ∧ (i 1).val < win0_4.index ⟨(i 0).val / 512, hlt⟩ 1 * 10 + 10
    rw [e1]; omega

/-- THE ARRAY after the run is the specification's result of the argument arrays. -/
theorem final (c : Dev nD)
    (hf : ∀ i : Fin 255, ((m ((c : Thread nD τ).loc main_arg2) : IVec S255 32) (ix1 i)).toNat < 32) :
    (dats m 0 c).arrAt 4 cfg0.N
      = Cert.Spec.G (m ((c : Thread nD τ).loc main_arg0)) (m ((c : Thread nD τ).loc main_arg1))
          (m ((c : Thread nD τ).loc main_arg2)) (m ((c : Thread nD τ).loc main_arg3)) :=
  (dats m 0 c).arrAt_eq_of_cover 4 _ (fun t _ => flushed_eq m c hf t) cover

/-- The run, read: the result array at the specification's result, the arguments unchanged. -/
theorem run (hf : ∀ (c : Dev nD) (i : Fin 255), ((m ((c : Thread nD τ).loc main_arg2) : IVec S255 32) (ix1 i)).toNat < 32) :
    θ_run defs (onTc (τ := τ) (main (F := Ideal))) ⟨m, fun _ => 0, ρ⟩ fun r => ∀ c : Dev nD,
      r.2.mem ((c : Thread nD τ).loc main_v4)
        = Cert.Spec.G (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c (hf c)), (h c).2⟩) (Value.run_blocks m ρ)

end Cert.KernelIdeal.TreeValue

end
-- ==== Proof.LibGatherCols.lean ====
/-
  A column gather read at an index. What `x[:, idx]` of a matrix `x : [N, C]` at an integer vector `idx : [R]` lowers to:
  a gather with offset axis 0, collapsed axis 1, start index map [1], slice sizes [N, 1] and the index vector on axis 1 of
  the indices as [R, 1]. Result element (b, r) is `x` at row b and column `idx[r, 0]` — read as a signed integer and
  clamped into [0, C − 1].
-/
import Idealize.ShloMosaic.Lib.ValueIdx

noncomputable section

namespace Cert.LibGatherCols

open Idealize.ShloMosaic Idealize.ShloMosaic.ValueIdx

variable {α : Type}

/-- THE COLUMN GATHER READ AT (b, r): for any dimension numbers of that form (`d`, with its fields given by the
    hypotheses), the operand at row b and the clamped column. -/
theorem gather_cols_apply {N C R w : Nat} (hC : 0 < C)
    (d : GatherDims ⟨2, ![N, C]⟩ ⟨2, ![R, 1]⟩ ⟨2, ![N, R]⟩)
    (hoff : d.offsetDims = [0]) (hcol : d.collapsedSliceDims = [1]) (hob : d.operandBatchingDims = [])
    (hsb : d.startIndicesBatchingDims = []) (hsim : d.startIndexMap = [1]) (hiv : d.indexVectorDim = 1)
    (hss : d.sliceSizes = ![N, 1])
    (x : (⟨2, ![N, C]⟩ : Shape).Idx → α) (idx : IVec ⟨2, ![R, 1]⟩ w) (b : Fin N) (r : Fin R) :
    Host.gather d x idx (ix2 b r) = x (ix2 b ⟨min (idx (ix2 r 0)).toInt.toNat (C - 1), by omega⟩) := by
  -- the record's fields are the hypotheses' literals
  obtain ⟨od, cd, ob, sb, sm, iv, ss, wf⟩ := d
  simp only at hoff hcol hob hsb hsim hiv hss
  subst hoff hcol hob hsb hsim hiv hss
  unfold Host.gather
  congr 1
  funext a
  refine Fin.ext ?_
  match a with
  | ⟨0, _⟩ =>
    -- axis 0 is the one kept axis: not in the start index map (start 0), no batching, offset the result's axis-0 coordinate
    show GatherDims.start _ _ idx 0 + GatherDims.batchCoord _ _ 0 + GatherDims.offCoord _ _ 0 = _
    rw [GatherDims.batchCoord_eq_zero _ _ _ List.not_mem_nil]
    unfold GatherDims.start
    rw [dif_neg (show (0 : Fin 2) ∉ [(1 : Fin 2)] by decide)]
    unfold GatherDims.offCoord
    rw [dif_pos ((GatherDims.mem_sKept _ _).mpr ⟨(show (0 : Fin 2) ∉ [(1 : Fin 2)] by decide), List.not_mem_nil⟩)]
    simp only [Nat.add_zero, Nat.zero_add]
    rfl
  | ⟨1, _⟩ =>
    -- axis 1 is collapsed and in the start index map: no batching or offset coordinate, the start is the clamped word
    show GatherDims.start _ _ idx 1 + GatherDims.batchCoord _ _ 1 + GatherDims.offCoord _ _ 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (s := ⟨2, ![N, C]⟩) (si := ⟨2, ![R, 1]⟩) (t := ⟨2, ![N, R]⟩)
        ⟨[0], [1], [], [], [1], 1, ![N, 1], wf⟩ (ix2 b r)
        ⟨List.idxOf (1 : Fin 2) [1], List.idxOf_lt_length_iff.2 (List.mem_singleton.mpr rfl)⟩ = ix2 r 0 := by
      funext b'; refine Fin.ext ?_
      match b' with
      | ⟨0, _⟩ => rfl
      | ⟨1, _⟩ => rfl
    rw [hsi]
    rfl

end Cert.LibGatherCols

end
-- ==== Proof.RefGates.lean ====
/-
  The reference's gates, level by level.

  At level d (n = 2^d nodes, the nodes 2^d − 1 … 2^(d+1) − 2 in level order) the reference slices the level's feature
  words and thresholds, wraps a negative feature word around by adding 32, gathers those columns of the samples,
  subtracts the thresholds broadcast along the samples, and takes one over one plus the exponential of the negated
  difference. Where every feature word is below 32 the wrap-around does nothing, the clamp of the gather does nothing,
  and the column read is the word's value (also its value modulo 32): element (b, j) of the level's gate stage is the
  logistic function of x[b, feats[2^d − 1 + j]] − thr[2^d − 1 + j], the specification's gate of node 2^d − 1 + j.
-/
import proofs.«410582_j36696200577414_2_alg».proof.Proof.RefRead
import proofs.«410582_j36696200577414_2_alg».proof.Proof.Spec
import proofs.«410582_j36696200577414_2_alg».proof.Proof.LibGatherCols
import Idealize.ShloMosaic.Lib.ValueIdx
import Idealize.ShloMosaic.Lib.StableHlo.Predicate
import Idealize.ShloMosaic.PureOps.Ideal
import Idealize.ShloMosaic.PureOps.Ideal.Laws

noncomputable section

namespace Cert.ReferenceIdeal.Gates

open Cert.ReferenceIdeal Cert.ReferenceIdeal.ReadP Idealize.ShloMosaic Idealize.ShloMosaic.ValueIdx Cert.Spec

/-- A feature word below 32 is not negative, so the wrap-around select keeps it, and its clamp into [0, 31] is the
    word's own value, which is also its value modulo 32. -/
theorem word_col (w : BitVec 32) (hw : w.toNat < 32) :
    min (Scalar.select (IntOp.cmpi .slt w 0#32) (IntOp.addi w 32#32) w).toInt.toNat (32 - 1) = w.toNat % 32 := by
  have h0 : IntOp.cmpi .slt w 0#32 = 0#1 := by
    apply eq_zero_of_ne_one
    intro h
    have := (StableHlo.Predicate.slt_iff_toNat (a := w) (b := 0#32) (by omega) (by decide)).mp h
    simp at this
  rw [h0, select_zero, StableHlo.Predicate.toInt_eq_toNat_of_lt (by omega), Int.toNat_natCast, Nat.mod_eq_of_lt hw]
  omega

/-- One over one plus the exponential of the negated difference is the logistic function of the difference. -/
theorem logistic_arith (a t : Ideal .f32) :
    FloatOps.hostDivf (FloatOps.ofBits .f32 0x3F800000#32 : Ideal .f32)
      (FloatOps.addf (FloatOps.ofBits .f32 0x3F800000#32) (FloatOps.hostUnary .exp (FloatOps.hostNegf (FloatOps.subf a t))))
      = Ideal.logistic (a - t) := by
  have h1 : (FloatOps.ofBits .f32 0x3F800000#32 : Ideal .f32) = 1 := one_f32
  rw [h1]
  rfl

variable (x0 : (⟨S131072x32, .f32⟩ : BufTy).Contents (Elt Ideal)) (x1 : (⟨S255, .f32⟩ : BufTy).Contents (Elt Ideal))
  (x2 : (⟨S255, .i32⟩ : BufTy).Contents (Elt Ideal))

/-- ONE LEVEL'S GATE FROM ITS THREE READS. Node i (below 255) tests feature word w = feats[i], below 32. Given that the
    gathered column index is the wrap-around select of w, that the gathered value is the sample's row at that index
    clamped into [0, 31], and that the broadcast threshold is thr[i]: one over one plus the exponential of the negated
    difference is the specification's gate of node i. -/
theorem gate_level (b : Fin 131072) (i : Nat) (hlt : i < 255) (hf : (x2 (ix1 ⟨i, hlt⟩)).toNat < 32)
    (gath thrb : Ideal .f32) (idxw : BitVec 32)
    (hidx : idxw = Scalar.select (IntOp.cmpi .slt (x2 (ix1 ⟨i, hlt⟩)) 0#32) (IntOp.addi (x2 (ix1 ⟨i, hlt⟩)) 32#32)
      (x2 (ix1 ⟨i, hlt⟩)))
    (hg : gath = x0 (ix2 b ⟨min idxw.toInt.toNat (32 - 1), by omega⟩))
    (ht : thrb = x1 (ix1 ⟨i, hlt⟩)) :
    FloatOps.hostDivf (FloatOps.ofBits .f32 0x3F800000#32 : Ideal .f32)
      (FloatOps.addf (FloatOps.ofBits .f32 0x3F800000#32)
        (FloatOps.hostUnary .exp (FloatOps.hostNegf (FloatOps.subf gath thrb))))
      = Cert.Spec.gate (fun f => x0 (ix2 b f)) x1 x2 i := by
  subst hidx hg ht
  have hc : (⟨min (Scalar.select (IntOp.cmpi .slt (x2 (ix1 ⟨i, hlt⟩)) 0#32) (IntOp.addi (x2 (ix1 ⟨i, hlt⟩)) 32#32)
      (x2 (ix1 ⟨i, hlt⟩))).toInt.toNat (32 - 1), by omega⟩ : Fin 32)
      = ⟨(x2 (ix1 ⟨i, hlt⟩)).toNat % 32, Nat.mod_lt _ (by decide)⟩ := Fin.ext (word_col _ hf)
  rw [logistic_arith, Cert.Spec.gate, dif_pos hlt, hc]

/-- Level 0: the gate stage at (b, j) is the specification's gate of node 0 + j. -/
theorem gate0 (hf : ∀ i : Fin 255, (x2 (ix1 i)).toNat < 32) (b : Fin 131072) (j : Fin 1) :
    val_main_v18 (F := Ideal) x0 x1 x2 (ix2 b j) = Cert.Spec.gate (fun f => x0 (ix2 b f)) x1 x2 (0 + j.val) := by
  have hlt : 0 + j.val < 255 := by omega
  -- the level's slice of the feature words, read at j, is word 0 + j
  have hw : val_main_v1 (F := Ideal) x2 (idx_main_v8 (ix2 j 0)) = x2 (ix1 ⟨0 + j.val, hlt⟩) := by
    rw [val_main_v1_apply]; congr 1; funext a
    match a with
    | ⟨0, _⟩ => exact Fin.ext (by show (0 : Nat) = 0 + j.val; omega)
  rw [val_main_v18_apply, val_main_v17_apply, val_main_cst_2_apply, val_main_v16_apply, val_main_v15_apply, val_main_cst_1_apply,
    val_main_v14_apply, val_main_v13_apply, val_main_v12_apply]
  refine gate_level x0 x1 x2 b (0 + j.val) hlt (hf _) _ _ (val_main_v8 (F := Ideal) x2 (ix2 j 0)) ?_ ?_ ?_
  · -- the column index: the wrap-around select of the word
    rw [val_main_v8_apply, val_main_v7_apply, val_main_v4_apply, val_main_v6_apply, val_main_v3_apply, val_main_c_apply, val_main_v5_apply,
      val_main_c_0_apply, hw]
  · -- the gathered column
    unfold val_main_v9
    exact Cert.LibGatherCols.gather_cols_apply (by decide) _ rfl rfl rfl rfl rfl rfl rfl x0 _ b j
  · -- the threshold, broadcast along the samples
    rw [val_main_v11_apply, val_main_v10_apply, val_main_v2_apply]; congr 1; funext a
    match a with
    | ⟨0, _⟩ => exact Fin.ext (by show (0 : Nat) = 0 + j.val; omega)

/-- Level 1: the gate stage at (b, j) is the specification's gate of node 1 + j. -/
theorem gate1 (hf : ∀ i : Fin 255, (x2 (ix1 i)).toNat < 32) (b : Fin 131072) (j : Fin 2) :
    val_main_v44 (F := Ideal) x0 x1 x2 (ix2 b j) = Cert.Spec.gate (fun f => x0 (ix2 b f)) x1 x2 (1 + j.val) := by
  have hlt : 1 + j.val < 255 := by omega
  -- the level's slice of the feature words, read at j, is word 1 + j
  have hw : val_main_v27 (F := Ideal) x2 (idx_main_v34 (ix2 j 0)) = x2 (ix1 ⟨1 + j.val, hlt⟩) := by
    rw [val_main_v27_apply]; congr 1; funext a
    match a with
    | ⟨0, _⟩ => rfl
  rw [val_main_v44_apply, val_main_v43_apply, val_main_cst_7_apply, val_main_v42_apply, val_main_v41_apply, val_main_cst_6_apply,
    val_main_v40_apply, val_main_v39_apply, val_main_v38_apply]
  refine gate_level x0 x1 x2 b (1 + j.val) hlt (hf _) _ _ (val_main_v34 (F := Ideal) x2 (ix2 j 0)) ?_ ?_ ?_
  · -- the column index: the wrap-around select of the word
    rw [val_main_v34_apply, val_main_v33_apply, val_main_v30_apply, val_main_v32_apply, val_main_v29_apply, val_main_c_4_apply, val_main_v31_apply,
      val_main_c_5_apply, hw]
  · -- the gathered column
    unfold val_main_v35
    exact Cert.LibGatherCols.gather_cols_apply (by decide) _ rfl rfl rfl rfl rfl rfl rfl x0 _ b j
  · -- the threshold, broadcast along the samples
    rw [val_main_v37_apply, val_main_v36_apply, val_main_v28_apply]; congr 1; funext a
    match a with
    | ⟨0, _⟩ => rfl

/-- Level 2: the gate stage at (b, j) is the specification's gate of node 3 + j. -/
theorem gate2 (hf : ∀ i : Fin 255, (x2 (ix1 i)).toNat < 32) (b : Fin 131072) (j : Fin 4) :
    val_main_v70 (F := Ideal) x0 x1 x2 (ix2 b j) = Cert.Spec.gate (fun f => x0 (ix2 b f)) x1 x2 (3 + j.val) := by
  have hlt : 3 + j.val < 255 := by omega
  -- the level's slice of the feature words, read at j, is word 3 + j
  have hw : val_main_v53 (F := Ideal) x2 (idx_main_v60 (ix2 j 0)) = x2 (ix1 ⟨3 + j.val, hlt⟩) := by
    rw [val_main_v53_apply]; congr 1; funext a
    match a with
    | ⟨0, _⟩ => rfl
  rw [val_main_v70_apply, val_main_v69_apply, val_main_cst_12_apply, val_main_v68_apply, val_main_v67_apply, val_main_cst_11_apply,
    val_main_v66_apply, val_main_v65_apply, val_main_v64_apply]
  refine gate_level x0 x1 x2 b (3 + j.val) hlt (hf _) _ _ (val_main_v60 (F := Ideal) x2 (ix2 j 0)) ?_ ?_ ?_
  · -- the column index: the wrap-around select of the word
    rw [val_main_v60_apply, val_main_v59_apply, val_main_v56_apply, val_main_v58_apply, val_main_v55_apply, val_main_c_9_apply, val_main_v57_apply,
      val_main_c_10_apply, hw]
  · -- the gathered column
    unfold val_main_v61
    exact Cert.LibGatherCols.gather_cols_apply (by decide) _ rfl rfl rfl rfl rfl rfl rfl x0 _ b j
  · -- the threshold, broadcast along the samples
    rw [val_main_v63_apply, val_main_v62_apply, val_main_v54_apply]; congr 1; funext a
    match a with
    | ⟨0, _⟩ => rfl

/-- Level 3: the gate stage at (b, j) is the specification's gate of node 7 + j. -/
theorem gate3 (hf : ∀ i : Fin 255, (x2 (ix1 i)).toNat < 32) (b : Fin 131072) (j : Fin 8) :
    val_main_v96 (F := Ideal) x0 x1 x2 (ix2 b j) = Cert.Spec.gate (fun f => x0 (ix2 b f)) x1 x2 (7 + j.val) := by
  have hlt : 7 + j.val < 255 := by omega
  -- the level's slice of the feature words, read at j, is word 7 + j
  have hw : val_main_v79 (F := Ideal) x2 (idx_main_v86 (ix2 j 0)) = x2 (ix1 ⟨7 + j.val, hlt⟩) := by
    rw [val_main_v79_apply]; congr 1; funext a
    match a with
    | ⟨0, _⟩ => rfl
  rw [val_main_v96_apply, val_main_v95_apply, val_main_cst_17_apply, val_main_v94_apply, val_main_v93_apply, val_main_cst_16_apply,
    val_main_v92_apply, val_main_v91_apply, val_main_v90_apply]
  refine gate_level x0 x1 x2 b (7 + j.val) hlt (hf _) _ _ (val_main_v86 (F := Ideal) x2 (ix2 j 0)) ?_ ?_ ?_
  · -- the column index: the wrap-around select of the word
    rw [val_main_v86_apply, val_main_v85_apply, val_main_v82_apply, val_main_v84_apply, val_main_v81_apply, val_main_c_14_apply, val_main_v83_apply,
      val_main_c_15_apply, hw]
  · -- the gathered column
    unfold val_main_v87
    exact Cert.LibGatherCols.gather_cols_apply (by decide) _ rfl rfl rfl rfl rfl rfl rfl x0 _ b j
  · -- the threshold, broadcast along the samples
    rw [val_main_v89_apply, val_main_v88_apply, val_main_v80_apply]; congr 1; funext a
    match a with
    | ⟨0, _⟩ => rfl

/-- Level 4: the gate stage at (b, j) is the specification's gate of node 15 + j. -/
theorem gate4 (hf : ∀ i : Fin 255, (x2 (ix1 i)).toNat < 32) (b : Fin 131072) (j : Fin 16) :
    val_main_v122 (F := Ideal) x0 x1 x2 (ix2 b j) = Cert.Spec.gate (fun f => x0 (ix2 b f)) x1 x2 (15 + j.val) := by
  have hlt : 15 + j.val < 255 := by omega
  -- the level's slice of the feature words, read at j, is word 15 + j
  have hw : val_main_v105 (F := Ideal) x2 (idx_main_v112 (ix2 j 0)) = x2 (ix1 ⟨15 + j.val, hlt⟩) := by
    rw [val_main_v105_apply]; congr 1; funext a
    match a with
    | ⟨0, _⟩ => rfl
  rw [val_main_v122_apply, val_main_v121_apply, val_main_cst_22_apply, val_main_v120_apply, val_main_v119_apply, val_main_cst_21_apply,
    val_main_v118_apply, val_main_v117_apply, val_main_v116_apply]
  refine gate_level x0 x1 x2 b (15 + j.val) hlt (hf _) _ _ (val_main_v112 (F := Ideal) x2 (ix2 j 0)) ?_ ?_ ?_
  · -- the column index: the wrap-around select of the word
    rw [val_main_v112_apply, val_main_v111_apply, val_main_v108_apply, val_main_v110_apply, val_main_v107_apply, val_main_c_19_apply, val_main_v109_apply,
      val_main_c_20_apply, hw]
  · -- the gathered column
    unfold val_main_v113
    exact Cert.LibGatherCols.gather_cols_apply (by decide) _ rfl rfl rfl rfl rfl rfl rfl x0 _ b j
  · -- the threshold, broadcast along the samples
    rw [val_main_v115_apply, val_main_v114_apply, val_main_v106_apply]; congr 1; funext a
    match a with
    | ⟨0, _⟩ => rfl

/-- Level 5: the gate stage at (b, j) is the specification's gate of node 31 + j. -/
theorem gate5 (hf : ∀ i : Fin 255, (x2 (ix1 i)).toNat < 32) (b : Fin 131072) (j : Fin 32) :
    val_main_v148 (F := Ideal) x0 x1 x2 (ix2 b j) = Cert.Spec.gate (fun f => x0 (ix2 b f)) x1 x2 (31 + j.val) := by
  have hlt : 31 + j.val < 255 := by omega
  -- the level's slice of the feature words, read at j, is word 31 + j
  have hw : val_main_v131 (F := Ideal) x2 (idx_main_v138 (ix2 j 0)) = x2 (ix1 ⟨31 + j.val, hlt⟩) := by
    rw [val_main_v131_apply]; congr 1; funext a
    match a with
    | ⟨0, _⟩ => rfl
  rw [val_main_v148_apply, val_main_v147_apply, val_main_cst_27_apply, val_main_v146_apply, val_main_v145_apply, val_main_cst_26_apply,
    val_main_v144_apply, val_main_v143_apply, val_main_v142_apply]
  refine gate_level x0 x1 x2 b (31 + j.val) hlt (hf _) _ _ (val_main_v138 (F := Ideal) x2 (ix2 j 0)) ?_ ?_ ?_
  · -- the column index: the wrap-around select of the word
    rw [val_main_v138_apply, val_main_v137_apply, val_main_v134_apply, val_main_v136_apply, val_main_v133_apply, val_main_c_24_apply, val_main_v135_apply,
      val_main_c_25_apply, hw]
  · -- the gathered column
    unfold val_main_v139
    exact Cert.LibGatherCols.gather_cols_apply (by decide) _ rfl rfl rfl rfl rfl rfl rfl x0 _ b j
  · -- the threshold, broadcast along the samples
    rw [val_main_v141_apply, val_main_v140_apply, val_main_v132_apply]; congr 1; funext a
    match a with
    | ⟨0, _⟩ => rfl

/-- Level 6: the gate stage at (b, j) is the specification's gate of node 63 + j. -/
theorem gate6 (hf : ∀ i : Fin 255, (x2 (ix1 i)).toNat < 32) (b : Fin 131072) (j : Fin 64) :
    val_main_v174 (F := Ideal) x0 x1 x2 (ix2 b j) = Cert.Spec.gate (fun f => x0 (ix2 b f)) x1 x2 (63 + j.val) := by
  have hlt : 63 + j.val < 255 := by omega
  -- the level's slice of the feature words, read at j, is word 63 + j
  have hw : val_main_v157 (F := Ideal) x2 (idx_main_v164 (ix2 j 0)) = x2 (ix1 ⟨63 + j.val, hlt⟩) := by
    rw [val_main_v157_apply]; congr 1; funext a
    match a with
    | ⟨0, _⟩ => rfl
  rw [val_main_v174_apply, val_main_v173_apply, val_main_cst_32_apply, val_main_v172_apply, val_main_v171_apply, val_main_cst_31_apply,
    val_main_v170_apply, val_main_v169_apply, val_main_v168_apply]
  refine gate_level x0 x1 x2 b (63 + j.val) hlt (hf _) _ _ (val_main_v164 (F := Ideal) x2 (ix2 j 0)) ?_ ?_ ?_
  · -- the column index: the wrap-around select of the word
    rw [val_main_v164_apply, val_main_v163_apply, val_main_v160_apply, val_main_v162_apply, val_main_v159_apply, val_main_c_29_apply, val_main_v161_apply,
      val_main_c_30_apply, hw]
  · -- the gathered column
    unfold val_main_v165
    exact Cert.LibGatherCols.gather_cols_apply (by decide) _ rfl rfl rfl rfl rfl rfl rfl x0 _ b j
  · -- the threshold, broadcast along the samples
    rw [val_main_v167_apply, val_main_v166_apply, val_main_v158_apply]; congr 1; funext a
    match a with
    | ⟨0, _⟩ => rfl

/-- Level 7: the gate stage at (b, j) is the specification's gate of node 127 + j. -/
theorem gate7 (hf : ∀ i : Fin 255, (x2 (ix1 i)).toNat < 32) (b : Fin 131072) (j : Fin 128) :
    val_main_v200 (F := Ideal) x0 x1 x2 (ix2 b j) = Cert.Spec.gate (fun f => x0 (ix2 b f)) x1 x2 (127 + j.val) := by
  have hlt : 127 + j.val < 255 := by omega
  -- the level's slice of the feature words, read at j, is word 127 + j
  have hw : val_main_v183 (F := Ideal) x2 (idx_main_v190 (ix2 j 0)) = x2 (ix1 ⟨127 + j.val, hlt⟩) := by
    rw [val_main_v183_apply]; congr 1; funext a
    match a with
    | ⟨0, _⟩ => rfl
  rw [val_main_v200_apply, val_main_v199_apply, val_main_cst_37_apply, val_main_v198_apply, val_main_v197_apply, val_main_cst_36_apply,
    val_main_v196_apply, val_main_v195_apply, val_main_v194_apply]
  refine gate_level x0 x1 x2 b (127 + j.val) hlt (hf _) _ _ (val_main_v190 (F := Ideal) x2 (ix2 j 0)) ?_ ?_ ?_
  · -- the column index: the wrap-around select of the word
    rw [val_main_v190_apply, val_main_v189_apply, val_main_v186_apply, val_main_v188_apply, val_main_v185_apply, val_main_c_34_apply, val_main_v187_apply,
      val_main_c_35_apply, hw]
  · -- the gathered column
    unfold val_main_v191
    exact Cert.LibGatherCols.gather_cols_apply (by decide) _ rfl rfl rfl rfl rfl rfl rfl x0 _ b j
  · -- the threshold, broadcast along the samples
    rw [val_main_v193_apply, val_main_v192_apply, val_main_v184_apply]; congr 1; funext a
    match a with
    | ⟨0, _⟩ => rfl

end Cert.ReferenceIdeal.Gates

end
-- ==== Proof.RefLevels.lean ====
/-
  The reference's result from its gates.

  The reference walks the tree level by level. At level d it holds the path weights of the level's 2^d nodes as a
  [131072, 2^d] array (all ones at the root), computes the level's gates as an array of the same shape, and forms the
  left children's weights p · (1 − a) and the right children's p · a, which it interleaves into the [131072, 2^(d+1)]
  array of the next level's path weights. After eight levels the 256 leaves' path weights are multiplied into the
  one-hot array of the leaves' classes: entry (b, c) of the result is the total path weight, on sample b, of the leaves
  of class c.

  Here the gates are taken as given: if, on each row b, the gate arrays of the eight levels hold g b at the levels'
  nodes (node j of level d being node 2^d − 1 + j), the result is the sum over leaves of Spec.pathWeight (g b) 8 times
  the class indicator.
-/
import proofs.«410582_j36696200577414_2_alg».proof.Proof.RefRead
import proofs.«410582_j36696200577414_2_alg».proof.Proof.Spec
import proofs.«410582_j36696200577414_2_alg».proof.Proof.Levels
import Idealize.ShloMosaic.Lib.ValueIdx
import Idealize.ShloMosaic.Lib.StableHlo.Predicate
import Idealize.ShloMosaic.PureOps.Ideal

noncomputable section

open scoped BigOperators

namespace Cert.ReferenceIdeal.Levels

open Cert.ReferenceIdeal Cert.ReferenceIdeal.Gen Cert.ReferenceIdeal.ReadP Idealize.ShloMosaic
  Idealize.ShloMosaic.ValueIdx Cert.Spec Cert.Levels

variable (x0 : (⟨S131072x32, .f32⟩ : BufTy).Contents (Elt Ideal)) (x1 : (⟨S255, .f32⟩ : BufTy).Contents (Elt Ideal))
  (x2 : (⟨S255, .i32⟩ : BufTy).Contents (Elt Ideal)) (x3 : (⟨S256, .i32⟩ : BufTy).Contents (Elt Ideal))

/-! ## The class indicator and the product's indices -/

/-- The equality bit of two words, converted to a number: one when they are equal, zero when not. -/
theorem eq_bit_indicator (a b : BitVec 32) :
    (FloatOps.uitofp (F := Ideal) .f32 (IntOp.cmpi .eq a b) : EReal) = if a = b then 1 else 0 := by
  show (((IntOp.cmpi .eq a b).toNat : ℝ) : EReal) = _
  by_cases h : a = b
  · rw [if_pos h, StableHlo.Predicate.cmpi_eq_iff.mpr h]; simp
  · rw [if_neg h]
    have h0 : IntOp.cmpi .eq a b = 0#1 := by
      have hne : IntOp.cmpi .eq a b ≠ 1#1 := fun h1 => h (StableHlo.Predicate.cmpi_eq_iff.mp h1)
      revert hne
      generalize IntOp.cmpi .eq a b = w
      revert w; decide
    rw [h0]; simp

/-- The one-hot array read at (l, c): one where leaf l has class c, zero elsewhere. -/
theorem onehot_apply (l : Fin 256) (c : Fin 10) :
    val_main_v209 (F := Ideal) x3 (ix2 l c) = classIs x3 l c := by
  rw [val_main_v209_apply, val_main_call0_v4_apply, val_main_call0_v2_apply, val_main_call0_v0_apply,
    val_main_call0_v3_apply, val_main_call0_v1_apply]
  have e : idx_main_call0_v0 (idx_main_call0_v2 (ix2 l c)) = ix1 l := by
    funext a; match a with | ⟨0, _⟩ => rfl
  rw [e]
  exact eq_bit_indicator (x3 (ix1 l)) (BitVec.ofNat 32 c.val)

/-- The product's left index at term k: the row of the result index, column k. -/
theorem lidx_eq (i : S131072x10.Idx) (k : Fin 256) : lidx_main_v210 i k = ix2 (i 0) k := by
  funext a; match a with
  | ⟨0, _⟩ => rfl
  | ⟨1, _⟩ => rfl

/-- The product's right index at term k: row k, the column of the result index. -/
theorem ridx_eq (i : S131072x10.Idx) (k : Fin 256) : ridx_main_v210 i k = ix2 k (i 1) := by
  funext a; match a with
  | ⟨0, _⟩ => rfl
  | ⟨1, _⟩ => rfl

/-! ## Each level's path weights are the doubling of the level above -/

theorem v26_eq : val_main_v26 (F := Ideal) x0 x1 x2
    = levelR (val_main_v0 (F := Ideal)) (val_main_v18 (F := Ideal) x0 x1 x2) (val_main_v19 (F := Ideal))
        bcast_S131072x1_S131072x1x1_0_1 concatenates_S131072x1x1_S131072x1x1_S131072x1x2_d2
        shapeCasts_S131072x1x2_S131072x2 := rfl

theorem v52_eq : val_main_v52 (F := Ideal) x0 x1 x2
    = levelR (val_main_v26 (F := Ideal) x0 x1 x2) (val_main_v44 (F := Ideal) x0 x1 x2) (val_main_v45 (F := Ideal))
        bcast_S131072x2_S131072x2x1_0_1 concatenates_S131072x2x1_S131072x2x1_S131072x2x2_d2
        shapeCasts_S131072x2x2_S131072x4 := rfl

theorem v78_eq : val_main_v78 (F := Ideal) x0 x1 x2
    = levelR (val_main_v52 (F := Ideal) x0 x1 x2) (val_main_v70 (F := Ideal) x0 x1 x2) (val_main_v71 (F := Ideal))
        bcast_S131072x4_S131072x4x1_0_1 concatenates_S131072x4x1_S131072x4x1_S131072x4x2_d2
        shapeCasts_S131072x4x2_S131072x8 := rfl

theorem v104_eq : val_main_v104 (F := Ideal) x0 x1 x2
    = levelR (val_main_v78 (F := Ideal) x0 x1 x2) (val_main_v96 (F := Ideal) x0 x1 x2) (val_main_v97 (F := Ideal))
        bcast_S131072x8_S131072x8x1_0_1 concatenates_S131072x8x1_S131072x8x1_S131072x8x2_d2
        shapeCasts_S131072x8x2_S131072x16 := rfl

theorem v130_eq : val_main_v130 (F := Ideal) x0 x1 x2
    = levelR (val_main_v104 (F := Ideal) x0 x1 x2) (val_main_v122 (F := Ideal) x0 x1 x2) (val_main_v123 (F := Ideal))
        bcast_S131072x16_S131072x16x1_0_1 concatenates_S131072x16x1_S131072x16x1_S131072x16x2_d2
        shapeCasts_S131072x16x2_S131072x32 := rfl

theorem v156_eq : val_main_v156 (F := Ideal) x0 x1 x2
    = levelR (val_main_v130 (F := Ideal) x0 x1 x2) (val_main_v148 (F := Ideal) x0 x1 x2) (val_main_v149 (F := Ideal))
        bcast_S131072x32_S131072x32x1_0_1 concatenates_S131072x32x1_S131072x32x1_S131072x32x2_d2
        shapeCasts_S131072x32x2_S131072x64 := rfl

theorem v182_eq : val_main_v182 (F := Ideal) x0 x1 x2
    = levelR (val_main_v156 (F := Ideal) x0 x1 x2) (val_main_v174 (F := Ideal) x0 x1 x2) (val_main_v175 (F := Ideal))
        bcast_S131072x64_S131072x64x1_0_1 concatenates_S131072x64x1_S131072x64x1_S131072x64x2_d2
        shapeCasts_S131072x64x2_S131072x128 := rfl

theorem v208_eq : val_main_v208 (F := Ideal) x0 x1 x2
    = levelR (val_main_v182 (F := Ideal) x0 x1 x2) (val_main_v200 (F := Ideal) x0 x1 x2) (val_main_v201 (F := Ideal))
        bcast_S131072x128_S131072x128x1_0_1 concatenates_S131072x128x1_S131072x128x1_S131072x128x2_d2
        shapeCasts_S131072x128x2_S131072x256 := rfl

/-! ## The arrays of ones -/

theorem v0_one (i : S131072x1.Idx) : val_main_v0 (F := Ideal) i = 1 := by
  rw [val_main_v0_apply, val_main_cst_apply]; exact one_f32
theorem v19_one (i : S131072x1.Idx) : val_main_v19 (F := Ideal) i = 1 := by
  rw [val_main_v19_apply, val_main_cst_3_apply]; exact one_f32
theorem v45_one (i : S131072x2.Idx) : val_main_v45 (F := Ideal) i = 1 := by
  rw [val_main_v45_apply, val_main_cst_8_apply]; exact one_f32
theorem v71_one (i : S131072x4.Idx) : val_main_v71 (F := Ideal) i = 1 := by
  rw [val_main_v71_apply, val_main_cst_13_apply]; exact one_f32
theorem v97_one (i : S131072x8.Idx) : val_main_v97 (F := Ideal) i = 1 := by
  rw [val_main_v97_apply, val_main_cst_18_apply]; exact one_f32
theorem v123_one (i : S131072x16.Idx) : val_main_v123 (F := Ideal) i = 1 := by
  rw [val_main_v123_apply, val_main_cst_23_apply]; exact one_f32
theorem v149_one (i : S131072x32.Idx) : val_main_v149 (F := Ideal) i = 1 := by
  rw [val_main_v149_apply, val_main_cst_28_apply]; exact one_f32
theorem v175_one (i : S131072x64.Idx) : val_main_v175 (F := Ideal) i = 1 := by
  rw [val_main_v175_apply, val_main_cst_33_apply]; exact one_f32
theorem v201_one (i : S131072x128.Idx) : val_main_v201 (F := Ideal) i = 1 := by
  rw [val_main_v201_apply, val_main_cst_38_apply]; exact one_f32

/-! ## The result -/

/-- THE LEAVES' PATH WEIGHTS: if the eight levels' gate arrays hold, on row b, the gates g b of the levels' nodes, row b
    of the last level's array holds the 256 leaves' path weights under g b. The root's weight is one; each level doubles
    the one above. -/
theorem leaves_row (g : Fin 131072 → Nat → EReal)
    (hg0 : ∀ (b : Fin 131072) (j : Fin 1), val_main_v18 (F := Ideal) x0 x1 x2 (ix2 b j) = g b (0 + j.val))
    (hg1 : ∀ (b : Fin 131072) (j : Fin 2), val_main_v44 (F := Ideal) x0 x1 x2 (ix2 b j) = g b (1 + j.val))
    (hg2 : ∀ (b : Fin 131072) (j : Fin 4), val_main_v70 (F := Ideal) x0 x1 x2 (ix2 b j) = g b (3 + j.val))
    (hg3 : ∀ (b : Fin 131072) (j : Fin 8), val_main_v96 (F := Ideal) x0 x1 x2 (ix2 b j) = g b (7 + j.val))
    (hg4 : ∀ (b : Fin 131072) (j : Fin 16), val_main_v122 (F := Ideal) x0 x1 x2 (ix2 b j) = g b (15 + j.val))
    (hg5 : ∀ (b : Fin 131072) (j : Fin 32), val_main_v148 (F := Ideal) x0 x1 x2 (ix2 b j) = g b (31 + j.val))
    (hg6 : ∀ (b : Fin 131072) (j : Fin 64), val_main_v174 (F := Ideal) x0 x1 x2 (ix2 b j) = g b (63 + j.val))
    (hg7 : ∀ (b : Fin 131072) (j : Fin 128), val_main_v200 (F := Ideal) x0 x1 x2 (ix2 b j) = g b (127 + j.val))
    (b : Fin 131072) :
    ∀ k, k < 256 → row (val_main_v208 (F := Ideal) x0 x1 x2) b k = pathWeight (g b) 8 k := by
  have w0 : ∀ j, j < 1 → row (val_main_v0 (F := Ideal)) b j = pathWeight (g b) 0 j := fun j hj => by
    rw [row_of_lt _ _ hj, v0_one]; rfl
  have w1 : ∀ k, k < 2 → row (val_main_v26 (F := Ideal) x0 x1 x2) b k = pathWeight (g b) 1 k := by
    rw [v26_eq]
    exact levelR_row _ _ _ _ _ _ (g b) 0 rfl v19_one b w0
      (fun j hj => (row_of_lt _ b hj).trans (hg0 b ⟨j, hj⟩))
  have w2 : ∀ k, k < 4 → row (val_main_v52 (F := Ideal) x0 x1 x2) b k = pathWeight (g b) 2 k := by
    rw [v52_eq]
    exact levelR_row _ _ _ _ _ _ (g b) 1 rfl v45_one b w1
      (fun j hj => (row_of_lt _ b hj).trans (hg1 b ⟨j, hj⟩))
  have w3 : ∀ k, k < 8 → row (val_main_v78 (F := Ideal) x0 x1 x2) b k = pathWeight (g b) 3 k := by
    rw [v78_eq]
    exact levelR_row _ _ _ _ _ _ (g b) 2 rfl v71_one b w2
      (fun j hj => (row_of_lt _ b hj).trans (hg2 b ⟨j, hj⟩))
  have w4 : ∀ k, k < 16 → row (val_main_v104 (F := Ideal) x0 x1 x2) b k = pathWeight (g b) 4 k := by
    rw [v104_eq]
    exact levelR_row _ _ _ _ _ _ (g b) 3 rfl v97_one b w3
      (fun j hj => (row_of_lt _ b hj).trans (hg3 b ⟨j, hj⟩))
  have w5 : ∀ k, k < 32 → row (val_main_v130 (F := Ideal) x0 x1 x2) b k = pathWeight (g b) 5 k := by
    rw [v130_eq]
    exact levelR_row _ _ _ _ _ _ (g b) 4 rfl v123_one b w4
      (fun j hj => (row_of_lt _ b hj).trans (hg4 b ⟨j, hj⟩))
  have w6 : ∀ k, k < 64 → row (val_main_v156 (F := Ideal) x0 x1 x2) b k = pathWeight (g b) 6 k := by
    rw [v156_eq]
    exact levelR_row _ _ _ _ _ _ (g b) 5 rfl v149_one b w5
      (fun j hj => (row_of_lt _ b hj).trans (hg5 b ⟨j, hj⟩))
  have w7 : ∀ k, k < 128 → row (val_main_v182 (F := Ideal) x0 x1 x2) b k = pathWeight (g b) 7 k := by
    rw [v182_eq]
    exact levelR_row _ _ _ _ _ _ (g b) 6 rfl v175_one b w6
      (fun j hj => (row_of_lt _ b hj).trans (hg6 b ⟨j, hj⟩))
  rw [v208_eq]
  exact levelR_row _ _ _ _ _ _ (g b) 7 rfl v201_one b w7
    (fun j hj => (row_of_lt _ b hj).trans (hg7 b ⟨j, hj⟩))

/-- THE REFERENCE'S RESULT FROM ITS GATES: if the eight levels' gate arrays hold, on each row b, the gates g b of the
    levels' nodes, entry (b, c) of the result is the sum over the 256 leaves of the leaf's path weight under g b times
    whether the leaf has class c. -/
theorem result_of_gates (g : Fin 131072 → Nat → EReal)
    (hg0 : ∀ (b : Fin 131072) (j : Fin 1), val_main_v18 (F := Ideal) x0 x1 x2 (ix2 b j) = g b (0 + j.val))
    (hg1 : ∀ (b : Fin 131072) (j : Fin 2), val_main_v44 (F := Ideal) x0 x1 x2 (ix2 b j) = g b (1 + j.val))
    (hg2 : ∀ (b : Fin 131072) (j : Fin 4), val_main_v70 (F := Ideal) x0 x1 x2 (ix2 b j) = g b (3 + j.val))
    (hg3 : ∀ (b : Fin 131072) (j : Fin 8), val_main_v96 (F := Ideal) x0 x1 x2 (ix2 b j) = g b (7 + j.val))
    (hg4 : ∀ (b : Fin 131072) (j : Fin 16), val_main_v122 (F := Ideal) x0 x1 x2 (ix2 b j) = g b (15 + j.val))
    (hg5 : ∀ (b : Fin 131072) (j : Fin 32), val_main_v148 (F := Ideal) x0 x1 x2 (ix2 b j) = g b (31 + j.val))
    (hg6 : ∀ (b : Fin 131072) (j : Fin 64), val_main_v174 (F := Ideal) x0 x1 x2 (ix2 b j) = g b (63 + j.val))
    (hg7 : ∀ (b : Fin 131072) (j : Fin 128), val_main_v200 (F := Ideal) x0 x1 x2 (ix2 b j) = g b (127 + j.val)) :
    val_main_v210 (F := Ideal) x0 x1 x2 x3
      = fun jo => ∑ l : Fin 256, pathWeight (g (jo 0)) 8 l.val * classIs x3 l (jo 1) := by
  funext jo
  rw [val_main_v210_apply]
  refine Finset.sum_congr rfl fun k _ => ?_
  rw [lidx_eq, ridx_eq]
  have hw : val_main_v208 (F := Ideal) x0 x1 x2 (ix2 (jo 0) k) = pathWeight (g (jo 0)) 8 k.val :=
    (row_of_lt _ (jo 0) k.isLt).symm.trans
      (leaves_row x0 x1 x2 g hg0 hg1 hg2 hg3 hg4 hg5 hg6 hg7 (jo 0) k.val k.isLt)
  exact congrArg₂ (· * ·) hw (onehot_apply x3 k (jo 1))

end Cert.ReferenceIdeal.Levels

end
-- ==== Proof.RefValue.lean ====
/-
  The reference's result is the specification's function of the arguments.

  The reference computes each level's gates by gathering the tested columns of x, and doubles the path weights level by
  level from a column of ones; its result is the product of the 256 leaves' weights with the leaf-class selector. With
  each level's gates read at an index (one module) and the doubling read row by row from those gates (another), the result
  at (b, c) is the sum over the leaves l of the weight of the path to l along sample b's gates, times whether l has class c.
-/
import proofs.«410582_j36696200577414_2_alg».proof.Proof.RefGates
import proofs.«410582_j36696200577414_2_alg».proof.Proof.RefLevels

noncomputable section

open scoped BigOperators

namespace Cert.ReferenceIdeal.TreeValue

open Cert.ReferenceIdeal Cert.ReferenceIdeal.ReadP Idealize.ShloMosaic Idealize.ShloMosaic.TcCoe Idealize.SL.Sem
open Idealize.ShloMosaic.ValueIdx Cert.Spec

/-- THE REFERENCE'S RESULT, where the feature indices are in range. -/
theorem result_eq (x0 : (⟨S131072x32, .f32⟩ : BufTy).Contents (Elt Ideal)) (x1 : (⟨S255, .f32⟩ : BufTy).Contents (Elt Ideal))
    (x2 : (⟨S255, .i32⟩ : BufTy).Contents (Elt Ideal)) (x3 : (⟨S256, .i32⟩ : BufTy).Contents (Elt Ideal))
    (hf : ∀ i : Fin 255, (x2 (ix1 i)).toNat < 32) :
    val_main_v210 (F := Ideal) x0 x1 x2 x3 = Cert.Spec.G x0 x1 x2 x3 :=
  Cert.ReferenceIdeal.Levels.result_of_gates x0 x1 x2 x3 (fun b => gate (fun f => x0 (ix2 b f)) x1 x2)
    (Cert.ReferenceIdeal.Gates.gate0 x0 x1 x2 hf) (Cert.ReferenceIdeal.Gates.gate1 x0 x1 x2 hf)
    (Cert.ReferenceIdeal.Gates.gate2 x0 x1 x2 hf) (Cert.ReferenceIdeal.Gates.gate3 x0 x1 x2 hf)
    (Cert.ReferenceIdeal.Gates.gate4 x0 x1 x2 hf) (Cert.ReferenceIdeal.Gates.gate5 x0 x1 x2 hf)
    (Cert.ReferenceIdeal.Gates.gate6 x0 x1 x2 hf) (Cert.ReferenceIdeal.Gates.gate7 x0 x1 x2 hf)

end Cert.ReferenceIdeal.TreeValue

end
-- ==== Proof.RefRunStages.lean ====
import proofs.«410582_j36696200577414_2_alg».proof.Proof.RefOps
import proofs.«410582_j36696200577414_2_alg».proof.Proof.RefRead
import Idealize.ShloMosaic.Lib.StableHlo.Run

/-!
  The reference program's run, level by level.

  The reference computes the tree's path weights one level at a time: level k + 1's weights are the interleave of
  level k's weights times (1 − gate) and times the gate, so each level reads the level before it twice. Composing the
  whole program into one term would double it at every level; instead the operation list is cut at the levels, and
  one invariant is carried across the cuts over an arbitrary valuation of the buffers: the four arguments hold what
  they held at launch, and the buffer of level k's weights holds the stage value of level k as a function of the
  arguments. Each level is cut once more, before the interleave's concatenation: the two halves are read first, then
  joined.
-/

noncomputable section

namespace Cert.ReferenceIdeal.StageRun

open Cert.ReferenceIdeal Cert.ReferenceIdeal.Gen Cert.ReferenceIdeal.ReadP Cert.ReferenceIdeal.OpsP
open Idealize.ShloMosaic Idealize.ShloMosaic.TcCoe Idealize.SL.Sem Idealize.ShloMosaic.StableHlo

variable {F : FTy → Type} [FloatOps F]

/-! ## The fold over a concatenation, and the invariant on the arguments -/

/-- The contents after two lines run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- The four argument buffers hold `x0 … x3`. -/
def Args (W : Valuation τ sig (Elt F)) (x0 : (⟨S131072x32, .f32⟩ : BufTy).Contents (Elt F)) (x1 : (⟨S255, .f32⟩ : BufTy).Contents (Elt F)) (x2 : (⟨S255, .i32⟩ : BufTy).Contents (Elt F)) (x3 : (⟨S256, .i32⟩ : BufTy).Contents (Elt F)) : Prop :=
  W (Proc.devRef .tc main_arg0) = x0 ∧ W (Proc.devRef .tc main_arg1) = x1
    ∧ W (Proc.devRef .tc main_arg2) = x2 ∧ W (Proc.devRef .tc main_arg3) = x3

/-- A line that leaves the four argument buffers alone keeps the invariant. -/
theorem Args.keep {l : List (HloOp τ sig (Elt F))} {W : Valuation τ sig (Elt F)} {x0 : (⟨S131072x32, .f32⟩ : BufTy).Contents (Elt F)} {x1 : (⟨S255, .f32⟩ : BufTy).Contents (Elt F)}
    {x2 : (⟨S255, .i32⟩ : BufTy).Contents (Elt F)} {x3 : (⟨S256, .i32⟩ : BufTy).Contents (Elt F)} (h : Args W x0 x1 x2 x3)
    (hk : after l W (Proc.devRef .tc main_arg0) = W (Proc.devRef .tc main_arg0)
      ∧ after l W (Proc.devRef .tc main_arg1) = W (Proc.devRef .tc main_arg1)
      ∧ after l W (Proc.devRef .tc main_arg2) = W (Proc.devRef .tc main_arg2)
      ∧ after l W (Proc.devRef .tc main_arg3) = W (Proc.devRef .tc main_arg3)) :
    Args (after l W) x0 x1 x2 x3 :=
  ⟨hk.1.trans h.1, hk.2.1.trans h.2.1, hk.2.2.1.trans h.2.2.1, hk.2.2.2.trans h.2.2.2⟩

/-! ## Level 0 -/

abbrev pre0 : List (HloOp τ sig (Elt F)) :=
  [ nullary main_cst (constant S_ .f32 0x3F800000#32),
    unary main_cst main_v0 (broadcastInDim S131072x1 ![] bcast_S_S131072x1 : (⟨S_, .f32⟩ : BufTy).Contents (Elt F) → (⟨S131072x1, .f32⟩ : BufTy).Contents (Elt F)),
    unary main_arg2 main_v1 ((extractStridedSlice S1 ![0] · slices_S255_S1_0) : (⟨S255, .i32⟩ : BufTy).Contents (Elt F) → (⟨S1, .i32⟩ : BufTy).Contents (Elt F)),
    unary main_arg1 main_v2 ((extractStridedSlice S1 ![0] · slices_S255_S1_0) : (⟨S255, .f32⟩ : BufTy).Contents (Elt F) → (⟨S1, .f32⟩ : BufTy).Contents (Elt F)),
    nullary main_c (constantI S_ 32 0#32),
    unary main_c main_v3 (broadcastInDim S1 ![] bcast_S_S1 : (⟨S_, .i32⟩ : BufTy).Contents (Elt F) → (⟨S1, .i32⟩ : BufTy).Contents (Elt F)),
    binary main_v1 main_v3 main_v4 (cmpi .slt : (⟨S1, .i32⟩ : BufTy).Contents (Elt F) → (⟨S1, .i32⟩ : BufTy).Contents (Elt F) → (⟨S1, .i1⟩ : BufTy).Contents (Elt F)),
    nullary main_c_0 (constantI S_ 32 32#32),
    unary main_c_0 main_v5 (broadcastInDim S1 ![] bcast_S_S1 : (⟨S_, .i32⟩ : BufTy).Contents (Elt F) → (⟨S1, .i32⟩ : BufTy).Contents (Elt F)),
    binary main_v1 main_v5 main_v6 (addi : (⟨S1, .i32⟩ : BufTy).Contents (Elt F) → (⟨S1, .i32⟩ : BufTy).Contents (Elt F) → (⟨S1, .i32⟩ : BufTy).Contents (Elt F)),
    ternary main_v4 main_v6 main_v1 main_v7 (select : (⟨S1, .i1⟩ : BufTy).Contents (Elt F) → (⟨S1, .i32⟩ : BufTy).Contents (Elt F) → (⟨S1, .i32⟩ : BufTy).Contents (Elt F) → (⟨S1, .i32⟩ : BufTy).Contents (Elt F)),
    unary main_v7 main_v8 (broadcastInDim S1x1 ![0] bcast_S1_S1x1_0 : (⟨S1, .i32⟩ : BufTy).Contents (Elt F) → (⟨S1x1, .i32⟩ : BufTy).Contents (Elt F)),
    binary main_arg0 main_v8 main_v9 ((fun x i => Host.gather gather_S131072x32_S1x1_S131072x1_0_1_n_n_1_1_1310721 x i) : (⟨S131072x32, .f32⟩ : BufTy).Contents (Elt F) → (⟨S1x1, .i32⟩ : BufTy).Contents (Elt F) → (⟨S131072x1, .f32⟩ : BufTy).Contents (Elt F)),
    unary main_v2 main_v10 (broadcastInDim S1x1 ![1] bcast_S1_S1x1_1 : (⟨S1, .f32⟩ : BufTy).Contents (Elt F) → (⟨S1x1, .f32⟩ : BufTy).Contents (Elt F)),
    unary main_v10 main_v11 (broadcastInDim S131072x1 ![0, 1] bcast_S1x1_S131072x1_0_1 : (⟨S1x1, .f32⟩ : BufTy).Contents (Elt F) → (⟨S131072x1, .f32⟩ : BufTy).Contents (Elt F)),
    binary main_v9 main_v11 main_v12 (subf : (⟨S131072x1, .f32⟩ : BufTy).Contents (Elt F) → (⟨S131072x1, .f32⟩ : BufTy).Contents (Elt F) → (⟨S131072x1, .f32⟩ : BufTy).Contents (Elt F)),
    unary main_v12 main_v13 (Host.negf : (⟨S131072x1, .f32⟩ : BufTy).Contents (Elt F) → (⟨S131072x1, .f32⟩ : BufTy).Contents (Elt F)),
    unary main_v13 main_v14 (Host.exp : (⟨S131072x1, .f32⟩ : BufTy).Contents (Elt F) → (⟨S131072x1, .f32⟩ : BufTy).Contents (Elt F)),
    nullary main_cst_1 (constant S_ .f32 0x3F800000#32),
    unary main_cst_1 main_v15 (broadcastInDim S131072x1 ![] bcast_S_S131072x1 : (⟨S_, .f32⟩ : BufTy).Contents (Elt F) → (⟨S131072x1, .f32⟩ : BufTy).Contents (Elt F)),
    binary main_v15 main_v14 main_v16 (addf : (⟨S131072x1, .f32⟩ : BufTy).Contents (Elt F) → (⟨S131072x1, .f32⟩ : BufTy).Contents (Elt F) → (⟨S131072x1, .f32⟩ : BufTy).Contents (Elt F)),
    nullary main_cst_2 (constant S_ .f32 0x3F800000#32),
    unary main_cst_2 main_v17 (broadcastInDim S131072x1 ![] bcast_S_S131072x1 : (⟨S_, .f32⟩ : BufTy).Contents (Elt F) → (⟨S131072x1, .f32⟩ : BufTy).Contents (Elt F)),
    binary main_v17 main_v16 main_v18 (Host.divf : (⟨S131072x1, .f32⟩ : BufTy).Contents (Elt F) → (⟨S131072x1, .f32⟩ : BufTy).Contents (Elt F) → (⟨S131072x1, .f32⟩ : BufTy).Contents (Elt F)),
    nullary main_cst_3 (constant S_ .f32 0x3F800000#32),
    unary main_cst_3 main_v19 (broadcastInDim S131072x1 ![] bcast_S_S131072x1 : (⟨S_, .f32⟩ : BufTy).Contents (Elt F) → (⟨S131072x1, .f32⟩ : BufTy).Contents (Elt F)),
    binary main_v19 main_v18 main_v20 (subf : (⟨S131072x1, .f32⟩ : BufTy).Contents (Elt F) → (⟨S131072x1, .f32⟩ : BufTy).Contents (Elt F) → (⟨S131072x1, .f32⟩ : BufTy).Contents (Elt F)),
    binary main_v0 main_v20 main_v21 (mulf : (⟨S131072x1, .f32⟩ : BufTy).Contents (Elt F) → (⟨S131072x1, .f32⟩ : BufTy).Contents (Elt F) → (⟨S131072x1, .f32⟩ : BufTy).Contents (Elt F)),
    binary main_v0 main_v18 main_v22 (mulf : (⟨S131072x1, .f32⟩ : BufTy).Contents (Elt F) → (⟨S131072x1, .f32⟩ : BufTy).Contents (Elt F) → (⟨S131072x1, .f32⟩ : BufTy).Contents (Elt F)),
    unary main_v21 main_v23 (broadcastInDim S131072x1x1 ![0, 1] bcast_S131072x1_S131072x1x1_0_1 : (⟨S131072x1, .f32⟩ : BufTy).Contents (Elt F) → (⟨S131072x1x1, .f32⟩ : BufTy).Contents (Elt F)),
    unary main_v22 main_v24 (broadcastInDim S131072x1x1 ![0, 1] bcast_S131072x1_S131072x1x1_0_1 : (⟨S131072x1, .f32⟩ : BufTy).Contents (Elt F) → (⟨S131072x1x1, .f32⟩ : BufTy).Contents (Elt F)) ]

abbrev tail0 : List (HloOp τ sig (Elt F)) :=
  [ binary main_v23 main_v24 main_v25 ((fun a b => concatenate S131072x1x2 2 [⟨S131072x1x1, a⟩, ⟨S131072x1x1, b⟩] concatenates_S131072x1x1_S131072x1x1_S131072x1x2_d2) : (⟨S131072x1x1, .f32⟩ : BufTy).Contents (Elt F) → (⟨S131072x1x1, .f32⟩ : BufTy).Contents (Elt F) → (⟨S131072x1x2, .f32⟩ : BufTy).Contents (Elt F)),
    reshape main_v25 main_v26 rfl shapeCasts_S131072x1x2_S131072x2 ]

set_option maxRecDepth 8192 in
theorem left0 (W : Valuation τ sig (Elt F)) (x0 : (⟨S131072x32, .f32⟩ : BufTy).Contents (Elt F)) (x1 : (⟨S255, .f32⟩ : BufTy).Contents (Elt F)) (x2 : (⟨S255, .i32⟩ : BufTy).Contents (Elt F))
    (h0 : W (Proc.devRef .tc main_arg0) = x0) (h1 : W (Proc.devRef .tc main_arg1) = x1)
    (h2 : W (Proc.devRef .tc main_arg2) = x2) :
    after (pre0 (F := F)) W (Proc.devRef .tc main_v23) = val_main_v23 (F := F) x0 x1 x2 := by
  after_results_simp
  simp only [h0, h1, h2]
  rfl

set_option maxRecDepth 8192 in
theorem right0 (W : Valuation τ sig (Elt F)) (x0 : (⟨S131072x32, .f32⟩ : BufTy).Contents (Elt F)) (x1 : (⟨S255, .f32⟩ : BufTy).Contents (Elt F)) (x2 : (⟨S255, .i32⟩ : BufTy).Contents (Elt F))
    (h0 : W (Proc.devRef .tc main_arg0) = x0) (h1 : W (Proc.devRef .tc main_arg1) = x1)
    (h2 : W (Proc.devRef .tc main_arg2) = x2) :
    after (pre0 (F := F)) W (Proc.devRef .tc main_v24) = val_main_v24 (F := F) x0 x1 x2 := by
  after_results_simp
  simp only [h0, h1, h2]
  rfl

theorem join0 (W : Valuation τ sig (Elt F)) (x0 : (⟨S131072x32, .f32⟩ : BufTy).Contents (Elt F)) (x1 : (⟨S255, .f32⟩ : BufTy).Contents (Elt F)) (x2 : (⟨S255, .i32⟩ : BufTy).Contents (Elt F))
    (hl : W (Proc.devRef .tc main_v23) = val_main_v23 (F := F) x0 x1 x2)
    (hr : W (Proc.devRef .tc main_v24) = val_main_v24 (F := F) x0 x1 x2) :
    after (tail0 (F := F)) W (Proc.devRef .tc main_v26) = val_main_v26 (F := F) x0 x1 x2 := by
  simp only [after_cons, after_nil]
  rw [reshape_result, binary_result, hl, hr]
  rfl

theorem keep_pre0 (W : Valuation τ sig (Elt F)) :
    after (pre0 (F := F)) W (Proc.devRef .tc main_arg0) = W (Proc.devRef .tc main_arg0)
      ∧ after (pre0 (F := F)) W (Proc.devRef .tc main_arg1) = W (Proc.devRef .tc main_arg1)
      ∧ after (pre0 (F := F)) W (Proc.devRef .tc main_arg2) = W (Proc.devRef .tc main_arg2)
      ∧ after (pre0 (F := F)) W (Proc.devRef .tc main_arg3) = W (Proc.devRef .tc main_arg3) := by
  refine ⟨?_, ?_, ?_, ?_⟩ <;> after_results_simp

theorem keep_tail0 (W : Valuation τ sig (Elt F)) :
    after (tail0 (F := F)) W (Proc.devRef .tc main_arg0) = W (Proc.devRef .tc main_arg0)
      ∧ after (tail0 (F := F)) W (Proc.devRef .tc main_arg1) = W (Proc.devRef .tc main_arg1)
      ∧ after (tail0 (F := F)) W (Proc.devRef .tc main_arg2) = W (Proc.devRef .tc main_arg2)
      ∧ after (tail0 (F := F)) W (Proc.devRef .tc main_arg3) = W (Proc.devRef .tc main_arg3) := by
  refine ⟨?_, ?_, ?_, ?_⟩ <;> after_results_simp

/-- Level 0: from the invariant to the invariant and level 0's weights. -/
theorem step0 (W : Valuation τ sig (Elt F)) (x0 : (⟨S131072x32, .f32⟩ : BufTy).Contents (Elt F)) (x1 : (⟨S255, .f32⟩ : BufTy).Contents (Elt F)) (x2 : (⟨S255, .i32⟩ : BufTy).Contents (Elt F)) (x3 : (⟨S256, .i32⟩ : BufTy).Contents (Elt F))
    (hA : Args W x0 x1 x2 x3) :
    Args (after (tail0 (F := F)) (after (pre0 (F := F)) W)) x0 x1 x2 x3
      ∧ after (tail0 (F := F)) (after (pre0 (F := F)) W) (Proc.devRef .tc main_v26) = val_main_v26 (F := F) x0 x1 x2 :=
  ⟨(hA.keep (keep_pre0 W)).keep (keep_tail0 _),
    join0 _ x0 x1 x2 (left0 W x0 x1 x2 hA.1 hA.2.1 hA.2.2.1) (right0 W x0 x1 x2 hA.1 hA.2.1 hA.2.2.1)⟩

/-! ## Level 1 -/

abbrev pre1 : List (HloOp τ sig (Elt F)) :=
  [ unary main_arg2 main_v27 ((extractStridedSlice S2 ![1] · slices_S255_S2_1) : (⟨S255, .i32⟩ : BufTy).Contents (Elt F) → (⟨S2, .i32⟩ : BufTy).Contents (Elt F)),
    unary main_arg1 main_v28 ((extractStridedSlice S2 ![1] · slices_S255_S2_1) : (⟨S255, .f32⟩ : BufTy).Contents (Elt F) → (⟨S2, .f32⟩ : BufTy).Contents (Elt F)),
    nullary main_c_4 (constantI S_ 32 0#32),
    unary main_c_4 main_v29 (broadcastInDim S2 ![] bcast_S_S2 : (⟨S_, .i32⟩ : BufTy).Contents (Elt F) → (⟨S2, .i32⟩ : BufTy).Contents (Elt F)),
    binary main_v27 main_v29 main_v30 (cmpi .slt : (⟨S2, .i32⟩ : BufTy).Contents (Elt F) → (⟨S2, .i32⟩ : BufTy).Contents (Elt F) → (⟨S2, .i1⟩ : BufTy).Contents (Elt F)),
    nullary main_c_5 (constantI S_ 32 32#32),
    unary main_c_5 main_v31 (broadcastInDim S2 ![] bcast_S_S2 : (⟨S_, .i32⟩ : BufTy).Contents (Elt F) → (⟨S2, .i32⟩ : BufTy).Contents (Elt F)),
    binary main_v27 main_v31 main_v32 (addi : (⟨S2, .i32⟩ : BufTy).Contents (Elt F) → (⟨S2, .i32⟩ : BufTy).Contents (Elt F) → (⟨S2, .i32⟩ : BufTy).Contents (Elt F)),
    ternary main_v30 main_v32 main_v27 main_v33 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    unary main_v33 main_v34 (broadcastInDim S2x1 ![0] bcast_S2_S2x1_0 : (⟨S2, .i32⟩ : BufTy).Contents (Elt F) → (⟨S2x1, .i32⟩ : BufTy).Contents (Elt F)),
    binary main_arg0 main_v34 main_v35 ((fun x i => Host.gather gather_S131072x32_S2x1_S131072x2_0_1_n_n_1_1_1310721 x i) : (⟨S131072x32, .f32⟩ : BufTy).Contents (Elt F) → (⟨S2x1, .i32⟩ : BufTy).Contents (Elt F) → (⟨S131072x2, .f32⟩ : BufTy).Contents (Elt F)),
    unary main_v28 main_v36 (broadcastInDim S1x2 ![1] bcast_S2_S1x2_1 : (⟨S2, .f32⟩ : BufTy).Contents (Elt F) → (⟨S1x2, .f32⟩ : BufTy).Contents (Elt F)),
    unary main_v36 main_v37 (broadcastInDim S131072x2 ![0, 1] bcast_S1x2_S131072x2_0_1 : (⟨S1x2, .f32⟩ : BufTy).Contents (Elt F) → (⟨S131072x2, .f32⟩ : BufTy).Contents (Elt F)),
    binary main_v35 main_v37 main_v38 (subf : (⟨S131072x2, .f32⟩ : BufTy).Contents (Elt F) → (⟨S131072x2, .f32⟩ : BufTy).Contents (Elt F) → (⟨S131072x2, .f32⟩ : BufTy).Contents (Elt F)),
    unary main_v38 main_v39 (Host.negf : (⟨S131072x2, .f32⟩ : BufTy).Contents (Elt F) → (⟨S131072x2, .f32⟩ : BufTy).Contents (Elt F)),
    unary main_v39 main_v40 (Host.exp : (⟨S131072x2, .f32⟩ : BufTy).Contents (Elt F) → (⟨S131072x2, .f32⟩ : BufTy).Contents (Elt F)),
    nullary main_cst_6 (constant S_ .f32 0x3F800000#32),
    unary main_cst_6 main_v41 (broadcastInDim S131072x2 ![] bcast_S_S131072x2 : (⟨S_, .f32⟩ : BufTy).Contents (Elt F) → (⟨S131072x2, .f32⟩ : BufTy).Contents (Elt F)),
    binary main_v41 main_v40 main_v42 (addf : (⟨S131072x2, .f32⟩ : BufTy).Contents (Elt F) → (⟨S131072x2, .f32⟩ : BufTy).Contents (Elt F) → (⟨S131072x2, .f32⟩ : BufTy).Contents (Elt F)),
    nullary main_cst_7 (constant S_ .f32 0x3F800000#32),
    unary main_cst_7 main_v43 (broadcastInDim S131072x2 ![] bcast_S_S131072x2 : (⟨S_, .f32⟩ : BufTy).Contents (Elt F) → (⟨S131072x2, .f32⟩ : BufTy).Contents (Elt F)),
    binary main_v43 main_v42 main_v44 (Host.divf : (⟨S131072x2, .f32⟩ : BufTy).Contents (Elt F) → (⟨S131072x2, .f32⟩ : BufTy).Contents (Elt F) → (⟨S131072x2, .f32⟩ : BufTy).Contents (Elt F)),
    nullary main_cst_8 (constant S_ .f32 0x3F800000#32),
    unary main_cst_8 main_v45 (broadcastInDim S131072x2 ![] bcast_S_S131072x2 : (⟨S_, .f32⟩ : BufTy).Contents (Elt F) → (⟨S131072x2, .f32⟩ : BufTy).Contents (Elt F)),
    binary main_v45 main_v44 main_v46 (subf : (⟨S131072x2, .f32⟩ : BufTy).Contents (Elt F) → (⟨S131072x2, .f32⟩ : BufTy).Contents (Elt F) → (⟨S131072x2, .f32⟩ : BufTy).Contents (Elt F)),
    binary main_v26 main_v46 main_v47 (mulf : (⟨S131072x2, .f32⟩ : BufTy).Contents (Elt F) → (⟨S131072x2, .f32⟩ : BufTy).Contents (Elt F) → (⟨S131072x2, .f32⟩ : BufTy).Contents (Elt F)),
    binary main_v26 main_v44 main_v48 (mulf : (⟨S131072x2, .f32⟩ : BufTy).Contents (Elt F) → (⟨S131072x2, .f32⟩ : BufTy).Contents (Elt F) → (⟨S131072x2, .f32⟩ : BufTy).Contents (Elt F)),
    unary main_v47 main_v49 (broadcastInDim S131072x2x1 ![0, 1] bcast_S131072x2_S131072x2x1_0_1 : (⟨S131072x2, .f32⟩ : BufTy).Contents (Elt F) → (⟨S131072x2x1, .f32⟩ : BufTy).Contents (Elt F)),
    unary main_v48 main_v50 (broadcastInDim S131072x2x1 ![0, 1] bcast_S131072x2_S131072x2x1_0_1 : (⟨S131072x2, .f32⟩ : BufTy).Contents (Elt F) → (⟨S131072x2x1, .f32⟩ : BufTy).Contents (Elt F)) ]

abbrev tail1 : List (HloOp τ sig (Elt F)) :=
  [ binary main_v49 main_v50 main_v51 ((fun a b => concatenate S131072x2x2 2 [⟨S131072x2x1, a⟩, ⟨S131072x2x1, b⟩] concatenates_S131072x2x1_S131072x2x1_S131072x2x2_d2) : (⟨S131072x2x1, .f32⟩ : BufTy).Contents (Elt F) → (⟨S131072x2x1, .f32⟩ : BufTy).Contents (Elt F) → (⟨S131072x2x2, .f32⟩ : BufTy).Contents (Elt F)),
    reshape main_v51 main_v52 rfl shapeCasts_S131072x2x2_S131072x4 ]

set_option maxRecDepth 8192 in
theorem left1 (W : Valuation τ sig (Elt F)) (x0 : (⟨S131072x32, .f32⟩ : BufTy).Contents (Elt F)) (x1 : (⟨S255, .f32⟩ : BufTy).Contents (Elt F)) (x2 : (⟨S255, .i32⟩ : BufTy).Contents (Elt F))
    (h0 : W (Proc.devRef .tc main_arg0) = x0) (h1 : W (Proc.devRef .tc main_arg1) = x1)
    (h2 : W (Proc.devRef .tc main_arg2) = x2)
    (hp : W (Proc.devRef .tc main_v26) = val_main_v26 (F := F) x0 x1 x2) :
    after (pre1 (F := F)) W (Proc.devRef .tc main_v49) = val_main_v49 (F := F) x0 x1 x2 := by
  after_results_simp
  simp only [h0, h1, h2, hp]
  rfl

set_option maxRecDepth 8192 in
theorem right1 (W : Valuation τ sig (Elt F)) (x0 : (⟨S131072x32, .f32⟩ : BufTy).Contents (Elt F)) (x1 : (⟨S255, .f32⟩ : BufTy).Contents (Elt F)) (x2 : (⟨S255, .i32⟩ : BufTy).Contents (Elt F))
    (h0 : W (Proc.devRef .tc main_arg0) = x0) (h1 : W (Proc.devRef .tc main_arg1) = x1)
    (h2 : W (Proc.devRef .tc main_arg2) = x2)
    (hp : W (Proc.devRef .tc main_v26) = val_main_v26 (F := F) x0 x1 x2) :
    after (pre1 (F := F)) W (Proc.devRef .tc main_v50) = val_main_v50 (F := F) x0 x1 x2 := by
  after_results_simp
  simp only [h0, h1, h2, hp]
  rfl

theorem join1 (W : Valuation τ sig (Elt F)) (x0 : (⟨S131072x32, .f32⟩ : BufTy).Contents (Elt F)) (x1 : (⟨S255, .f32⟩ : BufTy).Contents (Elt F)) (x2 : (⟨S255, .i32⟩ : BufTy).Contents (Elt F))
    (hl : W (Proc.devRef .tc main_v49) = val_main_v49 (F := F) x0 x1 x2)
    (hr : W (Proc.devRef .tc main_v50) = val_main_v50 (F := F) x0 x1 x2) :
    after (tail1 (F := F)) W (Proc.devRef .tc main_v52) = val_main_v52 (F := F) x0 x1 x2 := by
  simp only [after_cons, after_nil]
  rw [reshape_result, binary_result, hl, hr]
  rfl

theorem keep_pre1 (W : Valuation τ sig (Elt F)) :
    after (pre1 (F := F)) W (Proc.devRef .tc main_arg0) = W (Proc.devRef .tc main_arg0)
      ∧ after (pre1 (F := F)) W (Proc.devRef .tc main_arg1) = W (Proc.devRef .tc main_arg1)
      ∧ after (pre1 (F := F)) W (Proc.devRef .tc main_arg2) = W (Proc.devRef .tc main_arg2)
      ∧ after (pre1 (F := F)) W (Proc.devRef .tc main_arg3) = W (Proc.devRef .tc main_arg3) := by
  refine ⟨?_, ?_, ?_, ?_⟩ <;> after_results_simp

theorem keep_tail1 (W : Valuation τ sig (Elt F)) :
    after (tail1 (F := F)) W (Proc.devRef .tc main_arg0) = W (Proc.devRef .tc main_arg0)
      ∧ after (tail1 (F := F)) W (Proc.devRef .tc main_arg1) = W (Proc.devRef .tc main_arg1)
      ∧ after (tail1 (F := F)) W (Proc.devRef .tc main_arg2) = W (Proc.devRef .tc main_arg2)
      ∧ after (tail1 (F := F)) W (Proc.devRef .tc main_arg3) = W (Proc.devRef .tc main_arg3) := by
  refine ⟨?_, ?_, ?_, ?_⟩ <;> after_results_simp

/-- Level 1: from the invariant and level 0's weights to the invariant and level 1's weights. -/
theorem step1 (W : Valuation τ sig (Elt F)) (x0 : (⟨S131072x32, .f32⟩ : BufTy).Contents (Elt F)) (x1 : (⟨S255, .f32⟩ : BufTy).Contents (Elt F)) (x2 : (⟨S255, .i32⟩ : BufTy).Contents (Elt F)) (x3 : (⟨S256, .i32⟩ : BufTy).Contents (Elt F))
    (hA : Args W x0 x1 x2 x3)
    (hp : W (Proc.devRef .tc main_v26) = val_main_v26 (F := F) x0 x1 x2) :
    Args (after (tail1 (F := F)) (after (pre1 (F := F)) W)) x0 x1 x2 x3
      ∧ after (tail1 (F := F)) (after (pre1 (F := F)) W) (Proc.devRef .tc main_v52) = val_main_v52 (F := F) x0 x1 x2 :=
  ⟨(hA.keep (keep_pre1 W)).keep (keep_tail1 _),
    join1 _ x0 x1 x2 (left1 W x0 x1 x2 hA.1 hA.2.1 hA.2.2.1 hp) (right1 W x0 x1 x2 hA.1 hA.2.1 hA.2.2.1 hp)⟩

/-! ## Level 2 -/

abbrev pre2 : List (HloOp τ sig (Elt F)) :=
  [ unary main_arg2 main_v53 ((extractStridedSlice S4 ![3] · slices_S255_S4_3) : (⟨S255, .i32⟩ : BufTy).Contents (Elt F) → (⟨S4, .i32⟩ : BufTy).Contents (Elt F)),
    unary main_arg1 main_v54 ((extractStridedSlice S4 ![3] · slices_S255_S4_3) : (⟨S255, .f32⟩ : BufTy).Contents (Elt F) → (⟨S4, .f32⟩ : BufTy).Contents (Elt F)),
    nullary main_c_9 (constantI S_ 32 0#32),
    unary main_c_9 main_v55 (broadcastInDim S4 ![] bcast_S_S4 : (⟨S_, .i32⟩ : BufTy).Contents (Elt F) → (⟨S4, .i32⟩ : BufTy).Contents (Elt F)),
    binary main_v53 main_v55 main_v56 (cmpi .slt : (⟨S4, .i32⟩ : BufTy).Contents (Elt F) → (⟨S4, .i32⟩ : BufTy).Contents (Elt F) → (⟨S4, .i1⟩ : BufTy).Contents (Elt F)),
    nullary main_c_10 (constantI S_ 32 32#32),
    unary main_c_10 main_v57 (broadcastInDim S4 ![] bcast_S_S4 : (⟨S_, .i32⟩ : BufTy).Contents (Elt F) → (⟨S4, .i32⟩ : BufTy).Contents (Elt F)),
    binary main_v53 main_v57 main_v58 (addi : (⟨S4, .i32⟩ : BufTy).Contents (Elt F) → (⟨S4, .i32⟩ : BufTy).Contents (Elt F) → (⟨S4, .i32⟩ : BufTy).Contents (Elt F)),
    ternary main_v56 main_v58 main_v53 main_v59 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    unary main_v59 main_v60 (broadcastInDim S4x1 ![0] bcast_S4_S4x1_0 : (⟨S4, .i32⟩ : BufTy).Contents (Elt F) → (⟨S4x1, .i32⟩ : BufTy).Contents (Elt F)),
    binary main_arg0 main_v60 main_v61 ((fun x i => Host.gather gather_S131072x32_S4x1_S131072x4_0_1_n_n_1_1_1310721 x i) : (⟨S131072x32, .f32⟩ : BufTy).Contents (Elt F) → (⟨S4x1, .i32⟩ : BufTy).Contents (Elt F) → (⟨S131072x4, .f32⟩ : BufTy).Contents (Elt F)),
    unary main_v54 main_v62 (broadcastInDim S1x4 ![1] bcast_S4_S1x4_1 : (⟨S4, .f32⟩ : BufTy).Contents (Elt F) → (⟨S1x4, .f32⟩ : BufTy).Contents (Elt F)),
    unary main_v62 main_v63 (broadcastInDim S131072x4 ![0, 1] bcast_S1x4_S131072x4_0_1 : (⟨S1x4, .f32⟩ : BufTy).Contents (Elt F) → (⟨S131072x4, .f32⟩ : BufTy).Contents (Elt F)),
    binary main_v61 main_v63 main_v64 (subf : (⟨S131072x4, .f32⟩ : BufTy).Contents (Elt F) → (⟨S131072x4, .f32⟩ : BufTy).Contents (Elt F) → (⟨S131072x4, .f32⟩ : BufTy).Contents (Elt F)),
    unary main_v64 main_v65 (Host.negf : (⟨S131072x4, .f32⟩ : BufTy).Contents (Elt F) → (⟨S131072x4, .f32⟩ : BufTy).Contents (Elt F)),
    unary main_v65 main_v66 (Host.exp : (⟨S131072x4, .f32⟩ : BufTy).Contents (Elt F) → (⟨S131072x4, .f32⟩ : BufTy).Contents (Elt F)),
    nullary main_cst_11 (constant S_ .f32 0x3F800000#32),
    unary main_cst_11 main_v67 (broadcastInDim S131072x4 ![] bcast_S_S131072x4 : (⟨S_, .f32⟩ : BufTy).Contents (Elt F) → (⟨S131072x4, .f32⟩ : BufTy).Contents (Elt F)),
    binary main_v67 main_v66 main_v68 (addf : (⟨S131072x4, .f32⟩ : BufTy).Contents (Elt F) → (⟨S131072x4, .f32⟩ : BufTy).Contents (Elt F) → (⟨S131072x4, .f32⟩ : BufTy).Contents (Elt F)),
    nullary main_cst_12 (constant S_ .f32 0x3F800000#32),
    unary main_cst_12 main_v69 (broadcastInDim S131072x4 ![] bcast_S_S131072x4 : (⟨S_, .f32⟩ : BufTy).Contents (Elt F) → (⟨S131072x4, .f32⟩ : BufTy).Contents (Elt F)),
    binary main_v69 main_v68 main_v70 (Host.divf : (⟨S131072x4, .f32⟩ : BufTy).Contents (Elt F) → (⟨S131072x4, .f32⟩ : BufTy).Contents (Elt F) → (⟨S131072x4, .f32⟩ : BufTy).Contents (Elt F)),
    nullary main_cst_13 (constant S_ .f32 0x3F800000#32),
    unary main_cst_13 main_v71 (broadcastInDim S131072x4 ![] bcast_S_S131072x4 : (⟨S_, .f32⟩ : BufTy).Contents (Elt F) → (⟨S131072x4, .f32⟩ : BufTy).Contents (Elt F)),
    binary main_v71 main_v70 main_v72 (subf : (⟨S131072x4, .f32⟩ : BufTy).Contents (Elt F) → (⟨S131072x4, .f32⟩ : BufTy).Contents (Elt F) → (⟨S131072x4, .f32⟩ : BufTy).Contents (Elt F)),
    binary main_v52 main_v72 main_v73 (mulf : (⟨S131072x4, .f32⟩ : BufTy).Contents (Elt F) → (⟨S131072x4, .f32⟩ : BufTy).Contents (Elt F) → (⟨S131072x4, .f32⟩ : BufTy).Contents (Elt F)),
    binary main_v52 main_v70 main_v74 (mulf : (⟨S131072x4, .f32⟩ : BufTy).Contents (Elt F) → (⟨S131072x4, .f32⟩ : BufTy).Contents (Elt F) → (⟨S131072x4, .f32⟩ : BufTy).Contents (Elt F)),
    unary main_v73 main_v75 (broadcastInDim S131072x4x1 ![0, 1] bcast_S131072x4_S131072x4x1_0_1 : (⟨S131072x4, .f32⟩ : BufTy).Contents (Elt F) → (⟨S131072x4x1, .f32⟩ : BufTy).Contents (Elt F)),
    unary main_v74 main_v76 (broadcastInDim S131072x4x1 ![0, 1] bcast_S131072x4_S131072x4x1_0_1 : (⟨S131072x4, .f32⟩ : BufTy).Contents (Elt F) → (⟨S131072x4x1, .f32⟩ : BufTy).Contents (Elt F)) ]

abbrev tail2 : List (HloOp τ sig (Elt F)) :=
  [ binary main_v75 main_v76 main_v77 ((fun a b => concatenate S131072x4x2 2 [⟨S131072x4x1, a⟩, ⟨S131072x4x1, b⟩] concatenates_S131072x4x1_S131072x4x1_S131072x4x2_d2) : (⟨S131072x4x1, .f32⟩ : BufTy).Contents (Elt F) → (⟨S131072x4x1, .f32⟩ : BufTy).Contents (Elt F) → (⟨S131072x4x2, .f32⟩ : BufTy).Contents (Elt F)),
    reshape main_v77 main_v78 rfl shapeCasts_S131072x4x2_S131072x8 ]

set_option maxRecDepth 8192 in
theorem left2 (W : Valuation τ sig (Elt F)) (x0 : (⟨S131072x32, .f32⟩ : BufTy).Contents (Elt F)) (x1 : (⟨S255, .f32⟩ : BufTy).Contents (Elt F)) (x2 : (⟨S255, .i32⟩ : BufTy).Contents (Elt F))
    (h0 : W (Proc.devRef .tc main_arg0) = x0) (h1 : W (Proc.devRef .tc main_arg1) = x1)
    (h2 : W (Proc.devRef .tc main_arg2) = x2)
    (hp : W (Proc.devRef .tc main_v52) = val_main_v52 (F := F) x0 x1 x2) :
    after (pre2 (F := F)) W (Proc.devRef .tc main_v75) = val_main_v75 (F := F) x0 x1 x2 := by
  after_results_simp
  simp only [h0, h1, h2, hp]
  rfl

set_option maxRecDepth 8192 in
theorem right2 (W : Valuation τ sig (Elt F)) (x0 : (⟨S131072x32, .f32⟩ : BufTy).Contents (Elt F)) (x1 : (⟨S255, .f32⟩ : BufTy).Contents (Elt F)) (x2 : (⟨S255, .i32⟩ : BufTy).Contents (Elt F))
    (h0 : W (Proc.devRef .tc main_arg0) = x0) (h1 : W (Proc.devRef .tc main_arg1) = x1)
    (h2 : W (Proc.devRef .tc main_arg2) = x2)
    (hp : W (Proc.devRef .tc main_v52) = val_main_v52 (F := F) x0 x1 x2) :
    after (pre2 (F := F)) W (Proc.devRef .tc main_v76) = val_main_v76 (F := F) x0 x1 x2 := by
  after_results_simp
  simp only [h0, h1, h2, hp]
  rfl

theorem join2 (W : Valuation τ sig (Elt F)) (x0 : (⟨S131072x32, .f32⟩ : BufTy).Contents (Elt F)) (x1 : (⟨S255, .f32⟩ : BufTy).Contents (Elt F)) (x2 : (⟨S255, .i32⟩ : BufTy).Contents (Elt F))
    (hl : W (Proc.devRef .tc main_v75) = val_main_v75 (F := F) x0 x1 x2)
    (hr : W (Proc.devRef .tc main_v76) = val_main_v76 (F := F) x0 x1 x2) :
    after (tail2 (F := F)) W (Proc.devRef .tc main_v78) = val_main_v78 (F := F) x0 x1 x2 := by
  simp only [after_cons, after_nil]
  rw [reshape_result, binary_result, hl, hr]
  rfl

theorem keep_pre2 (W : Valuation τ sig (Elt F)) :
    after (pre2 (F := F)) W (Proc.devRef .tc main_arg0) = W (Proc.devRef .tc main_arg0)
      ∧ after (pre2 (F := F)) W (Proc.devRef .tc main_arg1) = W (Proc.devRef .tc main_arg1)
      ∧ after (pre2 (F := F)) W (Proc.devRef .tc main_arg2) = W (Proc.devRef .tc main_arg2)
      ∧ after (pre2 (F := F)) W (Proc.devRef .tc main_arg3) = W (Proc.devRef .tc main_arg3) := by
  refine ⟨?_, ?_, ?_, ?_⟩ <;> after_results_simp

theorem keep_tail2 (W : Valuation τ sig (Elt F)) :
    after (tail2 (F := F)) W (Proc.devRef .tc main_arg0) = W (Proc.devRef .tc main_arg0)
      ∧ after (tail2 (F := F)) W (Proc.devRef .tc main_arg1) = W (Proc.devRef .tc main_arg1)
      ∧ after (tail2 (F := F)) W (Proc.devRef .tc main_arg2) = W (Proc.devRef .tc main_arg2)
      ∧ after (tail2 (F := F)) W (Proc.devRef .tc main_arg3) = W (Proc.devRef .tc main_arg3) := by
  refine ⟨?_, ?_, ?_, ?_⟩ <;> after_results_simp

/-- Level 2: from the invariant and level 1's weights to the invariant and level 2's weights. -/
theorem step2 (W : Valuation τ sig (Elt F)) (x0 : (⟨S131072x32, .f32⟩ : BufTy).Contents (Elt F)) (x1 : (⟨S255, .f32⟩ : BufTy).Contents (Elt F)) (x2 : (⟨S255, .i32⟩ : BufTy).Contents (Elt F)) (x3 : (⟨S256, .i32⟩ : BufTy).Contents (Elt F))
    (hA : Args W x0 x1 x2 x3)
    (hp : W (Proc.devRef .tc main_v52) = val_main_v52 (F := F) x0 x1 x2) :
    Args (after (tail2 (F := F)) (after (pre2 (F := F)) W)) x0 x1 x2 x3
      ∧ after (tail2 (F := F)) (after (pre2 (F := F)) W) (Proc.devRef .tc main_v78) = val_main_v78 (F := F) x0 x1 x2 :=
  ⟨(hA.keep (keep_pre2 W)).keep (keep_tail2 _),
    join2 _ x0 x1 x2 (left2 W x0 x1 x2 hA.1 hA.2.1 hA.2.2.1 hp) (right2 W x0 x1 x2 hA.1 hA.2.1 hA.2.2.1 hp)⟩

/-! ## Level 3 -/

abbrev pre3 : List (HloOp τ sig (Elt F)) :=
  [ unary main_arg2 main_v79 ((extractStridedSlice S8 ![7] · slices_S255_S8_7) : (⟨S255, .i32⟩ : BufTy).Contents (Elt F) → (⟨S8, .i32⟩ : BufTy).Contents (Elt F)),
    unary main_arg1 main_v80 ((extractStridedSlice S8 ![7] · slices_S255_S8_7) : (⟨S255, .f32⟩ : BufTy).Contents (Elt F) → (⟨S8, .f32⟩ : BufTy).Contents (Elt F)),
    nullary main_c_14 (constantI S_ 32 0#32),
    unary main_c_14 main_v81 (broadcastInDim S8 ![] bcast_S_S8 : (⟨S_, .i32⟩ : BufTy).Contents (Elt F) → (⟨S8, .i32⟩ : BufTy).Contents (Elt F)),
    binary main_v79 main_v81 main_v82 (cmpi .slt : (⟨S8, .i32⟩ : BufTy).Contents (Elt F) → (⟨S8, .i32⟩ : BufTy).Contents (Elt F) → (⟨S8, .i1⟩ : BufTy).Contents (Elt F)),
    nullary main_c_15 (constantI S_ 32 32#32),
    unary main_c_15 main_v83 (broadcastInDim S8 ![] bcast_S_S8 : (⟨S_, .i32⟩ : BufTy).Contents (Elt F) → (⟨S8, .i32⟩ : BufTy).Contents (Elt F)),
    binary main_v79 main_v83 main_v84 (addi : (⟨S8, .i32⟩ : BufTy).Contents (Elt F) → (⟨S8, .i32⟩ : BufTy).Contents (Elt F) → (⟨S8, .i32⟩ : BufTy).Contents (Elt F)),
    ternary main_v82 main_v84 main_v79 main_v85 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    unary main_v85 main_v86 (broadcastInDim S8x1 ![0] bcast_S8_S8x1_0 : (⟨S8, .i32⟩ : BufTy).Contents (Elt F) → (⟨S8x1, .i32⟩ : BufTy).Contents (Elt F)),
    binary main_arg0 main_v86 main_v87 ((fun x i => Host.gather gather_S131072x32_S8x1_S131072x8_0_1_n_n_1_1_1310721 x i) : (⟨S131072x32, .f32⟩ : BufTy).Contents (Elt F) → (⟨S8x1, .i32⟩ : BufTy).Contents (Elt F) → (⟨S131072x8, .f32⟩ : BufTy).Contents (Elt F)),
    unary main_v80 main_v88 (broadcastInDim S1x8 ![1] bcast_S8_S1x8_1 : (⟨S8, .f32⟩ : BufTy).Contents (Elt F) → (⟨S1x8, .f32⟩ : BufTy).Contents (Elt F)),
    unary main_v88 main_v89 (broadcastInDim S131072x8 ![0, 1] bcast_S1x8_S131072x8_0_1 : (⟨S1x8, .f32⟩ : BufTy).Contents (Elt F) → (⟨S131072x8, .f32⟩ : BufTy).Contents (Elt F)),
    binary main_v87 main_v89 main_v90 (subf : (⟨S131072x8, .f32⟩ : BufTy).Contents (Elt F) → (⟨S131072x8, .f32⟩ : BufTy).Contents (Elt F) → (⟨S131072x8, .f32⟩ : BufTy).Contents (Elt F)),
    unary main_v90 main_v91 (Host.negf : (⟨S131072x8, .f32⟩ : BufTy).Contents (Elt F) → (⟨S131072x8, .f32⟩ : BufTy).Contents (Elt F)),
    unary main_v91 main_v92 (Host.exp : (⟨S131072x8, .f32⟩ : BufTy).Contents (Elt F) → (⟨S131072x8, .f32⟩ : BufTy).Contents (Elt F)),
    nullary main_cst_16 (constant S_ .f32 0x3F800000#32),
    unary main_cst_16 main_v93 (broadcastInDim S131072x8 ![] bcast_S_S131072x8 : (⟨S_, .f32⟩ : BufTy).Contents (Elt F) → (⟨S131072x8, .f32⟩ : BufTy).Contents (Elt F)),
    binary main_v93 main_v92 main_v94 (addf : (⟨S131072x8, .f32⟩ : BufTy).Contents (Elt F) → (⟨S131072x8, .f32⟩ : BufTy).Contents (Elt F) → (⟨S131072x8, .f32⟩ : BufTy).Contents (Elt F)),
    nullary main_cst_17 (constant S_ .f32 0x3F800000#32),
    unary main_cst_17 main_v95 (broadcastInDim S131072x8 ![] bcast_S_S131072x8 : (⟨S_, .f32⟩ : BufTy).Contents (Elt F) → (⟨S131072x8, .f32⟩ : BufTy).Contents (Elt F)),
    binary main_v95 main_v94 main_v96 (Host.divf : (⟨S131072x8, .f32⟩ : BufTy).Contents (Elt F) → (⟨S131072x8, .f32⟩ : BufTy).Contents (Elt F) → (⟨S131072x8, .f32⟩ : BufTy).Contents (Elt F)),
    nullary main_cst_18 (constant S_ .f32 0x3F800000#32),
    unary main_cst_18 main_v97 (broadcastInDim S131072x8 ![] bcast_S_S131072x8 : (⟨S_, .f32⟩ : BufTy).Contents (Elt F) → (⟨S131072x8, .f32⟩ : BufTy).Contents (Elt F)),
    binary main_v97 main_v96 main_v98 (subf : (⟨S131072x8, .f32⟩ : BufTy).Contents (Elt F) → (⟨S131072x8, .f32⟩ : BufTy).Contents (Elt F) → (⟨S131072x8, .f32⟩ : BufTy).Contents (Elt F)),
    binary main_v78 main_v98 main_v99 (mulf : (⟨S131072x8, .f32⟩ : BufTy).Contents (Elt F) → (⟨S131072x8, .f32⟩ : BufTy).Contents (Elt F) → (⟨S131072x8, .f32⟩ : BufTy).Contents (Elt F)),
    binary main_v78 main_v96 main_v100 (mulf : (⟨S131072x8, .f32⟩ : BufTy).Contents (Elt F) → (⟨S131072x8, .f32⟩ : BufTy).Contents (Elt F) → (⟨S131072x8, .f32⟩ : BufTy).Contents (Elt F)),
    unary main_v99 main_v101 (broadcastInDim S131072x8x1 ![0, 1] bcast_S131072x8_S131072x8x1_0_1 : (⟨S131072x8, .f32⟩ : BufTy).Contents (Elt F) → (⟨S131072x8x1, .f32⟩ : BufTy).Contents (Elt F)),
    unary main_v100 main_v102 (broadcastInDim S131072x8x1 ![0, 1] bcast_S131072x8_S131072x8x1_0_1 : (⟨S131072x8, .f32⟩ : BufTy).Contents (Elt F) → (⟨S131072x8x1, .f32⟩ : BufTy).Contents (Elt F)) ]

abbrev tail3 : List (HloOp τ sig (Elt F)) :=
  [ binary main_v101 main_v102 main_v103 ((fun a b => concatenate S131072x8x2 2 [⟨S131072x8x1, a⟩, ⟨S131072x8x1, b⟩] concatenates_S131072x8x1_S131072x8x1_S131072x8x2_d2) : (⟨S131072x8x1, .f32⟩ : BufTy).Contents (Elt F) → (⟨S131072x8x1, .f32⟩ : BufTy).Contents (Elt F) → (⟨S131072x8x2, .f32⟩ : BufTy).Contents (Elt F)),
    reshape main_v103 main_v104 rfl shapeCasts_S131072x8x2_S131072x16 ]

set_option maxRecDepth 8192 in
theorem left3 (W : Valuation τ sig (Elt F)) (x0 : (⟨S131072x32, .f32⟩ : BufTy).Contents (Elt F)) (x1 : (⟨S255, .f32⟩ : BufTy).Contents (Elt F)) (x2 : (⟨S255, .i32⟩ : BufTy).Contents (Elt F))
    (h0 : W (Proc.devRef .tc main_arg0) = x0) (h1 : W (Proc.devRef .tc main_arg1) = x1)
    (h2 : W (Proc.devRef .tc main_arg2) = x2)
    (hp : W (Proc.devRef .tc main_v78) = val_main_v78 (F := F) x0 x1 x2) :
    after (pre3 (F := F)) W (Proc.devRef .tc main_v101) = val_main_v101 (F := F) x0 x1 x2 := by
  after_results_simp
  simp only [h0, h1, h2, hp]
  rfl

set_option maxRecDepth 8192 in
theorem right3 (W : Valuation τ sig (Elt F)) (x0 : (⟨S131072x32, .f32⟩ : BufTy).Contents (Elt F)) (x1 : (⟨S255, .f32⟩ : BufTy).Contents (Elt F)) (x2 : (⟨S255, .i32⟩ : BufTy).Contents (Elt F))
    (h0 : W (Proc.devRef .tc main_arg0) = x0) (h1 : W (Proc.devRef .tc main_arg1) = x1)
    (h2 : W (Proc.devRef .tc main_arg2) = x2)
    (hp : W (Proc.devRef .tc main_v78) = val_main_v78 (F := F) x0 x1 x2) :
    after (pre3 (F := F)) W (Proc.devRef .tc main_v102) = val_main_v102 (F := F) x0 x1 x2 := by
  after_results_simp
  simp only [h0, h1, h2, hp]
  rfl

theorem join3 (W : Valuation τ sig (Elt F)) (x0 : (⟨S131072x32, .f32⟩ : BufTy).Contents (Elt F)) (x1 : (⟨S255, .f32⟩ : BufTy).Contents (Elt F)) (x2 : (⟨S255, .i32⟩ : BufTy).Contents (Elt F))
    (hl : W (Proc.devRef .tc main_v101) = val_main_v101 (F := F) x0 x1 x2)
    (hr : W (Proc.devRef .tc main_v102) = val_main_v102 (F := F) x0 x1 x2) :
    after (tail3 (F := F)) W (Proc.devRef .tc main_v104) = val_main_v104 (F := F) x0 x1 x2 := by
  simp only [after_cons, after_nil]
  rw [reshape_result, binary_result, hl, hr]
  rfl

theorem keep_pre3 (W : Valuation τ sig (Elt F)) :
    after (pre3 (F := F)) W (Proc.devRef .tc main_arg0) = W (Proc.devRef .tc main_arg0)
      ∧ after (pre3 (F := F)) W (Proc.devRef .tc main_arg1) = W (Proc.devRef .tc main_arg1)
      ∧ after (pre3 (F := F)) W (Proc.devRef .tc main_arg2) = W (Proc.devRef .tc main_arg2)
      ∧ after (pre3 (F := F)) W (Proc.devRef .tc main_arg3) = W (Proc.devRef .tc main_arg3) := by
  refine ⟨?_, ?_, ?_, ?_⟩ <;> after_results_simp

theorem keep_tail3 (W : Valuation τ sig (Elt F)) :
    after (tail3 (F := F)) W (Proc.devRef .tc main_arg0) = W (Proc.devRef .tc main_arg0)
      ∧ after (tail3 (F := F)) W (Proc.devRef .tc main_arg1) = W (Proc.devRef .tc main_arg1)
      ∧ after (tail3 (F := F)) W (Proc.devRef .tc main_arg2) = W (Proc.devRef .tc main_arg2)
      ∧ after (tail3 (F := F)) W (Proc.devRef .tc main_arg3) = W (Proc.devRef .tc main_arg3) := by
  refine ⟨?_, ?_, ?_, ?_⟩ <;> after_results_simp

/-- Level 3: from the invariant and level 2's weights to the invariant and level 3's weights. -/
theorem step3 (W : Valuation τ sig (Elt F)) (x0 : (⟨S131072x32, .f32⟩ : BufTy).Contents (Elt F)) (x1 : (⟨S255, .f32⟩ : BufTy).Contents (Elt F)) (x2 : (⟨S255, .i32⟩ : BufTy).Contents (Elt F)) (x3 : (⟨S256, .i32⟩ : BufTy).Contents (Elt F))
    (hA : Args W x0 x1 x2 x3)
    (hp : W (Proc.devRef .tc main_v78) = val_main_v78 (F := F) x0 x1 x2) :
    Args (after (tail3 (F := F)) (after (pre3 (F := F)) W)) x0 x1 x2 x3
      ∧ after (tail3 (F := F)) (after (pre3 (F := F)) W) (Proc.devRef .tc main_v104) = val_main_v104 (F := F) x0 x1 x2 :=
  ⟨(hA.keep (keep_pre3 W)).keep (keep_tail3 _),
    join3 _ x0 x1 x2 (left3 W x0 x1 x2 hA.1 hA.2.1 hA.2.2.1 hp) (right3 W x0 x1 x2 hA.1 hA.2.1 hA.2.2.1 hp)⟩

/-! ## Level 4 -/

abbrev pre4 : List (HloOp τ sig (Elt F)) :=
  [ unary main_arg2 main_v105 ((extractStridedSlice S16 ![15] · slices_S255_S16_15) : (⟨S255, .i32⟩ : BufTy).Contents (Elt F) → (⟨S16, .i32⟩ : BufTy).Contents (Elt F)),
    unary main_arg1 main_v106 ((extractStridedSlice S16 ![15] · slices_S255_S16_15) : (⟨S255, .f32⟩ : BufTy).Contents (Elt F) → (⟨S16, .f32⟩ : BufTy).Contents (Elt F)),
    nullary main_c_19 (constantI S_ 32 0#32),
    unary main_c_19 main_v107 (broadcastInDim S16 ![] bcast_S_S16 : (⟨S_, .i32⟩ : BufTy).Contents (Elt F) → (⟨S16, .i32⟩ : BufTy).Contents (Elt F)),
    binary main_v105 main_v107 main_v108 (cmpi .slt : (⟨S16, .i32⟩ : BufTy).Contents (Elt F) → (⟨S16, .i32⟩ : BufTy).Contents (Elt F) → (⟨S16, .i1⟩ : BufTy).Contents (Elt F)),
    nullary main_c_20 (constantI S_ 32 32#32),
    unary main_c_20 main_v109 (broadcastInDim S16 ![] bcast_S_S16 : (⟨S_, .i32⟩ : BufTy).Contents (Elt F) → (⟨S16, .i32⟩ : BufTy).Contents (Elt F)),
    binary main_v105 main_v109 main_v110 (addi : (⟨S16, .i32⟩ : BufTy).Contents (Elt F) → (⟨S16, .i32⟩ : BufTy).Contents (Elt F) → (⟨S16, .i32⟩ : BufTy).Contents (Elt F)),
    ternary main_v108 main_v110 main_v105 main_v111 (select : (⟨S16, .i1⟩ : BufTy).Contents (Elt F) → (⟨S16, .i32⟩ : BufTy).Contents (Elt F) → (⟨S16, .i32⟩ : BufTy).Contents (Elt F) → (⟨S16, .i32⟩ : BufTy).Contents (Elt F)),
    unary main_v111 main_v112 (broadcastInDim S16x1 ![0] bcast_S16_S16x1_0 : (⟨S16, .i32⟩ : BufTy).Contents (Elt F) → (⟨S16x1, .i32⟩ : BufTy).Contents (Elt F)),
    binary main_arg0 main_v112 main_v113 ((fun x i => Host.gather gather_S131072x32_S16x1_S131072x16_0_1_n_n_1_1_1310721 x i) : (⟨S131072x32, .f32⟩ : BufTy).Contents (Elt F) → (⟨S16x1, .i32⟩ : BufTy).Contents (Elt F) → (⟨S131072x16, .f32⟩ : BufTy).Contents (Elt F)),
    unary main_v106 main_v114 (broadcastInDim S1x16 ![1] bcast_S16_S1x16_1 : (⟨S16, .f32⟩ : BufTy).Contents (Elt F) → (⟨S1x16, .f32⟩ : BufTy).Contents (Elt F)),
    unary main_v114 main_v115 (broadcastInDim S131072x16 ![0, 1] bcast_S1x16_S131072x16_0_1 : (⟨S1x16, .f32⟩ : BufTy).Contents (Elt F) → (⟨S131072x16, .f32⟩ : BufTy).Contents (Elt F)),
    binary main_v113 main_v115 main_v116 (subf : (⟨S131072x16, .f32⟩ : BufTy).Contents (Elt F) → (⟨S131072x16, .f32⟩ : BufTy).Contents (Elt F) → (⟨S131072x16, .f32⟩ : BufTy).Contents (Elt F)),
    unary main_v116 main_v117 (Host.negf : (⟨S131072x16, .f32⟩ : BufTy).Contents (Elt F) → (⟨S131072x16, .f32⟩ : BufTy).Contents (Elt F)),
    unary main_v117 main_v118 (Host.exp : (⟨S131072x16, .f32⟩ : BufTy).Contents (Elt F) → (⟨S131072x16, .f32⟩ : BufTy).Contents (Elt F)),
    nullary main_cst_21 (constant S_ .f32 0x3F800000#32),
    unary main_cst_21 main_v119 (broadcastInDim S131072x16 ![] bcast_S_S131072x16 : (⟨S_, .f32⟩ : BufTy).Contents (Elt F) → (⟨S131072x16, .f32⟩ : BufTy).Contents (Elt F)),
    binary main_v119 main_v118 main_v120 (addf : (⟨S131072x16, .f32⟩ : BufTy).Contents (Elt F) → (⟨S131072x16, .f32⟩ : BufTy).Contents (Elt F) → (⟨S131072x16, .f32⟩ : BufTy).Contents (Elt F)),
    nullary main_cst_22 (constant S_ .f32 0x3F800000#32),
    unary main_cst_22 main_v121 (broadcastInDim S131072x16 ![] bcast_S_S131072x16 : (⟨S_, .f32⟩ : BufTy).Contents (Elt F) → (⟨S131072x16, .f32⟩ : BufTy).Contents (Elt F)),
    binary main_v121 main_v120 main_v122 (Host.divf : (⟨S131072x16, .f32⟩ : BufTy).Contents (Elt F) → (⟨S131072x16, .f32⟩ : BufTy).Contents (Elt F) → (⟨S131072x16, .f32⟩ : BufTy).Contents (Elt F)),
    nullary main_cst_23 (constant S_ .f32 0x3F800000#32),
    unary main_cst_23 main_v123 (broadcastInDim S131072x16 ![] bcast_S_S131072x16 : (⟨S_, .f32⟩ : BufTy).Contents (Elt F) → (⟨S131072x16, .f32⟩ : BufTy).Contents (Elt F)),
    binary main_v123 main_v122 main_v124 (subf : (⟨S131072x16, .f32⟩ : BufTy).Contents (Elt F) → (⟨S131072x16, .f32⟩ : BufTy).Contents (Elt F) → (⟨S131072x16, .f32⟩ : BufTy).Contents (Elt F)),
    binary main_v104 main_v124 main_v125 (mulf : (⟨S131072x16, .f32⟩ : BufTy).Contents (Elt F) → (⟨S131072x16, .f32⟩ : BufTy).Contents (Elt F) → (⟨S131072x16, .f32⟩ : BufTy).Contents (Elt F)),
    binary main_v104 main_v122 main_v126 (mulf : (⟨S131072x16, .f32⟩ : BufTy).Contents (Elt F) → (⟨S131072x16, .f32⟩ : BufTy).Contents (Elt F) → (⟨S131072x16, .f32⟩ : BufTy).Contents (Elt F)),
    unary main_v125 main_v127 (broadcastInDim S131072x16x1 ![0, 1] bcast_S131072x16_S131072x16x1_0_1 : (⟨S131072x16, .f32⟩ : BufTy).Contents (Elt F) → (⟨S131072x16x1, .f32⟩ : BufTy).Contents (Elt F)),
    unary main_v126 main_v128 (broadcastInDim S131072x16x1 ![0, 1] bcast_S131072x16_S131072x16x1_0_1 : (⟨S131072x16, .f32⟩ : BufTy).Contents (Elt F) → (⟨S131072x16x1, .f32⟩ : BufTy).Contents (Elt F)) ]

abbrev tail4 : List (HloOp τ sig (Elt F)) :=
  [ binary main_v127 main_v128 main_v129 ((fun a b => concatenate S131072x16x2 2 [⟨S131072x16x1, a⟩, ⟨S131072x16x1, b⟩] concatenates_S131072x16x1_S131072x16x1_S131072x16x2_d2) : (⟨S131072x16x1, .f32⟩ : BufTy).Contents (Elt F) → (⟨S131072x16x1, .f32⟩ : BufTy).Contents (Elt F) → (⟨S131072x16x2, .f32⟩ : BufTy).Contents (Elt F)),
    reshape main_v129 main_v130 rfl shapeCasts_S131072x16x2_S131072x32 ]

set_option maxRecDepth 8192 in
theorem left4 (W : Valuation τ sig (Elt F)) (x0 : (⟨S131072x32, .f32⟩ : BufTy).Contents (Elt F)) (x1 : (⟨S255, .f32⟩ : BufTy).Contents (Elt F)) (x2 : (⟨S255, .i32⟩ : BufTy).Contents (Elt F))
    (h0 : W (Proc.devRef .tc main_arg0) = x0) (h1 : W (Proc.devRef .tc main_arg1) = x1)
    (h2 : W (Proc.devRef .tc main_arg2) = x2)
    (hp : W (Proc.devRef .tc main_v104) = val_main_v104 (F := F) x0 x1 x2) :
    after (pre4 (F := F)) W (Proc.devRef .tc main_v127) = val_main_v127 (F := F) x0 x1 x2 := by
  after_results_simp
  simp only [h0, h1, h2, hp]
  rfl

set_option maxRecDepth 8192 in
theorem right4 (W : Valuation τ sig (Elt F)) (x0 : (⟨S131072x32, .f32⟩ : BufTy).Contents (Elt F)) (x1 : (⟨S255, .f32⟩ : BufTy).Contents (Elt F)) (x2 : (⟨S255, .i32⟩ : BufTy).Contents (Elt F))
    (h0 : W (Proc.devRef .tc main_arg0) = x0) (h1 : W (Proc.devRef .tc main_arg1) = x1)
    (h2 : W (Proc.devRef .tc main_arg2) = x2)
    (hp : W (Proc.devRef .tc main_v104) = val_main_v104 (F := F) x0 x1 x2) :
    after (pre4 (F := F)) W (Proc.devRef .tc main_v128) = val_main_v128 (F := F) x0 x1 x2 := by
  after_results_simp
  simp only [h0, h1, h2, hp]
  rfl

theorem join4 (W : Valuation τ sig (Elt F)) (x0 : (⟨S131072x32, .f32⟩ : BufTy).Contents (Elt F)) (x1 : (⟨S255, .f32⟩ : BufTy).Contents (Elt F)) (x2 : (⟨S255, .i32⟩ : BufTy).Contents (Elt F))
    (hl : W (Proc.devRef .tc main_v127) = val_main_v127 (F := F) x0 x1 x2)
    (hr : W (Proc.devRef .tc main_v128) = val_main_v128 (F := F) x0 x1 x2) :
    after (tail4 (F := F)) W (Proc.devRef .tc main_v130) = val_main_v130 (F := F) x0 x1 x2 := by
  simp only [after_cons, after_nil]
  rw [reshape_result, binary_result, hl, hr]
  rfl

theorem keep_pre4 (W : Valuation τ sig (Elt F)) :
    after (pre4 (F := F)) W (Proc.devRef .tc main_arg0) = W (Proc.devRef .tc main_arg0)
      ∧ after (pre4 (F := F)) W (Proc.devRef .tc main_arg1) = W (Proc.devRef .tc main_arg1)
      ∧ after (pre4 (F := F)) W (Proc.devRef .tc main_arg2) = W (Proc.devRef .tc main_arg2)
      ∧ after (pre4 (F := F)) W (Proc.devRef .tc main_arg3) = W (Proc.devRef .tc main_arg3) := by
  refine ⟨?_, ?_, ?_, ?_⟩ <;> after_results_simp

theorem keep_tail4 (W : Valuation τ sig (Elt F)) :
    after (tail4 (F := F)) W (Proc.devRef .tc main_arg0) = W (Proc.devRef .tc main_arg0)
      ∧ after (tail4 (F := F)) W (Proc.devRef .tc main_arg1) = W (Proc.devRef .tc main_arg1)
      ∧ after (tail4 (F := F)) W (Proc.devRef .tc main_arg2) = W (Proc.devRef .tc main_arg2)
      ∧ after (tail4 (F := F)) W (Proc.devRef .tc main_arg3) = W (Proc.devRef .tc main_arg3) := by
  refine ⟨?_, ?_, ?_, ?_⟩ <;> after_results_simp

/-- Level 4: from the invariant and level 3's weights to the invariant and level 4's weights. -/
theorem step4 (W : Valuation τ sig (Elt F)) (x0 : (⟨S131072x32, .f32⟩ : BufTy).Contents (Elt F)) (x1 : (⟨S255, .f32⟩ : BufTy).Contents (Elt F)) (x2 : (⟨S255, .i32⟩ : BufTy).Contents (Elt F)) (x3 : (⟨S256, .i32⟩ : BufTy).Contents (Elt F))
    (hA : Args W x0 x1 x2 x3)
    (hp : W (Proc.devRef .tc main_v104) = val_main_v104 (F := F) x0 x1 x2) :
    Args (after (tail4 (F := F)) (after (pre4 (F := F)) W)) x0 x1 x2 x3
      ∧ after (tail4 (F := F)) (after (pre4 (F := F)) W) (Proc.devRef .tc main_v130) = val_main_v130 (F := F) x0 x1 x2 :=
  ⟨(hA.keep (keep_pre4 W)).keep (keep_tail4 _),
    join4 _ x0 x1 x2 (left4 W x0 x1 x2 hA.1 hA.2.1 hA.2.2.1 hp) (right4 W x0 x1 x2 hA.1 hA.2.1 hA.2.2.1 hp)⟩

/-! ## Level 5 -/

abbrev pre5 : List (HloOp τ sig (Elt F)) :=
  [ unary main_arg2 main_v131 ((extractStridedSlice S32 ![31] · slices_S255_S32_31) : (⟨S255, .i32⟩ : BufTy).Contents (Elt F) → (⟨S32, .i32⟩ : BufTy).Contents (Elt F)),
    unary main_arg1 main_v132 ((extractStridedSlice S32 ![31] · slices_S255_S32_31) : (⟨S255, .f32⟩ : BufTy).Contents (Elt F) → (⟨S32, .f32⟩ : BufTy).Contents (Elt F)),
    nullary main_c_24 (constantI S_ 32 0#32),
    unary main_c_24 main_v133 (broadcastInDim S32 ![] bcast_S_S32 : (⟨S_, .i32⟩ : BufTy).Contents (Elt F) → (⟨S32, .i32⟩ : BufTy).Contents (Elt F)),
    binary main_v131 main_v133 main_v134 (cmpi .slt : (⟨S32, .i32⟩ : BufTy).Contents (Elt F) → (⟨S32, .i32⟩ : BufTy).Contents (Elt F) → (⟨S32, .i1⟩ : BufTy).Contents (Elt F)),
    nullary main_c_25 (constantI S_ 32 32#32),
    unary main_c_25 main_v135 (broadcastInDim S32 ![] bcast_S_S32 : (⟨S_, .i32⟩ : BufTy).Contents (Elt F) → (⟨S32, .i32⟩ : BufTy).Contents (Elt F)),
    binary main_v131 main_v135 main_v136 (addi : (⟨S32, .i32⟩ : BufTy).Contents (Elt F) → (⟨S32, .i32⟩ : BufTy).Contents (Elt F) → (⟨S32, .i32⟩ : BufTy).Contents (Elt F)),
    ternary main_v134 main_v136 main_v131 main_v137 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    unary main_v137 main_v138 (broadcastInDim S32x1 ![0] bcast_S32_S32x1_0 : (⟨S32, .i32⟩ : BufTy).Contents (Elt F) → (⟨S32x1, .i32⟩ : BufTy).Contents (Elt F)),
    binary main_arg0 main_v138 main_v139 ((fun x i => Host.gather gather_S131072x32_S32x1_S131072x32_0_1_n_n_1_1_1310721 x i) : (⟨S131072x32, .f32⟩ : BufTy).Contents (Elt F) → (⟨S32x1, .i32⟩ : BufTy).Contents (Elt F) → (⟨S131072x32, .f32⟩ : BufTy).Contents (Elt F)),
    unary main_v132 main_v140 (broadcastInDim S1x32 ![1] bcast_S32_S1x32_1 : (⟨S32, .f32⟩ : BufTy).Contents (Elt F) → (⟨S1x32, .f32⟩ : BufTy).Contents (Elt F)),
    unary main_v140 main_v141 (broadcastInDim S131072x32 ![0, 1] bcast_S1x32_S131072x32_0_1 : (⟨S1x32, .f32⟩ : BufTy).Contents (Elt F) → (⟨S131072x32, .f32⟩ : BufTy).Contents (Elt F)),
    binary main_v139 main_v141 main_v142 (subf : (⟨S131072x32, .f32⟩ : BufTy).Contents (Elt F) → (⟨S131072x32, .f32⟩ : BufTy).Contents (Elt F) → (⟨S131072x32, .f32⟩ : BufTy).Contents (Elt F)),
    unary main_v142 main_v143 (Host.negf : (⟨S131072x32, .f32⟩ : BufTy).Contents (Elt F) → (⟨S131072x32, .f32⟩ : BufTy).Contents (Elt F)),
    unary main_v143 main_v144 (Host.exp : (⟨S131072x32, .f32⟩ : BufTy).Contents (Elt F) → (⟨S131072x32, .f32⟩ : BufTy).Contents (Elt F)),
    nullary main_cst_26 (constant S_ .f32 0x3F800000#32),
    unary main_cst_26 main_v145 (broadcastInDim S131072x32 ![] bcast_S_S131072x32 : (⟨S_, .f32⟩ : BufTy).Contents (Elt F) → (⟨S131072x32, .f32⟩ : BufTy).Contents (Elt F)),
    binary main_v145 main_v144 main_v146 (addf : (⟨S131072x32, .f32⟩ : BufTy).Contents (Elt F) → (⟨S131072x32, .f32⟩ : BufTy).Contents (Elt F) → (⟨S131072x32, .f32⟩ : BufTy).Contents (Elt F)),
    nullary main_cst_27 (constant S_ .f32 0x3F800000#32),
    unary main_cst_27 main_v147 (broadcastInDim S131072x32 ![] bcast_S_S131072x32 : (⟨S_, .f32⟩ : BufTy).Contents (Elt F) → (⟨S131072x32, .f32⟩ : BufTy).Contents (Elt F)),
    binary main_v147 main_v146 main_v148 (Host.divf : (⟨S131072x32, .f32⟩ : BufTy).Contents (Elt F) → (⟨S131072x32, .f32⟩ : BufTy).Contents (Elt F) → (⟨S131072x32, .f32⟩ : BufTy).Contents (Elt F)),
    nullary main_cst_28 (constant S_ .f32 0x3F800000#32),
    unary main_cst_28 main_v149 (broadcastInDim S131072x32 ![] bcast_S_S131072x32 : (⟨S_, .f32⟩ : BufTy).Contents (Elt F) → (⟨S131072x32, .f32⟩ : BufTy).Contents (Elt F)),
    binary main_v149 main_v148 main_v150 (subf : (⟨S131072x32, .f32⟩ : BufTy).Contents (Elt F) → (⟨S131072x32, .f32⟩ : BufTy).Contents (Elt F) → (⟨S131072x32, .f32⟩ : BufTy).Contents (Elt F)),
    binary main_v130 main_v150 main_v151 (mulf : (⟨S131072x32, .f32⟩ : BufTy).Contents (Elt F) → (⟨S131072x32, .f32⟩ : BufTy).Contents (Elt F) → (⟨S131072x32, .f32⟩ : BufTy).Contents (Elt F)),
    binary main_v130 main_v148 main_v152 (mulf : (⟨S131072x32, .f32⟩ : BufTy).Contents (Elt F) → (⟨S131072x32, .f32⟩ : BufTy).Contents (Elt F) → (⟨S131072x32, .f32⟩ : BufTy).Contents (Elt F)),
    unary main_v151 main_v153 (broadcastInDim S131072x32x1 ![0, 1] bcast_S131072x32_S131072x32x1_0_1 : (⟨S131072x32, .f32⟩ : BufTy).Contents (Elt F) → (⟨S131072x32x1, .f32⟩ : BufTy).Contents (Elt F)),
    unary main_v152 main_v154 (broadcastInDim S131072x32x1 ![0, 1] bcast_S131072x32_S131072x32x1_0_1 : (⟨S131072x32, .f32⟩ : BufTy).Contents (Elt F) → (⟨S131072x32x1, .f32⟩ : BufTy).Contents (Elt F)) ]

abbrev tail5 : List (HloOp τ sig (Elt F)) :=
  [ binary main_v153 main_v154 main_v155 ((fun a b => concatenate S131072x32x2 2 [⟨S131072x32x1, a⟩, ⟨S131072x32x1, b⟩] concatenates_S131072x32x1_S131072x32x1_S131072x32x2_d2) : (⟨S131072x32x1, .f32⟩ : BufTy).Contents (Elt F) → (⟨S131072x32x1, .f32⟩ : BufTy).Contents (Elt F) → (⟨S131072x32x2, .f32⟩ : BufTy).Contents (Elt F)),
    reshape main_v155 main_v156 rfl shapeCasts_S131072x32x2_S131072x64 ]

set_option maxRecDepth 8192 in
theorem left5 (W : Valuation τ sig (Elt F)) (x0 : (⟨S131072x32, .f32⟩ : BufTy).Contents (Elt F)) (x1 : (⟨S255, .f32⟩ : BufTy).Contents (Elt F)) (x2 : (⟨S255, .i32⟩ : BufTy).Contents (Elt F))
    (h0 : W (Proc.devRef .tc main_arg0) = x0) (h1 : W (Proc.devRef .tc main_arg1) = x1)
    (h2 : W (Proc.devRef .tc main_arg2) = x2)
    (hp : W (Proc.devRef .tc main_v130) = val_main_v130 (F := F) x0 x1 x2) :
    after (pre5 (F := F)) W (Proc.devRef .tc main_v153) = val_main_v153 (F := F) x0 x1 x2 := by
  after_results_simp
  simp only [h0, h1, h2, hp]
  rfl

set_option maxRecDepth 8192 in
theorem right5 (W : Valuation τ sig (Elt F)) (x0 : (⟨S131072x32, .f32⟩ : BufTy).Contents (Elt F)) (x1 : (⟨S255, .f32⟩ : BufTy).Contents (Elt F)) (x2 : (⟨S255, .i32⟩ : BufTy).Contents (Elt F))
    (h0 : W (Proc.devRef .tc main_arg0) = x0) (h1 : W (Proc.devRef .tc main_arg1) = x1)
    (h2 : W (Proc.devRef .tc main_arg2) = x2)
    (hp : W (Proc.devRef .tc main_v130) = val_main_v130 (F := F) x0 x1 x2) :
    after (pre5 (F := F)) W (Proc.devRef .tc main_v154) = val_main_v154 (F := F) x0 x1 x2 := by
  after_results_simp
  simp only [h0, h1, h2, hp]
  rfl

theorem join5 (W : Valuation τ sig (Elt F)) (x0 : (⟨S131072x32, .f32⟩ : BufTy).Contents (Elt F)) (x1 : (⟨S255, .f32⟩ : BufTy).Contents (Elt F)) (x2 : (⟨S255, .i32⟩ : BufTy).Contents (Elt F))
    (hl : W (Proc.devRef .tc main_v153) = val_main_v153 (F := F) x0 x1 x2)
    (hr : W (Proc.devRef .tc main_v154) = val_main_v154 (F := F) x0 x1 x2) :
    after (tail5 (F := F)) W (Proc.devRef .tc main_v156) = val_main_v156 (F := F) x0 x1 x2 := by
  simp only [after_cons, after_nil]
  rw [reshape_result, binary_result, hl, hr]
  rfl

theorem keep_pre5 (W : Valuation τ sig (Elt F)) :
    after (pre5 (F := F)) W (Proc.devRef .tc main_arg0) = W (Proc.devRef .tc main_arg0)
      ∧ after (pre5 (F := F)) W (Proc.devRef .tc main_arg1) = W (Proc.devRef .tc main_arg1)
      ∧ after (pre5 (F := F)) W (Proc.devRef .tc main_arg2) = W (Proc.devRef .tc main_arg2)
      ∧ after (pre5 (F := F)) W (Proc.devRef .tc main_arg3) = W (Proc.devRef .tc main_arg3) := by
  refine ⟨?_, ?_, ?_, ?_⟩ <;> after_results_simp

theorem keep_tail5 (W : Valuation τ sig (Elt F)) :
    after (tail5 (F := F)) W (Proc.devRef .tc main_arg0) = W (Proc.devRef .tc main_arg0)
      ∧ after (tail5 (F := F)) W (Proc.devRef .tc main_arg1) = W (Proc.devRef .tc main_arg1)
      ∧ after (tail5 (F := F)) W (Proc.devRef .tc main_arg2) = W (Proc.devRef .tc main_arg2)
      ∧ after (tail5 (F := F)) W (Proc.devRef .tc main_arg3) = W (Proc.devRef .tc main_arg3) := by
  refine ⟨?_, ?_, ?_, ?_⟩ <;> after_results_simp

/-- Level 5: from the invariant and level 4's weights to the invariant and level 5's weights. -/
theorem step5 (W : Valuation τ sig (Elt F)) (x0 : (⟨S131072x32, .f32⟩ : BufTy).Contents (Elt F)) (x1 : (⟨S255, .f32⟩ : BufTy).Contents (Elt F)) (x2 : (⟨S255, .i32⟩ : BufTy).Contents (Elt F)) (x3 : (⟨S256, .i32⟩ : BufTy).Contents (Elt F))
    (hA : Args W x0 x1 x2 x3)
    (hp : W (Proc.devRef .tc main_v130) = val_main_v130 (F := F) x0 x1 x2) :
    Args (after (tail5 (F := F)) (after (pre5 (F := F)) W)) x0 x1 x2 x3
      ∧ after (tail5 (F := F)) (after (pre5 (F := F)) W) (Proc.devRef .tc main_v156) = val_main_v156 (F := F) x0 x1 x2 :=
  ⟨(hA.keep (keep_pre5 W)).keep (keep_tail5 _),
    join5 _ x0 x1 x2 (left5 W x0 x1 x2 hA.1 hA.2.1 hA.2.2.1 hp) (right5 W x0 x1 x2 hA.1 hA.2.1 hA.2.2.1 hp)⟩

/-! ## Level 6 -/

abbrev pre6 : List (HloOp τ sig (Elt F)) :=
  [ unary main_arg2 main_v157 ((extractStridedSlice S64 ![63] · slices_S255_S64_63) : (⟨S255, .i32⟩ : BufTy).Contents (Elt F) → (⟨S64, .i32⟩ : BufTy).Contents (Elt F)),
    unary main_arg1 main_v158 ((extractStridedSlice S64 ![63] · slices_S255_S64_63) : (⟨S255, .f32⟩ : BufTy).Contents (Elt F) → (⟨S64, .f32⟩ : BufTy).Contents (Elt F)),
    nullary main_c_29 (constantI S_ 32 0#32),
    unary main_c_29 main_v159 (broadcastInDim S64 ![] bcast_S_S64 : (⟨S_, .i32⟩ : BufTy).Contents (Elt F) → (⟨S64, .i32⟩ : BufTy).Contents (Elt F)),
    binary main_v157 main_v159 main_v160 (cmpi .slt : (⟨S64, .i32⟩ : BufTy).Contents (Elt F) → (⟨S64, .i32⟩ : BufTy).Contents (Elt F) → (⟨S64, .i1⟩ : BufTy).Contents (Elt F)),
    nullary main_c_30 (constantI S_ 32 32#32),
    unary main_c_30 main_v161 (broadcastInDim S64 ![] bcast_S_S64 : (⟨S_, .i32⟩ : BufTy).Contents (Elt F) → (⟨S64, .i32⟩ : BufTy).Contents (Elt F)),
    binary main_v157 main_v161 main_v162 (addi : (⟨S64, .i32⟩ : BufTy).Contents (Elt F) → (⟨S64, .i32⟩ : BufTy).Contents (Elt F) → (⟨S64, .i32⟩ : BufTy).Contents (Elt F)),
    ternary main_v160 main_v162 main_v157 main_v163 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    unary main_v163 main_v164 (broadcastInDim S64x1 ![0] bcast_S64_S64x1_0 : (⟨S64, .i32⟩ : BufTy).Contents (Elt F) → (⟨S64x1, .i32⟩ : BufTy).Contents (Elt F)),
    binary main_arg0 main_v164 main_v165 ((fun x i => Host.gather gather_S131072x32_S64x1_S131072x64_0_1_n_n_1_1_1310721 x i) : (⟨S131072x32, .f32⟩ : BufTy).Contents (Elt F) → (⟨S64x1, .i32⟩ : BufTy).Contents (Elt F) → (⟨S131072x64, .f32⟩ : BufTy).Contents (Elt F)),
    unary main_v158 main_v166 (broadcastInDim S1x64 ![1] bcast_S64_S1x64_1 : (⟨S64, .f32⟩ : BufTy).Contents (Elt F) → (⟨S1x64, .f32⟩ : BufTy).Contents (Elt F)),
    unary main_v166 main_v167 (broadcastInDim S131072x64 ![0, 1] bcast_S1x64_S131072x64_0_1 : (⟨S1x64, .f32⟩ : BufTy).Contents (Elt F) → (⟨S131072x64, .f32⟩ : BufTy).Contents (Elt F)),
    binary main_v165 main_v167 main_v168 (subf : (⟨S131072x64, .f32⟩ : BufTy).Contents (Elt F) → (⟨S131072x64, .f32⟩ : BufTy).Contents (Elt F) → (⟨S131072x64, .f32⟩ : BufTy).Contents (Elt F)),
    unary main_v168 main_v169 (Host.negf : (⟨S131072x64, .f32⟩ : BufTy).Contents (Elt F) → (⟨S131072x64, .f32⟩ : BufTy).Contents (Elt F)),
    unary main_v169 main_v170 (Host.exp : (⟨S131072x64, .f32⟩ : BufTy).Contents (Elt F) → (⟨S131072x64, .f32⟩ : BufTy).Contents (Elt F)),
    nullary main_cst_31 (constant S_ .f32 0x3F800000#32),
    unary main_cst_31 main_v171 (broadcastInDim S131072x64 ![] bcast_S_S131072x64 : (⟨S_, .f32⟩ : BufTy).Contents (Elt F) → (⟨S131072x64, .f32⟩ : BufTy).Contents (Elt F)),
    binary main_v171 main_v170 main_v172 (addf : (⟨S131072x64, .f32⟩ : BufTy).Contents (Elt F) → (⟨S131072x64, .f32⟩ : BufTy).Contents (Elt F) → (⟨S131072x64, .f32⟩ : BufTy).Contents (Elt F)),
    nullary main_cst_32 (constant S_ .f32 0x3F800000#32),
    unary main_cst_32 main_v173 (broadcastInDim S131072x64 ![] bcast_S_S131072x64 : (⟨S_, .f32⟩ : BufTy).Contents (Elt F) → (⟨S131072x64, .f32⟩ : BufTy).Contents (Elt F)),
    binary main_v173 main_v172 main_v174 (Host.divf : (⟨S131072x64, .f32⟩ : BufTy).Contents (Elt F) → (⟨S131072x64, .f32⟩ : BufTy).Contents (Elt F) → (⟨S131072x64, .f32⟩ : BufTy).Contents (Elt F)),
    nullary main_cst_33 (constant S_ .f32 0x3F800000#32),
    unary main_cst_33 main_v175 (broadcastInDim S131072x64 ![] bcast_S_S131072x64 : (⟨S_, .f32⟩ : BufTy).Contents (Elt F) → (⟨S131072x64, .f32⟩ : BufTy).Contents (Elt F)),
    binary main_v175 main_v174 main_v176 (subf : (⟨S131072x64, .f32⟩ : BufTy).Contents (Elt F) → (⟨S131072x64, .f32⟩ : BufTy).Contents (Elt F) → (⟨S131072x64, .f32⟩ : BufTy).Contents (Elt F)),
    binary main_v156 main_v176 main_v177 (mulf : (⟨S131072x64, .f32⟩ : BufTy).Contents (Elt F) → (⟨S131072x64, .f32⟩ : BufTy).Contents (Elt F) → (⟨S131072x64, .f32⟩ : BufTy).Contents (Elt F)),
    binary main_v156 main_v174 main_v178 (mulf : (⟨S131072x64, .f32⟩ : BufTy).Contents (Elt F) → (⟨S131072x64, .f32⟩ : BufTy).Contents (Elt F) → (⟨S131072x64, .f32⟩ : BufTy).Contents (Elt F)),
    unary main_v177 main_v179 (broadcastInDim S131072x64x1 ![0, 1] bcast_S131072x64_S131072x64x1_0_1 : (⟨S131072x64, .f32⟩ : BufTy).Contents (Elt F) → (⟨S131072x64x1, .f32⟩ : BufTy).Contents (Elt F)),
    unary main_v178 main_v180 (broadcastInDim S131072x64x1 ![0, 1] bcast_S131072x64_S131072x64x1_0_1 : (⟨S131072x64, .f32⟩ : BufTy).Contents (Elt F) → (⟨S131072x64x1, .f32⟩ : BufTy).Contents (Elt F)) ]

abbrev tail6 : List (HloOp τ sig (Elt F)) :=
  [ binary main_v179 main_v180 main_v181 ((fun a b => concatenate S131072x64x2 2 [⟨S131072x64x1, a⟩, ⟨S131072x64x1, b⟩] concatenates_S131072x64x1_S131072x64x1_S131072x64x2_d2) : (⟨S131072x64x1, .f32⟩ : BufTy).Contents (Elt F) → (⟨S131072x64x1, .f32⟩ : BufTy).Contents (Elt F) → (⟨S131072x64x2, .f32⟩ : BufTy).Contents (Elt F)),
    reshape main_v181 main_v182 rfl shapeCasts_S131072x64x2_S131072x128 ]

set_option maxRecDepth 8192 in
theorem left6 (W : Valuation τ sig (Elt F)) (x0 : (⟨S131072x32, .f32⟩ : BufTy).Contents (Elt F)) (x1 : (⟨S255, .f32⟩ : BufTy).Contents (Elt F)) (x2 : (⟨S255, .i32⟩ : BufTy).Contents (Elt F))
    (h0 : W (Proc.devRef .tc main_arg0) = x0) (h1 : W (Proc.devRef .tc main_arg1) = x1)
    (h2 : W (Proc.devRef .tc main_arg2) = x2)
    (hp : W (Proc.devRef .tc main_v156) = val_main_v156 (F := F) x0 x1 x2) :
    after (pre6 (F := F)) W (Proc.devRef .tc main_v179) = val_main_v179 (F := F) x0 x1 x2 := by
  after_results_simp
  simp only [h0, h1, h2, hp]
  rfl

set_option maxRecDepth 8192 in
theorem right6 (W : Valuation τ sig (Elt F)) (x0 : (⟨S131072x32, .f32⟩ : BufTy).Contents (Elt F)) (x1 : (⟨S255, .f32⟩ : BufTy).Contents (Elt F)) (x2 : (⟨S255, .i32⟩ : BufTy).Contents (Elt F))
    (h0 : W (Proc.devRef .tc main_arg0) = x0) (h1 : W (Proc.devRef .tc main_arg1) = x1)
    (h2 : W (Proc.devRef .tc main_arg2) = x2)
    (hp : W (Proc.devRef .tc main_v156) = val_main_v156 (F := F) x0 x1 x2) :
    after (pre6 (F := F)) W (Proc.devRef .tc main_v180) = val_main_v180 (F := F) x0 x1 x2 := by
  after_results_simp
  simp only [h0, h1, h2, hp]
  rfl

theorem join6 (W : Valuation τ sig (Elt F)) (x0 : (⟨S131072x32, .f32⟩ : BufTy).Contents (Elt F)) (x1 : (⟨S255, .f32⟩ : BufTy).Contents (Elt F)) (x2 : (⟨S255, .i32⟩ : BufTy).Contents (Elt F))
    (hl : W (Proc.devRef .tc main_v179) = val_main_v179 (F := F) x0 x1 x2)
    (hr : W (Proc.devRef .tc main_v180) = val_main_v180 (F := F) x0 x1 x2) :
    after (tail6 (F := F)) W (Proc.devRef .tc main_v182) = val_main_v182 (F := F) x0 x1 x2 := by
  simp only [after_cons, after_nil]
  rw [reshape_result, binary_result, hl, hr]
  rfl

theorem keep_pre6 (W : Valuation τ sig (Elt F)) :
    after (pre6 (F := F)) W (Proc.devRef .tc main_arg0) = W (Proc.devRef .tc main_arg0)
      ∧ after (pre6 (F := F)) W (Proc.devRef .tc main_arg1) = W (Proc.devRef .tc main_arg1)
      ∧ after (pre6 (F := F)) W (Proc.devRef .tc main_arg2) = W (Proc.devRef .tc main_arg2)
      ∧ after (pre6 (F := F)) W (Proc.devRef .tc main_arg3) = W (Proc.devRef .tc main_arg3) := by
  refine ⟨?_, ?_, ?_, ?_⟩ <;> after_results_simp

theorem keep_tail6 (W : Valuation τ sig (Elt F)) :
    after (tail6 (F := F)) W (Proc.devRef .tc main_arg0) = W (Proc.devRef .tc main_arg0)
      ∧ after (tail6 (F := F)) W (Proc.devRef .tc main_arg1) = W (Proc.devRef .tc main_arg1)
      ∧ after (tail6 (F := F)) W (Proc.devRef .tc main_arg2) = W (Proc.devRef .tc main_arg2)
      ∧ after (tail6 (F := F)) W (Proc.devRef .tc main_arg3) = W (Proc.devRef .tc main_arg3) := by
  refine ⟨?_, ?_, ?_, ?_⟩ <;> after_results_simp

/-- Level 6: from the invariant and level 5's weights to the invariant and level 6's weights. -/
theorem step6 (W : Valuation τ sig (Elt F)) (x0 : (⟨S131072x32, .f32⟩ : BufTy).Contents (Elt F)) (x1 : (⟨S255, .f32⟩ : BufTy).Contents (Elt F)) (x2 : (⟨S255, .i32⟩ : BufTy).Contents (Elt F)) (x3 : (⟨S256, .i32⟩ : BufTy).Contents (Elt F))
    (hA : Args W x0 x1 x2 x3)
    (hp : W (Proc.devRef .tc main_v156) = val_main_v156 (F := F) x0 x1 x2) :
    Args (after (tail6 (F := F)) (after (pre6 (F := F)) W)) x0 x1 x2 x3
      ∧ after (tail6 (F := F)) (after (pre6 (F := F)) W) (Proc.devRef .tc main_v182) = val_main_v182 (F := F) x0 x1 x2 :=
  ⟨(hA.keep (keep_pre6 W)).keep (keep_tail6 _),
    join6 _ x0 x1 x2 (left6 W x0 x1 x2 hA.1 hA.2.1 hA.2.2.1 hp) (right6 W x0 x1 x2 hA.1 hA.2.1 hA.2.2.1 hp)⟩

/-! ## Level 7 -/

abbrev pre7 : List (HloOp τ sig (Elt F)) :=
  [ unary main_arg2 main_v183 ((extractStridedSlice S128 ![127] · slices_S255_S128_127) : (⟨S255, .i32⟩ : BufTy).Contents (Elt F) → (⟨S128, .i32⟩ : BufTy).Contents (Elt F)),
    unary main_arg1 main_v184 ((extractStridedSlice S128 ![127] · slices_S255_S128_127) : (⟨S255, .f32⟩ : BufTy).Contents (Elt F) → (⟨S128, .f32⟩ : BufTy).Contents (Elt F)),
    nullary main_c_34 (constantI S_ 32 0#32),
    unary main_c_34 main_v185 (broadcastInDim S128 ![] bcast_S_S128 : (⟨S_, .i32⟩ : BufTy).Contents (Elt F) → (⟨S128, .i32⟩ : BufTy).Contents (Elt F)),
    binary main_v183 main_v185 main_v186 (cmpi .slt : (⟨S128, .i32⟩ : BufTy).Contents (Elt F) → (⟨S128, .i32⟩ : BufTy).Contents (Elt F) → (⟨S128, .i1⟩ : BufTy).Contents (Elt F)),
    nullary main_c_35 (constantI S_ 32 32#32),
    unary main_c_35 main_v187 (broadcastInDim S128 ![] bcast_S_S128 : (⟨S_, .i32⟩ : BufTy).Contents (Elt F) → (⟨S128, .i32⟩ : BufTy).Contents (Elt F)),
    binary main_v183 main_v187 main_v188 (addi : (⟨S128, .i32⟩ : BufTy).Contents (Elt F) → (⟨S128, .i32⟩ : BufTy).Contents (Elt F) → (⟨S128, .i32⟩ : BufTy).Contents (Elt F)),
    ternary main_v186 main_v188 main_v183 main_v189 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    unary main_v189 main_v190 (broadcastInDim S128x1 ![0] bcast_S128_S128x1_0 : (⟨S128, .i32⟩ : BufTy).Contents (Elt F) → (⟨S128x1, .i32⟩ : BufTy).Contents (Elt F)),
    binary main_arg0 main_v190 main_v191 ((fun x i => Host.gather gather_S131072x32_S128x1_S131072x128_0_1_n_n_1_1_1310721 x i) : (⟨S131072x32, .f32⟩ : BufTy).Contents (Elt F) → (⟨S128x1, .i32⟩ : BufTy).Contents (Elt F) → (⟨S131072x128, .f32⟩ : BufTy).Contents (Elt F)),
    unary main_v184 main_v192 (broadcastInDim S1x128 ![1] bcast_S128_S1x128_1 : (⟨S128, .f32⟩ : BufTy).Contents (Elt F) → (⟨S1x128, .f32⟩ : BufTy).Contents (Elt F)),
    unary main_v192 main_v193 (broadcastInDim S131072x128 ![0, 1] bcast_S1x128_S131072x128_0_1 : (⟨S1x128, .f32⟩ : BufTy).Contents (Elt F) → (⟨S131072x128, .f32⟩ : BufTy).Contents (Elt F)),
    binary main_v191 main_v193 main_v194 (subf : (⟨S131072x128, .f32⟩ : BufTy).Contents (Elt F) → (⟨S131072x128, .f32⟩ : BufTy).Contents (Elt F) → (⟨S131072x128, .f32⟩ : BufTy).Contents (Elt F)),
    unary main_v194 main_v195 (Host.negf : (⟨S131072x128, .f32⟩ : BufTy).Contents (Elt F) → (⟨S131072x128, .f32⟩ : BufTy).Contents (Elt F)),
    unary main_v195 main_v196 (Host.exp : (⟨S131072x128, .f32⟩ : BufTy).Contents (Elt F) → (⟨S131072x128, .f32⟩ : BufTy).Contents (Elt F)),
    nullary main_cst_36 (constant S_ .f32 0x3F800000#32),
    unary main_cst_36 main_v197 (broadcastInDim S131072x128 ![] bcast_S_S131072x128 : (⟨S_, .f32⟩ : BufTy).Contents (Elt F) → (⟨S131072x128, .f32⟩ : BufTy).Contents (Elt F)),
    binary main_v197 main_v196 main_v198 (addf : (⟨S131072x128, .f32⟩ : BufTy).Contents (Elt F) → (⟨S131072x128, .f32⟩ : BufTy).Contents (Elt F) → (⟨S131072x128, .f32⟩ : BufTy).Contents (Elt F)),
    nullary main_cst_37 (constant S_ .f32 0x3F800000#32),
    unary main_cst_37 main_v199 (broadcastInDim S131072x128 ![] bcast_S_S131072x128 : (⟨S_, .f32⟩ : BufTy).Contents (Elt F) → (⟨S131072x128, .f32⟩ : BufTy).Contents (Elt F)),
    binary main_v199 main_v198 main_v200 (Host.divf : (⟨S131072x128, .f32⟩ : BufTy).Contents (Elt F) → (⟨S131072x128, .f32⟩ : BufTy).Contents (Elt F) → (⟨S131072x128, .f32⟩ : BufTy).Contents (Elt F)),
    nullary main_cst_38 (constant S_ .f32 0x3F800000#32),
    unary main_cst_38 main_v201 (broadcastInDim S131072x128 ![] bcast_S_S131072x128 : (⟨S_, .f32⟩ : BufTy).Contents (Elt F) → (⟨S131072x128, .f32⟩ : BufTy).Contents (Elt F)),
    binary main_v201 main_v200 main_v202 (subf : (⟨S131072x128, .f32⟩ : BufTy).Contents (Elt F) → (⟨S131072x128, .f32⟩ : BufTy).Contents (Elt F) → (⟨S131072x128, .f32⟩ : BufTy).Contents (Elt F)),
    binary main_v182 main_v202 main_v203 (mulf : (⟨S131072x128, .f32⟩ : BufTy).Contents (Elt F) → (⟨S131072x128, .f32⟩ : BufTy).Contents (Elt F) → (⟨S131072x128, .f32⟩ : BufTy).Contents (Elt F)),
    binary main_v182 main_v200 main_v204 (mulf : (⟨S131072x128, .f32⟩ : BufTy).Contents (Elt F) → (⟨S131072x128, .f32⟩ : BufTy).Contents (Elt F) → (⟨S131072x128, .f32⟩ : BufTy).Contents (Elt F)),
    unary main_v203 main_v205 (broadcastInDim S131072x128x1 ![0, 1] bcast_S131072x128_S131072x128x1_0_1 : (⟨S131072x128, .f32⟩ : BufTy).Contents (Elt F) → (⟨S131072x128x1, .f32⟩ : BufTy).Contents (Elt F)),
    unary main_v204 main_v206 (broadcastInDim S131072x128x1 ![0, 1] bcast_S131072x128_S131072x128x1_0_1 : (⟨S131072x128, .f32⟩ : BufTy).Contents (Elt F) → (⟨S131072x128x1, .f32⟩ : BufTy).Contents (Elt F)) ]

abbrev tail7 : List (HloOp τ sig (Elt F)) :=
  [ binary main_v205 main_v206 main_v207 ((fun a b => concatenate S131072x128x2 2 [⟨S131072x128x1, a⟩, ⟨S131072x128x1, b⟩] concatenates_S131072x128x1_S131072x128x1_S131072x128x2_d2) : (⟨S131072x128x1, .f32⟩ : BufTy).Contents (Elt F) → (⟨S131072x128x1, .f32⟩ : BufTy).Contents (Elt F) → (⟨S131072x128x2, .f32⟩ : BufTy).Contents (Elt F)),
    reshape main_v207 main_v208 rfl shapeCasts_S131072x128x2_S131072x256 ]

set_option maxRecDepth 8192 in
theorem left7 (W : Valuation τ sig (Elt F)) (x0 : (⟨S131072x32, .f32⟩ : BufTy).Contents (Elt F)) (x1 : (⟨S255, .f32⟩ : BufTy).Contents (Elt F)) (x2 : (⟨S255, .i32⟩ : BufTy).Contents (Elt F))
    (h0 : W (Proc.devRef .tc main_arg0) = x0) (h1 : W (Proc.devRef .tc main_arg1) = x1)
    (h2 : W (Proc.devRef .tc main_arg2) = x2)
    (hp : W (Proc.devRef .tc main_v182) = val_main_v182 (F := F) x0 x1 x2) :
    after (pre7 (F := F)) W (Proc.devRef .tc main_v205) = val_main_v205 (F := F) x0 x1 x2 := by
  after_results_simp
  simp only [h0, h1, h2, hp]
  rfl

set_option maxRecDepth 8192 in
theorem right7 (W : Valuation τ sig (Elt F)) (x0 : (⟨S131072x32, .f32⟩ : BufTy).Contents (Elt F)) (x1 : (⟨S255, .f32⟩ : BufTy).Contents (Elt F)) (x2 : (⟨S255, .i32⟩ : BufTy).Contents (Elt F))
    (h0 : W (Proc.devRef .tc main_arg0) = x0) (h1 : W (Proc.devRef .tc main_arg1) = x1)
    (h2 : W (Proc.devRef .tc main_arg2) = x2)
    (hp : W (Proc.devRef .tc main_v182) = val_main_v182 (F := F) x0 x1 x2) :
    after (pre7 (F := F)) W (Proc.devRef .tc main_v206) = val_main_v206 (F := F) x0 x1 x2 := by
  after_results_simp
  simp only [h0, h1, h2, hp]
  rfl

theorem join7 (W : Valuation τ sig (Elt F)) (x0 : (⟨S131072x32, .f32⟩ : BufTy).Contents (Elt F)) (x1 : (⟨S255, .f32⟩ : BufTy).Contents (Elt F)) (x2 : (⟨S255, .i32⟩ : BufTy).Contents (Elt F))
    (hl : W (Proc.devRef .tc main_v205) = val_main_v205 (F := F) x0 x1 x2)
    (hr : W (Proc.devRef .tc main_v206) = val_main_v206 (F := F) x0 x1 x2) :
    after (tail7 (F := F)) W (Proc.devRef .tc main_v208) = val_main_v208 (F := F) x0 x1 x2 := by
  simp only [after_cons, after_nil]
  rw [reshape_result, binary_result, hl, hr]
  rfl

theorem keep_pre7 (W : Valuation τ sig (Elt F)) :
    after (pre7 (F := F)) W (Proc.devRef .tc main_arg0) = W (Proc.devRef .tc main_arg0)
      ∧ after (pre7 (F := F)) W (Proc.devRef .tc main_arg1) = W (Proc.devRef .tc main_arg1)
      ∧ after (pre7 (F := F)) W (Proc.devRef .tc main_arg2) = W (Proc.devRef .tc main_arg2)
      ∧ after (pre7 (F := F)) W (Proc.devRef .tc main_arg3) = W (Proc.devRef .tc main_arg3) := by
  refine ⟨?_, ?_, ?_, ?_⟩ <;> after_results_simp

theorem keep_tail7 (W : Valuation τ sig (Elt F)) :
    after (tail7 (F := F)) W (Proc.devRef .tc main_arg0) = W (Proc.devRef .tc main_arg0)
      ∧ after (tail7 (F := F)) W (Proc.devRef .tc main_arg1) = W (Proc.devRef .tc main_arg1)
      ∧ after (tail7 (F := F)) W (Proc.devRef .tc main_arg2) = W (Proc.devRef .tc main_arg2)
      ∧ after (tail7 (F := F)) W (Proc.devRef .tc main_arg3) = W (Proc.devRef .tc main_arg3) := by
  refine ⟨?_, ?_, ?_, ?_⟩ <;> after_results_simp

/-- Level 7: from the invariant and level 6's weights to the invariant and level 7's weights. -/
theorem step7 (W : Valuation τ sig (Elt F)) (x0 : (⟨S131072x32, .f32⟩ : BufTy).Contents (Elt F)) (x1 : (⟨S255, .f32⟩ : BufTy).Contents (Elt F)) (x2 : (⟨S255, .i32⟩ : BufTy).Contents (Elt F)) (x3 : (⟨S256, .i32⟩ : BufTy).Contents (Elt F))
    (hA : Args W x0 x1 x2 x3)
    (hp : W (Proc.devRef .tc main_v182) = val_main_v182 (F := F) x0 x1 x2) :
    Args (after (tail7 (F := F)) (after (pre7 (F := F)) W)) x0 x1 x2 x3
      ∧ after (tail7 (F := F)) (after (pre7 (F := F)) W) (Proc.devRef .tc main_v208) = val_main_v208 (F := F) x0 x1 x2 :=
  ⟨(hA.keep (keep_pre7 W)).keep (keep_tail7 _),
    join7 _ x0 x1 x2 (left7 W x0 x1 x2 hA.1 hA.2.1 hA.2.2.1 hp) (right7 W x0 x1 x2 hA.1 hA.2.1 hA.2.2.1 hp)⟩

/-! ## The leaf classes and the final product -/

abbrev last : List (HloOp τ sig (Elt F)) :=
  [ TRef.unary (TRef.of (T := ⟨S256, .i32⟩) main_arg3) (TRef.of (T := ⟨S256x1, .i32⟩) main_call0_v0) (broadcastInDim S256x1 ![0] bcast_S256_S256x1_0),
    TRef.nullary (TRef.of (T := ⟨S1x10, .i32⟩) main_call0_v1) (iotaInDim S1x10 32 1),
    TRef.unary (TRef.of (T := ⟨S256x1, .i32⟩) main_call0_v0) (TRef.of (T := ⟨S256x10, .i32⟩) main_call0_v2) (broadcastInDim S256x10 ![0, 1] bcast_S256x1_S256x10_0_1),
    TRef.unary (TRef.of (T := ⟨S1x10, .i32⟩) main_call0_v1) (TRef.of (T := ⟨S256x10, .i32⟩) main_call0_v3) (broadcastInDim S256x10 ![0, 1] bcast_S1x10_S256x10_0_1),
    TRef.binary (TRef.of (T := ⟨S256x10, .i32⟩) main_call0_v2) (TRef.of (T := ⟨S256x10, .i32⟩) main_call0_v3) (TRef.of (T := ⟨S256x10, .i1⟩) main_call0_v4) (cmpi .eq),
    TRef.unary (TRef.of (T := ⟨S256x10, .i1⟩) main_call0_v4) (TRef.of (T := ⟨S256x10, .f32⟩) main_v209) (uitofp .f32),
    binary main_v208 main_v209 main_v210 ((fun l r => Host.dotGeneral dot_S131072x256_S256x10_S131072x10_1_0_0_1_n_n none l r) : (⟨S131072x256, .f32⟩ : BufTy).Contents (Elt F) → (⟨S256x10, .f32⟩ : BufTy).Contents (Elt F) → (⟨S131072x10, .f32⟩ : BufTy).Contents (Elt F)) ]

theorem keep_last (W : Valuation τ sig (Elt F)) :
    after (last (F := F)) W (Proc.devRef .tc main_arg0) = W (Proc.devRef .tc main_arg0)
      ∧ after (last (F := F)) W (Proc.devRef .tc main_arg1) = W (Proc.devRef .tc main_arg1)
      ∧ after (last (F := F)) W (Proc.devRef .tc main_arg2) = W (Proc.devRef .tc main_arg2)
      ∧ after (last (F := F)) W (Proc.devRef .tc main_arg3) = W (Proc.devRef .tc main_arg3) := by
  refine ⟨?_, ?_, ?_, ?_⟩ <;> after_results_simp

/-- The last line: from the invariant and the leaves' weights to the result. -/
theorem result_last (W : Valuation τ sig (Elt F)) (x0 : (⟨S131072x32, .f32⟩ : BufTy).Contents (Elt F)) (x1 : (⟨S255, .f32⟩ : BufTy).Contents (Elt F)) (x2 : (⟨S255, .i32⟩ : BufTy).Contents (Elt F)) (x3 : (⟨S256, .i32⟩ : BufTy).Contents (Elt F))
    (h3 : W (Proc.devRef .tc main_arg3) = x3)
    (hp : W (Proc.devRef .tc main_v208) = val_main_v208 (F := F) x0 x1 x2) :
    after (last (F := F)) W (Proc.devRef .tc main_v210) = val_main_v210 (F := F) x0 x1 x2 x3 := by
  after_results
  rw [h3, hp]
  rfl

/-! ## The whole line -/

set_option maxRecDepth 8192 in
set_option maxHeartbeats 2000000 in
/-- The program's operations are the levels' lines, then the last line, in order. -/
theorem ops_eq : (ops (F := F)) = pre0 ++ (tail0 ++ (pre1 ++ (tail1 ++ (pre2 ++ (tail2 ++ (pre3 ++ (tail3 ++ (pre4 ++ (tail4 ++ (pre5 ++ (tail5 ++ (pre6 ++ (tail6 ++ (pre7 ++ (tail7 ++ (last)))))))))))))))) := rfl

/-- After the whole program, from any valuation whose argument buffers hold `x0 … x3`: the result buffer holds the
    last stage's value, and the argument buffers are unchanged. -/
theorem result (V : Valuation τ sig (Elt F)) (x0 : (⟨S131072x32, .f32⟩ : BufTy).Contents (Elt F)) (x1 : (⟨S255, .f32⟩ : BufTy).Contents (Elt F)) (x2 : (⟨S255, .i32⟩ : BufTy).Contents (Elt F)) (x3 : (⟨S256, .i32⟩ : BufTy).Contents (Elt F))
    (hA : Args V x0 x1 x2 x3) :
    after (ops (F := F)) V (Proc.devRef .tc main_v210) = val_main_v210 (F := F) x0 x1 x2 x3
      ∧ Args (after (ops (F := F)) V) x0 x1 x2 x3 := by
  rw [ops_eq]
  simp only [after_append]
  obtain ⟨a0, p0⟩ := step0 V x0 x1 x2 x3 hA
  obtain ⟨a1, p1⟩ := step1 _ x0 x1 x2 x3 a0 p0
  obtain ⟨a2, p2⟩ := step2 _ x0 x1 x2 x3 a1 p1
  obtain ⟨a3, p3⟩ := step3 _ x0 x1 x2 x3 a2 p2
  obtain ⟨a4, p4⟩ := step4 _ x0 x1 x2 x3 a3 p3
  obtain ⟨a5, p5⟩ := step5 _ x0 x1 x2 x3 a4 p4
  obtain ⟨a6, p6⟩ := step6 _ x0 x1 x2 x3 a5 p5
  obtain ⟨a7, p7⟩ := step7 _ x0 x1 x2 x3 a6 p6
  exact ⟨result_last _ x0 x1 x2 x3 a7.2.2.2 p7, a7.keep (keep_last _)⟩

set_option maxRecDepth 8192 in
set_option maxHeartbeats 4000000 in
/-- On every device, for any float values, from any memory with zero counters: every weakly fair execution of the
    reference terminates with the result buffer at the last stage's value of the arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v210)
        = val_main_v210 (F := F) (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => by
      obtain ⟨hv, ha⟩ := result (F := F) (launchContents m c) (m ((c.tc : Thread nD τ).loc main_arg0))
        (m ((c.tc : Thread nD τ).loc main_arg1)) (m ((c.tc : Thread nD τ).loc main_arg2))
        (m ((c.tc : Thread nD τ).loc main_arg3)) ⟨rfl, rfl, rfl, rfl⟩
      exact ⟨(h c main_v210).trans hv, (h c main_arg0).trans ha.1, (h c main_arg1).trans ha.2.1,
        (h c main_arg2).trans ha.2.2.1, (h c main_arg3).trans ha.2.2.2⟩)
    (run_seq scopedRefs_eq scopedSems_eq defs main (fun _ => ops) main_eq (fun _ => ops_sub) m ρ)

end Cert.ReferenceIdeal.StageRun

end
-- ==== Proof.lean ====
/-
  A soft decision tree of depth 8 on 131072 samples of 32 features, against its reference.

  Every internal node i has a gate σ(x[feats[i]] − thr[i]), σ the logistic function; the weight of the path to a node is the
  product, along the path, of the gate at each step to the right and of one less the gate at each step to the left; the
  result for a class is the total weight of the paths to the leaves of that class (Proof/Spec.lean). The reference reads
  the tested feature by gathering columns of x. The kernel multiplies x by the one-hot matrix of the feature indices
  instead, which picks the same column exactly when the index is one of the 32 features; the precondition says so
  (0 ≤ feats < 32), and it is the only thing the proof takes from it: a sum against a one-hot column, and the products
  with the leaf-class selector, need no finiteness over the extended reals. Both programs then double the path weights in
  the same way, the kernel on blocks of 512 samples and the reference on all of them, and both end in the product with
  the same leaf-class one-hot.

  The kernel's frames are the generated ones. The kernel's value is read block by block off the generated frame run
  (Proof/KernelPay.lean: what the body stores; Proof/KernelHost.lean: the operands the host computes before the kernel;
  Proof/KernelValue.lean: from blocks to the whole array). The reference's value is read stage by stage
  (Proof/RefGates.lean, Proof/RefLevels.lean, Proof/RefValue.lean) over its run, itself stated stage by stage
  (Proof/RefRunStages.lean). The idealization rewrote nothing, so
  that conjunct is trivial.
-/
import proofs.«410582_j36696200577414_2_alg».proof.Defs
import proofs.«410582_j36696200577414_2_alg».proof.Proof.Gen.Kernel
import proofs.«410582_j36696200577414_2_alg».proof.Proof.Gen.Kernel.Skeleton
import proofs.«410582_j36696200577414_2_alg».proof.Proof.Gen.Kernel.Launch
import proofs.«410582_j36696200577414_2_alg».proof.Proof.Gen.Kernel.Points
import proofs.«410582_j36696200577414_2_alg».proof.Proof.Gen.Kernel.Frame
import proofs.«410582_j36696200577414_2_alg».proof.Proof.Gen.KernelIdeal
import proofs.«410582_j36696200577414_2_alg».proof.Proof.Gen.KernelIdeal.Skeleton
import proofs.«410582_j36696200577414_2_alg».proof.Proof.Gen.KernelIdeal.Launch
import proofs.«410582_j36696200577414_2_alg».proof.Proof.Gen.KernelIdeal.Points
import proofs.«410582_j36696200577414_2_alg».proof.Proof.Gen.KernelIdeal.Frame
import proofs.«410582_j36696200577414_2_alg».proof.Proof.Gen.ReferenceIdeal
import proofs.«410582_j36696200577414_2_alg».proof.Proof.Gen.Pre_finite_inputs
import proofs.«410582_j36696200577414_2_alg».proof.Proof.Gen.KernelIdeal.Value
import proofs.«410582_j36696200577414_2_alg».proof.Proof.PreDecode
import proofs.«410582_j36696200577414_2_alg».proof.Proof.KernelValue
import proofs.«410582_j36696200577414_2_alg».proof.Proof.RefValue
import proofs.«410582_j36696200577414_2_alg».proof.Proof.RefRunStages
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel as printed runs, and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as they were: its run, the result dropped. -/
theorem frame_referenceIdeal : Cert.frame_ReferenceIdeal := fun m ρ _ =>
  (θ_run Cert.ReferenceIdeal.defs _ _).mono (fun _ h c => (h c).2) (Cert.ReferenceIdeal.StageRun.run (F := Ideal) m ρ)

/-- From memories agreeing on the arguments, with the feature indices in range, both programs end with the
    specification's function of the arguments in their result arrays. -/
theorem algebraic : Cert.algebraic_KernelIdeal_ReferenceIdeal := by
  intro m ρ m' ρ' hpre hagree
  have hf : ∀ (c : Dev Cert.KernelIdeal.nD) (i : Fin 255),
      ((m ((c : Thread Cert.KernelIdeal.nD Cert.KernelIdeal.τ).loc Cert.KernelIdeal.main_arg2) :
        IVec Cert.KernelIdeal.S255 32) (ix1 i)).toNat < 32 :=
    fun c i => Cert.PreDecode.feats_lt _ _ _ _ (hpre c) i
  refine ⟨_, Cert.KernelIdeal.TreeValue.run m ρ hf, ?_⟩
  refine (θ_run Cert.ReferenceIdeal.defs _ _).mono (fun _ h c => ⟨(h c).1.trans ?_, (h c).2⟩)
    (Cert.ReferenceIdeal.StageRun.run (F := Ideal) m' ρ')
  rw [(hagree c).1, (hagree c).2.1, (hagree c).2.2.1, (hagree c).2.2.2]
  exact Cert.ReferenceIdeal.TreeValue.result_eq _ _ _ _ (hf c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
